-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S32x2 .f32) (main_arg8 : FVec F S2 .f32) (main_v33 : IVec S_ 1) : IVec S_ 1 :=
  let main_v34 : FVec F S32x2 .f32 := Host.absf main_arg7
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S128x32 .f32) (main_arg5 : FVec F S32x32 .f32) (main_arg6 : FVec F S32 .f32) (main_arg7 : FVec F S32x2 .f32) (main_arg8 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000 .f32) (main_arg2 : FVec F S128x32 .f32) (main_arg3 : FVec F S32 .f32) (main_arg4 : FVec F S128x32 .f32) (main_arg5 : FVec F S32x32 .f32) (main_arg6 : FVec F S32 .f32) (main_arg7 : FVec F S32x2 .f32) (main_arg8 : FVec F S2 .f32) (main_arg9 : IVec S2x800000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000 : Shape := ⟨1, ![800000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S2x800000 : Shape := ⟨2, ![2, 800000]⟩
abbrev S50000 : Shape := ⟨1, ![50000]⟩
abbrev S50000x32 : Shape := ⟨2, ![50000, 32]⟩
abbrev S5000x128 : Shape := ⟨2, ![5000, 128]⟩
abbrev S5000x32 : Shape := ⟨2, ![5000, 32]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S50000x1 : Shape := ⟨2, ![50000, 1]⟩
abbrev S1x32 : Shape := ⟨2, ![1, 32]⟩
abbrev S1x2 : Shape := ⟨2, ![1, 2]⟩
abbrev S500x2 : Shape := ⟨2, ![500, 2]⟩
abbrev S2000x32 : Shape := ⟨2, ![2000, 32]⟩
abbrev S2000x1 : Shape := ⟨2, ![2000, 1]⟩
abbrev S500x32 : Shape := ⟨2, ![500, 32]⟩
abbrev S1x2000 : Shape := ⟨2, ![1, 2000]⟩
abbrev S500x1 : Shape := ⟨2, ![500, 1]⟩
abbrev S500x2000 : Shape := ⟨2, ![500, 2000]⟩
abbrev S500 : Shape := ⟨1, ![500]⟩

abbrev nBuf : Space → Nat
  | .hbm => 38
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S2x800000, .i32⟩
  | .hbm, ⟨10, _⟩ => ⟨S50000, .i32⟩
  | .hbm, ⟨11, _⟩ => ⟨S50000x32, .f32⟩
  | .hbm, ⟨12, _⟩ => ⟨S50000x32, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x32, .f32⟩
  | .hbm, ⟨26, _⟩ => ⟨S800000x1, .f32⟩
  | .hbm, ⟨27, _⟩ => ⟨S800000x32, .f32⟩
  | .hbm, ⟨28, _⟩ => ⟨S800000x32, .f32⟩
  | .hbm, ⟨29, _⟩ => ⟨S_, .f32⟩
  | .hbm, ⟨30, _⟩ => ⟨S50000x32, .f32⟩
  | .hbm, ⟨31, _⟩ => ⟨S800000x1, .i32⟩
  | .hbm, ⟨32, _⟩ => ⟨S50000x32, .f32⟩
  | .hbm, ⟨33, _⟩ => ⟨S50000x1, .i32⟩
  | .hbm, ⟨34, _⟩ => ⟨S1x32, .f32⟩
  | .hbm, ⟨35, _⟩ => ⟨S1x32, .f32⟩
  | .hbm, ⟨36, _⟩ => ⟨S1x2, .f32⟩
  | .hbm, ⟨37, _⟩ => ⟨S500x2, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S128x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x1, .i32⟩
  | .local _ .vmem, ⟨13, _⟩ => ⟨S2000x1, .i32⟩
  | .local _ .vmem, ⟨14, _⟩ => ⟨S1x32, .f32⟩
  | .local _ .vmem, ⟨15, _⟩ => ⟨S32x32, .f32⟩
  | .local _ .vmem, ⟨16, _⟩ => ⟨S1x32, .f32⟩
  | .local _ .vmem, ⟨17, _⟩ => ⟨S32x2, .f32⟩
  | .local _ .vmem, ⟨18, _⟩ => ⟨S1x2, .f32⟩
  | .local _ .vmem, ⟨19, _⟩ => ⟨S500x2, .f32⟩
  | .local _ .vmem, ⟨20, _⟩ => ⟨S500x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S500x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  shapeCasts_S50000_S50000x1 : S50000.ShapeCasts S50000x1
  shapeCasts_S32_S1x32 : S32.ShapeCasts S1x32
  shapeCasts_S2_S1x2 : S2.ShapeCasts S1x2
  inb_S500x32_S500x32_0_0 : ∀ a, (![0, 0] : Fin 2 → Nat) a + S500x32.size a ≤ S500x32.size a
  h_S500x32 : 0 < S500x32.numel
  shapeCasts_S500x32_S500x32 : S500x32.ShapeCasts S500x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  transposes_S2000x1_p1_0_S1x2000 : S2000x1.Transposes [1, 0] S1x2000
  iota_S500x1_d0_w32 : S500x1.Iotas .tc 32 [0]
  broadcasts_S500x1_S500x2000 : S500x1.Broadcasts S500x2000
  broadcasts_S1x2000_S500x2000 : S1x2000.Broadcasts S500x2000
  natLt_1_32 : 1 < 32
  inb_S32x32_S32x32_0_0 : ∀ a, (![0, 0] : Fin 2 → Nat) a + S32x32.size a ≤ S32x32.size a
  h_S32x32 : 0 < S32x32.numel
  broadcasts_S1x32_S500x32 : S1x32.Broadcasts S500x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S500x2 : S1x2.Broadcasts S500x2
  reduces_S500x2_S500 : S500x2.Reduces [1] S500
  shapeCasts_S500_S500x1 : S500.ShapeCasts S500x1
  broadcasts_S500x1_S500x2 : S500x1.Broadcasts S500x2
  inb_S500x2_S500x2_0_0 : ∀ a, (![0, 0] : Fin 2 → Nat) a + S500x2.size a ≤ S500x2.size a
  h_S500x2 : 0 < S500x2.numel
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S500x2000_S2000x32_S500x32_1_0_0_1_n_n_wf : DotDims.WF S500x2000 S2000x32 S500x32 [1] [0] [0] [1] [] []
  dot_S500x32_S32x32_S500x32_1_0_0_1_n_n_wf : DotDims.WF S500x32 S32x32 S500x32 [1] [0] [0] [1] [] []
  dot_S500x32_S32x2_S500x2_1_0_0_1_n_n_wf : DotDims.WF S500x32 S32x2 S500x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S50000x32.size a
  hwx0_4 : ∀ i : grid0.Coords, EltTy.bits .f32 = 32 ∨ (Rect.block (s := S50000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S50000x32.size a
  hwx1_1 : ∀ i : grid1.Coords, EltTy.bits .f32 = 32 ∨ (Rect.block (s := S50000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .i32 = 32 ∨ (Rect.block (s := S50000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x2.size a ≤ S32x2.size a
  hwx1_6 : ∀ i : grid1.Coords, EltTy.bits .f32 = 32 ∨ (Rect.block (s := S32x2) S32x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S500x2.size a ≤ S500x2.size a
  hwx1_8 : ∀ i : grid1.Coords, EltTy.bits .f32 = 32 ∨ (Rect.block (s := S500x2) S500x2.size (cc1_transform_8 i) (hinb1_8 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S500x2000_S2000x32_S500x32_1_0_0_1_n_n : DotDims S500x2000 S2000x32 S500x32 where
  lhsContracting := [1]
  rhsContracting := [0]
  lhsNonContracting := [0]
  rhsNonContracting := [1]
  lhsBatch := []
  rhsBatch := []
  wf := dot_S500x2000_S2000x32_S500x32_1_0_0_1_n_n_wf
def dot_S500x32_S32x32_S500x32_1_0_0_1_n_n : DotDims S500x32 S32x32 S500x32 where
  lhsContracting := [1]
  rhsContracting := [0]
  lhsNonContracting := [0]
  rhsNonContracting := [1]
  lhsBatch := []
  rhsBatch := []
  wf := dot_S500x32_S32x32_S500x32_1_0_0_1_n_n_wf
def dot_S500x32_S32x2_S500x2_1_0_0_1_n_n : DotDims S500x32 S32x2 S500x2 where
  lhsContracting := [1]
  rhsContracting := [0]
  lhsNonContracting := [0]
  rhsNonContracting := [1]
  lhsBatch := []
  rhsBatch := []
  wf := dot_S500x32_S32x2_S500x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S500x2.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S1x32 : Shape := ⟨2, ![1, 32]⟩
abbrev S500x32 : Shape := ⟨2, ![500, 32]⟩
abbrev S50000x1 : Shape := ⟨2, ![50000, 1]⟩
abbrev S500x2 : Shape := ⟨2, ![500, 2]⟩
abbrev S1x2 : Shape := ⟨2, ![1, 2]⟩
abbrev S500 : Shape := ⟨1, ![500]⟩
abbrev S500x1 : Shape := ⟨2, ![500, 1]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S2x800000, .i32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x32, .f32⟩
  | .hbm, ⟨32, _⟩ => ⟨S1x32, .f32⟩
  | .hbm, ⟨33, _⟩ => ⟨S50000x32, .f32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000x32, .f32⟩
  | .hbm, ⟨39, _⟩ => ⟨S50000x32, .f32⟩
  | .hbm, ⟨40, _⟩ => ⟨S_, .f32⟩
  | .hbm, ⟨41, _⟩ => ⟨S500x32, .f32⟩
  | .hbm, ⟨42, _⟩ => ⟨S50000x1, .i32⟩
  | .hbm, ⟨43, _⟩ => ⟨S500x32, .f32⟩
  | .hbm, ⟨44, _⟩ => ⟨S500x32, .f32⟩
  | .hbm, ⟨45, _⟩ => ⟨S1x32, .f32⟩
  | .hbm, ⟨46, _⟩ => ⟨S500x32, .f32⟩
  | .hbm, ⟨47, _⟩ => ⟨S500x32, .f32⟩
  | .hbm, ⟨48, _⟩ => ⟨S_, .f32⟩
  | .hbm, ⟨49, _⟩ => ⟨S500x32, .f32⟩
  | .hbm, ⟨50, _⟩ => ⟨S500x32, .f32⟩
  | .hbm, ⟨51, _⟩ => ⟨S500x2, .f32⟩
  | .hbm, ⟨52, _⟩ => ⟨S1x2, .f32⟩
  | .hbm, ⟨53, _⟩ => ⟨S500x2, .f32⟩
  | .hbm, ⟨54, _⟩ => ⟨S500x2, .f32⟩
  | .hbm, ⟨55, _⟩ => ⟨S_, .f32⟩
  | .hbm, ⟨56, _⟩ => ⟨S500, .f32⟩
  | .hbm, ⟨57, _⟩ => ⟨S_, .f32⟩
  | .hbm, ⟨58, _⟩ => ⟨S500, .f32⟩
  | .hbm, ⟨59, _⟩ => ⟨S500, .f32⟩
  | .hbm, ⟨60, _⟩ => ⟨S500x1, .f32⟩
  | .hbm, ⟨61, _⟩ => ⟨S500x2, .f32⟩
  | .hbm, ⟨62, _⟩ => ⟨S500x2, .f32⟩
  | .hbm, ⟨63, _⟩ => ⟨S500x2, .f32⟩
  | .hbm, ⟨64, _⟩ => ⟨S_, .f32⟩
  | .hbm, ⟨65, _⟩ => ⟨S500, .f32⟩
  | .hbm, ⟨66, _⟩ => ⟨S500x1, .f32⟩
  | .hbm, ⟨67, _⟩ => ⟨S500x1, .f32⟩
  | .hbm, ⟨68, _⟩ => ⟨S500x2, .f32⟩
  | .hbm, ⟨69, _⟩ => ⟨S500x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call2_cst : Ref sig .tc := ⟨.hbm, 55, rfl⟩
abbrev main_call2_v0 : Ref sig .tc := ⟨.hbm, 56, rfl⟩
abbrev main_call2_cst_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_cst_1 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_v36 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S_S500x32 : S_.BroadcastsInDim S500x32 (![] : Fin 0 → Fin S500x32.rank)
  bcast_S50000_S50000x1_0 : S50000.BroadcastsInDim S50000x1 (![0] : Fin 1 → Fin S50000x1.rank)
  bcast_S1x32_S500x32_0_1 : S1x32.BroadcastsInDim S500x32 (![0, 1] : Fin 2 → Fin S500x32.rank)
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  reducesTo_S500x2_S500_d1 : S500x2.ReducesTo [1] S500
  h_S_ : 0 < S_.numel
  bcast_S_S500 : S_.BroadcastsInDim S500 (![] : Fin 0 → Fin S500.rank)
  bcast_S500_S500x1_0 : S500.BroadcastsInDim S500x1 (![0] : Fin 1 → Fin S500x1.rank)
  bcast_S500x1_S500x2_0_1 : S500x1.BroadcastsInDim S500x2 (![0, 1] : Fin 2 → Fin S500x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  scatter_S500x32_S50000x1_S50000x32_1_0_0_1_wf : ScatterDims.WF S500x32 S50000x1 S50000x32 [1] [0] [0] 1
  dot_S500x32_S32x32_S500x32_1_0_0_1_n_n_wf : DotDims.WF S500x32 S32x32 S500x32 [1] [0] [0] [1] [] []
  dot_S500x32_S32x2_S500x2_1_0_0_1_n_n_wf : DotDims.WF S500x32 S32x2 S500x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def scatter_S500x32_S50000x1_S50000x32_1_0_0_1 : ScatterDims S500x32 S50000x1 S50000x32 where
  updateWindowDims := [1]
  insertedWindowDims := [0]
  scatterDimsToOperandDims := [0]
  indexVectorDim := 1
  wf := scatter_S500x32_S50000x1_S50000x32_1_0_0_1_wf
def dot_S500x32_S32x32_S500x32_1_0_0_1_n_n : DotDims S500x32 S32x32 S500x32 where
  lhsContracting := [1]
  rhsContracting := [0]
  lhsNonContracting := [0]
  rhsNonContracting := [1]
  lhsBatch := []
  rhsBatch := []
  wf := dot_S500x32_S32x32_S500x32_1_0_0_1_n_n_wf
def dot_S500x32_S32x2_S500x2_1_0_0_1_n_n : DotDims S500x32 S32x2 S500x2 where
  lhsContracting := [1]
  rhsContracting := [0]
  lhsNonContracting := [0]
  rhsNonContracting := [1]
  lhsBatch := []
  rhsBatch := []
  wf := dot_S500x32_S32x2_S500x2_1_0_0_1_n_n_wf

class Facts : Prop extends Facts₀ where

variable [Facts]
-- ==== Proof.Kernel.Data.lean ====
/-
  What the two kernels leave behind, written as data for the pipeline library.

  The projection kernel runs over ten blocks of 5000 node rows; at each it stores, into each of its two output blocks,
  the product of the node block with one of the two 128 × 32 weights. The pooling kernel runs over twenty-five blocks of
  2000 nodes; it keeps a 500 × 32 accumulator between blocks — zero before the first block, then at each block the
  accumulator plus the selection-matrix product of that block's hidden rows — and at the last block stores the two
  linear layers and the log-softmax of the accumulator into its output block. Everything here is stated for any
  contents `V` of the buffers at the moment the kernel is entered.
-/
import proofs.«426008_j36335423324474_3_alg».proof.Proof.Gen.Kernel.Launch
import proofs.«426008_j36335423324474_3_alg».proof.Proof.Gen.Kernel.Skeleton
import proofs.«426008_j36335423324474_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection kernel -/

/-- Block `t` of window `w`'s array, as the projection kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node block, the `w_rel` block and the `w_root` block at point `t`, at their literal types. -/
abbrev xBlk (c : Dev nD) (t : Fin cfg0.N) : Vec F S5000x128 .f32 := iblk0 V c 0 t
abbrev wrelBlk (c : Dev nD) (t : Fin cfg0.N) : Vec F S128x32 .f32 := iblk0 V c 1 t
abbrev wrootBlk (c : Dev nD) (t : Fin cfg0.N) : Vec F S128x32 .f32 := iblk0 V c 2 t

/-- After the body at point `t` the three input blocks are in place and each output block holds the product of the
    node block with its weight; nothing is kept between points and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (xBlk V c t) (wrelBlk V c t)
    | ⟨4, _⟩ => k0_pay3 (xBlk V c t) (wrootBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (xBlk V c t) (wrelBlk V c t) := by dsimp only [dat0]
theorem after0_4 (c : Dev nD) (t : Fin cfg0.N) : (dat0 V c).after 4 t = k0_pay3 (xBlk V c t) (wrootBlk V c t) := by dsimp only [dat0]

/-! ## The pooling kernel -/

/-- Block `t` of window `w`'s array, as the pooling kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eight input blocks at point `t`, at their literal types: the summed messages, the root projection, the graph
    words, the bias of the hidden layer, and the two small layers' weights and biases. -/
abbrev aggBlk (c : Dev nD) (t : Fin cfg1.N) : Vec F S2000x32 .f32 := iblk1 V c 0 t
abbrev xrootBlk (c : Dev nD) (t : Fin cfg1.N) : Vec F S2000x32 .f32 := iblk1 V c 1 t
abbrev batchBlk (c : Dev nD) (t : Fin cfg1.N) : Vec F S2000x1 .i32 := iblk1 V c 2 t
abbrev brelBlk (c : Dev nD) (t : Fin cfg1.N) : Vec F S1x32 .f32 := iblk1 V c 3 t
abbrev wfc1Blk (c : Dev nD) (t : Fin cfg1.N) : Vec F S32x32 .f32 := iblk1 V c 4 t
abbrev bfc1Blk (c : Dev nD) (t : Fin cfg1.N) : Vec F S1x32 .f32 := iblk1 V c 5 t
abbrev wfc2Blk (c : Dev nD) (t : Fin cfg1.N) : Vec F S32x2 .f32 := iblk1 V c 6 t
abbrev bfc2Blk (c : Dev nD) (t : Fin cfg1.N) : Vec F S1x2 .f32 := iblk1 V c 7 t

/-- The accumulator after point `n`: at the first point the zero block plus that point's selection product, afterwards
    the previous accumulator plus the point's selection product. -/
def scr1 (c : Dev nD) : (n : ℕ) → n < cfg1.N → Vec F S500x32 .f32
  | 0, h => k1_pay2 (aggBlk V c ⟨0, h⟩) (xrootBlk V c ⟨0, h⟩) (brelBlk V c ⟨0, h⟩) (batchBlk V c ⟨0, h⟩) (k1_pay1 (F := F))
  | n + 1, h => k1_pay2 (aggBlk V c ⟨n + 1, h⟩) (xrootBlk V c ⟨n + 1, h⟩) (brelBlk V c ⟨n + 1, h⟩) (batchBlk V c ⟨n + 1, h⟩)
      (scr1 c n (Nat.lt_of_succ_lt h))

/-- What the last point stores into the output block, stated at every point: the tail of the network applied to the
    accumulator after that point (only the last point's is ever written back). -/
def out1 (c : Dev nD) (t : Fin cfg1.N) : Vec F S500x2 .f32 :=
  k1_pay3 (scr1 V c t.val t.isLt) (wfc1Blk V c t) (bfc1Blk V c t) (wfc2Blk V c t) (bfc2Blk V c t)

/-- The accumulator, a whole scoped buffer of the kernel's own. -/
abbrev scM1 : Memref sig .tc .vmem S500x32 .f32 := Memref.whole cc1_scratch0

/-- The core's scoped buffers that the pooling kernel's windows do not stage: the projection kernel's eight staging
    buffers, each at some contents, and the accumulator as `S` says. -/
def scopedWith1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- Between points the accumulator is carried at `scr1`; before the first point it holds anything. -/
def PhiS1 (c : Dev nD) : (n : ℕ) → n ≤ cfg1.N → sProp 𝕄
  | 0, _ => Pipeline.ΦA spec1 c
  | n + 1, hn => iprop(scopedWith1 c (owns (c : Thread nD τ) scM1 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 c (owns (c : Thread nD τ) scM1 fullShare (scr1 V c n hn)) ∗ (∃ r, prngReg c r)) := rfl
theorem PhiS1_pos (c : Dev nD) (n : ℕ) (h : n ≤ cfg1.N) (hz : n ≠ 0) :
    PhiS1 V c n h = iprop(scopedWith1 c (owns (c : Thread nD τ) scM1 fullShare (scr1 V c (n - 1) (by omega))) ∗ (∃ r, prngReg c r)) := by
  cases n with
  | zero => exact absurd rfl hz
  | succ n => rfl

/-- After the body at point `t` the eight input blocks are in place, the output block is at `out1`, and the
    accumulator is carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.Kernel.ProjectRegion.lean ====
/-
  The projection kernel's body, run at any grid point: it loads its three input blocks, and stores into each of its two
  output blocks the product of the node block with one of the weights.
-/
import proofs.«426008_j36335423324474_3_alg».proof.Proof.Kernel.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- The node block's buffer holds the node block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The first weight's buffer holds that weight at every point, though it is brought in at the first point only:
    its block index never moves. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The same of the second weight. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's accesses: every load and store is of a whole buffer -/

/-- The offsets of every access are zero. -/
theorem off_zero2 : (![0, 0] : Fin 2 → ℕ) = fun _ => 0 := by
  funext a; fin_cases a <;> rfl

/-- A load of a whole buffer reads its contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  View.ld_unit_zero hz inb (v.read (Elt F) f)

/-- One store over a whole buffer leaves its payload, whatever the buffer held. -/
theorem read_write_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

/-! ## The body's triple -/

set_option maxHeartbeats 1000000 in
/-- The body on whole staging buffers, the three inputs' reading `x0 x1 x2` and the two outputs' holding anything,
    runs to the continuation with the inputs as they were and the outputs at the two products. -/
theorem sound_kernel0 (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S128x32 .f32) (harg3 : arg3.IsWhole)
    (arg4 : Memref sig .tc .vmem S5000x32 .f32) (harg4 : arg4.IsWhole)
    (arg5 : Memref sig .tc .vmem S5000x32 .f32) (harg5 : arg5.IsWhole)
    (x0 : Vec F S5000x128 .f32) (x1 x2 : Vec F S128x32 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay2 x0 x1)
            ∗ owns (c : Thread nD τ) arg5 fullShare (k0_pay3 x0 x2)) -∗ K ⟨⟩))
      ⊢ wp frame (wpE (defs₀ (F := F)) Variants.none c none) E
          (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_write_whole _ _ off_zero2, readAt_whole _ _ off_zero2, readAt_whole _ _ off_zero2]
  iexists _; isplitr
  swap; · iexact H4
  ipureintro
  rw [read_write_whole _ _ off_zero2, readAt_whole _ _ off_zero2, readAt_whole _ _ off_zero2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple above applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (xBlk V c t) (wrelBlk V c t) (wrootBlk V c t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the projection kernel at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.PoolRuns.lean ====
/-
  The pooling kernel's body on whole buffers, in each of the three cases of its two conditionals: at the first point it
  zeroes the accumulator and adds the point's selection product; at a middle point it adds the point's selection product
  to what the accumulator held; at the last point it does that and then stores the network's tail of the accumulator into
  the output buffer.
-/
import proofs.«426008_j36335423324474_3_alg».proof.Proof.Kernel.ProjectRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of the body: the grid coordinate is zero. -/
abbrev cond1_0 (i : grid1.Coords) : Prop :=
  (Scalar.cmpi .ne (Scalar.extui (Scalar.cmpi .eq (BitVec.ofNat 32 (i 0).val) 0#32)) 0#32) = 1#1
/-- The second conditional of the body: the grid coordinate is the last. -/
abbrev cond1_1 (i : grid1.Coords) : Prop := k1_cond2 i = 1#1

/-! ## Whole-buffer accesses, when a buffer is stored into more than once or read back -/

/-- The last of several stores, over a whole buffer, leaves its payload whatever the earlier ones were. -/
theorem read_writes_whole_cons {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero hz inb y⟩)).trans
    (View.canon_cons_unit_zero hz inb w L)

set_option maxHeartbeats 1000000 in
/-- The first point: the accumulator, holding anything, ends at the zero block plus the point's selection product. -/
theorem sound_kernel1_A (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : cond1_0 i) (hc1 : ¬cond1_1 i)
    (x0 x1 : Vec F S2000x32 .f32) (x2 : Vec F S2000x1 .i32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay2 x0 x1 x3 x2 (k1_pay1 (F := F)))) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [read_writes_whole_cons _ _ off_zero2, View.readCov_unit_zero _ off_zero2]
  repeat rw [readAt_whole _ _ off_zero2]

set_option maxHeartbeats 1000000 in
/-- A middle point: the accumulator, holding `xs`, ends at `xs` plus the point's selection product. -/
theorem sound_kernel1_B (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : ¬cond1_0 i) (hc1 : ¬cond1_1 i)
    (x0 x1 : Vec F S2000x32 .f32) (x2 : Vec F S2000x1 .i32) (x3 : Vec F S1x32 .f32) (xs : Vec F S500x32 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay2 x0 x1 x3 x2 xs)) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_write_whole _ _ off_zero2]
  repeat rw [readAt_whole _ _ off_zero2]

set_option maxHeartbeats 1000000 in
/-- The last point: the accumulator ends as at a middle point, and the output buffer, holding anything, ends at the
    network's tail of the accumulator's new contents. -/
theorem sound_kernel1_C (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : ¬cond1_0 i) (hc1 : cond1_1 i)
    (x0 x1 : Vec F S2000x32 .f32) (x2 : Vec F S2000x1 .i32) (x3 : Vec F S1x32 .f32)
    (x4 : Vec F S32x32 .f32) (x5 : Vec F S1x32 .f32) (x6 : Vec F S32x2 .f32) (x7 : Vec F S1x2 .f32)
    (xs : Vec F S500x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay3 (k1_pay2 x0 x1 x3 x2 xs) x4 x5 x6 x7)
            ∗ owns (c : Thread nD τ) arg10 fullShare (k1_pay2 x0 x1 x3 x2 xs)) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [read_write_whole _ _ off_zero2, View.readCov_unit_zero _ off_zero2]
    repeat rw [readAt_whole _ _ off_zero2]
  iexists _; isplitr
  swap; · iexact HS
  ipureintro
  sl_unfold_words
  rw [read_write_whole _ _ off_zero2]
  repeat rw [readAt_whole _ _ off_zero2]

end Cert.Kernel.Hand

end
-- ==== Proof.Kernel.PoolRegion.lean ====
/-
  The pooling kernel's body, run at any grid point, by the three cases of its two conditionals (first point, a middle
  point, last point), with the accumulator carried between points.
-/
import proofs.«426008_j36335423324474_3_alg».proof.Proof.Kernel.PoolRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- The body's first conditional (the grid coordinate is zero) holds at point 0 only. -/
theorem hcond1_0 : ∀ t : Fin cfg1.N, cond1_0 (grid1.coords t) ↔ t.val % 25 = 0 :=
  (by decide +kernel : ∀ t : Fin grid1.N, cond1_0 (grid1.coords t) ↔ t.val % 25 = 0)

/-- Its second conditional (the grid coordinate is the last) holds at point 24 only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The eight inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Away from the last point the output window is idle: nothing is stored into it, -/
theorem idleAt1_8 : ∀ t : Fin cfg1.N, ¬cond1_1 (grid1.coords t) → cfg1.idle 8 (grid1.coords t) = true := by decide +kernel
/-- and its block is not written back there. -/
theorem noFlush1_8 : ∀ t : Fin cfg1.N, ¬cond1_1 (grid1.coords t) → (cfg1.win 8).flush t = false := by decide +kernel
/-- At the last point it is live. -/
theorem liveAt1_8 : ∀ t : Fin cfg1.N, cond1_1 (grid1.coords t) → cfg1.idle 8 (grid1.coords t) = false := by decide +kernel

/-! ## The windows' current staging buffers at a point, and their wholeness -/

abbrev ms1_0 (t : Fin cfg1.N) : Memref sig .tc .vmem S2000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S500x2 .f32 := win1_8.stage (cfg1.slots t 8)
abbrev hs1_8 (t : Fin cfg1.N) : (ms1_8 t).IsWhole := hstage1_8 ((cfg1.slots t 8).cast nbuf1_8)

/-- The class invariant with the accumulator named: the eight other scoped buffers and the accumulator each at some
    contents, and the generator register at some state. -/
theorem PhiA1_eq (c : Dev nD) :
    (Pipeline.ΦA spec1 c : sProp 𝕄)
      = iprop(scopedWith1 c iprop(∃ d, owns (c : Thread nD τ) scM1 fullShare d) ∗ (∃ r, prngReg c r)) := by
  unfold Pipeline.ΦA scopedWith1; rw [scopedRest1_eq]; simp only [scM1, owns_whole]; try rfl

variable (V : (c : Dev nD) → (b : Ref sig .tc) → Buf (Elt F) ((c : Thread nD τ).loc b))

/-! ## What the body finds in the inputs' buffers -/

/-- Each input's current staging buffer holds its block at every point, fetched there or not: the body leaves the
    block in place, and where the window is not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The accumulator's contents, point by point -/

/-- At the first point: that point's selection product added to the zero block. -/
theorem scr1_first (c : Dev nD) (t : Fin cfg1.N) (h : t.val = 0) :
    scr1 V c t.val t.isLt = k1_pay2 (aggBlk V c t) (xrootBlk V c t) (brelBlk V c t) (batchBlk V c t) (k1_pay1 (F := F)) := by
  obtain ⟨n, hn⟩ := t
  cases n with
  | zero => rfl
  | succ n => exact absurd h (Nat.succ_ne_zero n)

/-- At a later point: that point's selection product added to what the point before left. -/
theorem scr1_next (c : Dev nD) (t : Fin cfg1.N) (h : t.val ≠ 0) :
    scr1 V c t.val t.isLt = k1_pay2 (aggBlk V c t) (xrootBlk V c t) (brelBlk V c t) (batchBlk V c t)
      (scr1 V c (t.val - 1) (Nat.lt_of_le_of_lt (Nat.sub_le _ _) t.isLt)) := by
  obtain ⟨n, hn⟩ := t
  cases n with
  | zero => exact absurd rfl h
  | succ n => rfl

/-! ## The body obligation, at a generic point -/

/-- What the body is called with at point `t`: the invariant, the core's debts, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t
    ∗ (dat1 V c).leavesExact 6 t ∗ (dat1 V c).leavesExact 7 t ∗ (dat1 V c).leavesExact 8 t)

set_option maxHeartbeats 4800000 in
/-- The body at any point. The inputs' buffers hold their blocks; the closed forms say which of the three cases the
    point is in. At the first point the invariant hands over the accumulator at anything and the first case leaves it at
    the zero block plus the point's selection product; at a later point it hands it over at what the point before left
    and the case adds the point's selection product; at the last point the output buffer also ends at the network's tail
    of the accumulator, elsewhere it is handed back untouched. The eight other scoped buffers, the generator register
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  rw [show (dat1 V c).leavesExact 6 t = owns (c : Thread nD τ) (ms1_6 t) fullShare ((dat1 V c).after 6 t) from rfl, after1_6]
  rw [show (dat1 V c).leavesExact 7 t = owns (c : Thread nD τ) (ms1_7 t) fullShare ((dat1 V c).after 7 t) from rfl, after1_7]
  by_cases hz : t.val = 0
  · have h0 : cond1_0 (grid1.coords t) := (hcond1_0 t).mpr (by omega)
    have h1 : ¬cond1_1 (grid1.coords t) := fun h => by have := (hcond1_1 t).mp h; omega
    rw [Dat.leavesExact_idle (dat1 V c) 8 t (idleAt1_8 t h1) (noFlush1_8 t h1)]
    rw [scr1_first V c t hz]
    rw [Phi1_castSucc V c t, PhiS1_zero V c _ _ hz, PhiA1_eq]
    unfold scopedWith1
    iintro ⟨⟨⟨R0, R1, R2, R3, R4, R5, R6, R7, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (sound_kernel1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
      (aggBlk V c t) (xrootBlk V c t) (batchBlk V c t) (brelBlk V c t) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [R0 R1 R2 R3 R4 R5 R6 R7 HS Hg]
    · isplitl [R0 R1 R2 R3 R4 R5 R6 R7 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h0 : ¬cond1_0 (grid1.coords t) := fun h => by have := (hcond1_0 t).mp h; omega
    rw [Phi1_castSucc V c t, PhiS1_pos V c _ _ hz]
    by_cases h24 : t.val % 25 = 24
    · have h1 : cond1_1 (grid1.coords t) := (hcond1_1 t).mpr h24
      rw [show (dat1 V c).leavesExact 8 t = owns (c : Thread nD τ) (ms1_8 t) fullShare ((dat1 V c).after 8 t) from by
        unfold Dat.leavesExact; rw [liveAt1_8 t h1], after1_8]
      unfold out1
      rw [scr1_next V c t hz]
      unfold scopedWith1
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
        (aggBlk V c t) (xrootBlk V c t) (batchBlk V c t) (brelBlk V c t)
        (wfc1Blk V c t) (bfc1Blk V c t) (wfc2Blk V c t) (bfc2Blk V c t)
        (scr1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [R0 R1 R2 R3 R4 R5 R6 R7 HS Hg]
      · isplitl [R0 R1 R2 R3 R4 R5 R6 R7 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have h1 : ¬cond1_1 (grid1.coords t) := fun h => h24 ((hcond1_1 t).mp h)
      rw [Dat.leavesExact_idle (dat1 V c) 8 t (idleAt1_8 t h1) (noFlush1_8 t h1)]
      rw [scr1_next V c t hz]
      unfold scopedWith1
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (sound_kernel1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
        (aggBlk V c t) (xrootBlk V c t) (batchBlk V c t) (brelBlk V c t)
        (scr1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R0 R1 R2 R3 R4 R5 R6 R7 HS Hg]
      · isplitl [R0 R1 R2 R3 R4 R5 R6 R7 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation of the pooling kernel at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  have hN : cfg1.N = 25 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold scopedWith1
  iintro ⟨⟨R0, R1, R2, R3, R4, R5, R6, R7, HS⟩, Hg⟩
  isplitl [R0 R1 R2 R3 R4 R5 R6 R7 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.Kernel.Hand

end
-- ==== Proof.Kernel.ProgramRun.lean ====
/-
  The whole program run: the projection kernel, the host operations between the kernels, the pooling kernel.

  The buffers' contents are followed from the launch memory through the three stretches: after the projection kernel
  its two result arrays hold what its write-backs leave and every other buffer is as launched; the host operations
  then write their own results; after the pooling kernel its result array holds what its last write-back leaves. No
  stretch writes an argument array, and the program's result is the pooling kernel's output array.
-/
import proofs.«426008_j36335423324474_3_alg».proof.Proof.Kernel.ProjectRegion
import proofs.«426008_j36335423324474_3_alg».proof.Proof.Kernel.PoolRegion
import proofs.«426008_j36335423324474_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch. -/
abbrev W0 : Dev nD → Valuation τ sig (Elt F) := fun c b => m (c, b)
/-- The same read at the TensorCore's references: what the projection kernel is entered with. -/
abbrev V0 : (c : Dev nD) → (b : Ref sig .tc) → Buf (Elt F) ((c : Thread nD τ).loc b) := fun c b => W0 m c b
/-- After the projection kernel: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations between the kernels: what the pooling kernel is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the pooling kernel: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No stretch writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (show main_arg0 ∉ hostOps1_W by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (show main_arg1 ∉ hostOps1_W by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (show main_arg2 ∉ hostOps1_W by decide)
    _ = W0 m c (Proc.devRef .tc main_arg2) := (W1_arr m c 1).trans (((dat0 (V0 m) c).arrAt_in 1 rfl _).trans (A_eq0 (V0 m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (show main_arg3 ∉ hostOps1_W by decide)
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_writes_sub hostOps1 _ hostOps1_writes (show main_arg4 ∉ hostOps1_W by decide)
    _ = W0 m c (Proc.devRef .tc main_arg4) := (W1_arr m c 2).trans (((dat0 (V0 m) c).arrAt_in 2 rfl _).trans (A_eq0 (V0 m) c 2))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 4).trans (((dat1 (V2 m) c).arrAt_in 4 rfl _).trans (A_eq1 (V2 m) c 4))
    _ = W1 m c (Proc.devRef .tc main_arg5) := StableHlo.after_of_writes_sub hostOps1 _ hostOps1_writes (show main_arg5 ∉ hostOps1_W by decide)
    _ = W0 m c (Proc.devRef .tc main_arg5) := W1_of_ne m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := StableHlo.after_of_writes_sub hostOps1 _ hostOps1_writes (show main_arg6 ∉ hostOps1_W by decide)
    _ = W0 m c (Proc.devRef .tc main_arg6) := W1_of_ne m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 6).trans (((dat1 (V2 m) c).arrAt_in 6 rfl _).trans (A_eq1 (V2 m) c 6))
    _ = W1 m c (Proc.devRef .tc main_arg7) := StableHlo.after_of_writes_sub hostOps1 _ hostOps1_writes (show main_arg7 ∉ hostOps1_W by decide)
    _ = W0 m c (Proc.devRef .tc main_arg7) := W1_of_ne m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := StableHlo.after_of_writes_sub hostOps1 _ hostOps1_writes (show main_arg8 ∉ hostOps1_W by decide)
    _ = W0 m c (Proc.devRef .tc main_arg8) := W1_of_ne m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := StableHlo.after_of_writes_sub hostOps1 _ hostOps1_writes (show main_arg9 ∉ hostOps1_W by decide)
    _ = W0 m c (Proc.devRef .tc main_arg9) := W1_of_ne m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := StableHlo.after_of_writes_sub hostOps1 _ hostOps1_writes (show main_arg10 ∉ hostOps1_W by decide)
    _ = W0 m c (Proc.devRef .tc main_arg10) := W1_of_ne m c main_arg10 (by decide)
    _ = m ((c : Thread nD τ).loc main_arg10) := rfl

/-- The program's result is the pooling kernel's output array after its last write-back. -/
theorem W3_main_v22 (c : Dev nD) : W3 m c (Proc.devRef .tc main_v22) = (dat1 (V2 m) c).arrAt 8 cfg1.N := W3_arr m c 8

/-! ## The proof data of both kernels and what rides beside the buffers -/

abbrev adm : (p : Fin 2) → (pcfgs (F := F) p).Adm := fun p => (cfgs p).toPCfg_adm
/-- Each kernel's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W3 m c) ∗ ∃ r, prngReg c r)

/-! ## The kernels as segments -/

/-- The pooling kernel's scoped buffers and the register, handed back in the order the exit takes them. -/
theorem PhiA1_split (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The projection kernel over the thread state: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling kernel over the thread state: entered from `W2`, left at `W3`. Its invariant takes the scoped buffers
    and the register in at the first point and gives them back after the last, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m) c).trans (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of every core holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

/-- The run with the result named: the result array ends at the pooling kernel's output array after its last
    write-back, and every argument array ends as launched. -/
theorem run_value : θ_run defs (onTc (τ := τ) (main (F := F))) ⟨m, fun _ => 0, ρ⟩ (fun r => ∀ c : Dev nD,
      r.2.mem ((c.tc : Thread nD τ).loc main_v22) = (dat1 (V2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v22 (by decide))).trans (W3_main_v22 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

end Cert.Kernel.Hand

end
-- ==== Proof.KernelIdeal.Data.lean ====
/-
  What the two kernels leave behind, written as data for the pipeline library.

  The projection kernel runs over ten blocks of 5000 node rows; at each it stores, into each of its two output blocks,
  the product of the node block with one of the two 128 × 32 weights. The pooling kernel runs over twenty-five blocks of
  2000 nodes; it keeps a 500 × 32 accumulator between blocks — zero before the first block, then at each block the
  accumulator plus the selection-matrix product of that block's hidden rows — and at the last block stores the two
  linear layers and the log-softmax of the accumulator into its output block. Everything here is stated for any
  contents `V` of the buffers at the moment the kernel is entered.
-/
import proofs.«426008_j36335423324474_3_alg».proof.Proof.Gen.KernelIdeal.Launch
import proofs.«426008_j36335423324474_3_alg».proof.Proof.Gen.KernelIdeal.Skeleton
import proofs.«426008_j36335423324474_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The projection kernel -/

/-- Block `t` of window `w`'s array, as the projection kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node block, the `w_rel` block and the `w_root` block at point `t`, at their literal types. -/
abbrev xBlk (c : Dev nD) (t : Fin cfg0.N) : Vec F S5000x128 .f32 := iblk0 V c 0 t
abbrev wrelBlk (c : Dev nD) (t : Fin cfg0.N) : Vec F S128x32 .f32 := iblk0 V c 1 t
abbrev wrootBlk (c : Dev nD) (t : Fin cfg0.N) : Vec F S128x32 .f32 := iblk0 V c 2 t

/-- After the body at point `t` the three input blocks are in place and each output block holds the product of the
    node block with its weight; nothing is kept between points and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (xBlk V c t) (wrelBlk V c t)
    | ⟨4, _⟩ => k0_pay3 (xBlk V c t) (wrootBlk V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (xBlk V c t) (wrelBlk V c t) := by dsimp only [dat0]
theorem after0_4 (c : Dev nD) (t : Fin cfg0.N) : (dat0 V c).after 4 t = k0_pay3 (xBlk V c t) (wrootBlk V c t) := by dsimp only [dat0]

/-! ## The pooling kernel -/

/-- Block `t` of window `w`'s array, as the pooling kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eight input blocks at point `t`, at their literal types: the summed messages, the root projection, the graph
    words, the bias of the hidden layer, and the two small layers' weights and biases. -/
abbrev aggBlk (c : Dev nD) (t : Fin cfg1.N) : Vec F S2000x32 .f32 := iblk1 V c 0 t
abbrev xrootBlk (c : Dev nD) (t : Fin cfg1.N) : Vec F S2000x32 .f32 := iblk1 V c 1 t
abbrev batchBlk (c : Dev nD) (t : Fin cfg1.N) : Vec F S2000x1 .i32 := iblk1 V c 2 t
abbrev brelBlk (c : Dev nD) (t : Fin cfg1.N) : Vec F S1x32 .f32 := iblk1 V c 3 t
abbrev wfc1Blk (c : Dev nD) (t : Fin cfg1.N) : Vec F S32x32 .f32 := iblk1 V c 4 t
abbrev bfc1Blk (c : Dev nD) (t : Fin cfg1.N) : Vec F S1x32 .f32 := iblk1 V c 5 t
abbrev wfc2Blk (c : Dev nD) (t : Fin cfg1.N) : Vec F S32x2 .f32 := iblk1 V c 6 t
abbrev bfc2Blk (c : Dev nD) (t : Fin cfg1.N) : Vec F S1x2 .f32 := iblk1 V c 7 t

/-- The accumulator after point `n`: at the first point the zero block plus that point's selection product, afterwards
    the previous accumulator plus the point's selection product. -/
def scr1 (c : Dev nD) : (n : ℕ) → n < cfg1.N → Vec F S500x32 .f32
  | 0, h => k1_pay2 (aggBlk V c ⟨0, h⟩) (xrootBlk V c ⟨0, h⟩) (brelBlk V c ⟨0, h⟩) (batchBlk V c ⟨0, h⟩) (k1_pay1 (F := F))
  | n + 1, h => k1_pay2 (aggBlk V c ⟨n + 1, h⟩) (xrootBlk V c ⟨n + 1, h⟩) (brelBlk V c ⟨n + 1, h⟩) (batchBlk V c ⟨n + 1, h⟩)
      (scr1 c n (Nat.lt_of_succ_lt h))

/-- What the last point stores into the output block, stated at every point: the tail of the network applied to the
    accumulator after that point (only the last point's is ever written back). -/
def out1 (c : Dev nD) (t : Fin cfg1.N) : Vec F S500x2 .f32 :=
  k1_pay3 (scr1 V c t.val t.isLt) (wfc1Blk V c t) (bfc1Blk V c t) (wfc2Blk V c t) (bfc2Blk V c t)

/-- The accumulator, a whole scoped buffer of the kernel's own. -/
abbrev scM1 : Memref sig .tc .vmem S500x32 .f32 := Memref.whole cc1_scratch0

/-- The core's scoped buffers that the pooling kernel's windows do not stage: the projection kernel's eight staging
    buffers, each at some contents, and the accumulator as `S` says. -/
def scopedWith1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- Between points the accumulator is carried at `scr1`; before the first point it holds anything. -/
def PhiS1 (c : Dev nD) : (n : ℕ) → n ≤ cfg1.N → sProp 𝕄
  | 0, _ => Pipeline.ΦA spec1 c
  | n + 1, hn => iprop(scopedWith1 c (owns (c : Thread nD τ) scM1 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scopedWith1 c (owns (c : Thread nD τ) scM1 fullShare (scr1 V c n hn)) ∗ (∃ r, prngReg c r)) := rfl
theorem PhiS1_pos (c : Dev nD) (n : ℕ) (h : n ≤ cfg1.N) (hz : n ≠ 0) :
    PhiS1 V c n h = iprop(scopedWith1 c (owns (c : Thread nD τ) scM1 fullShare (scr1 V c (n - 1) (by omega))) ∗ (∃ r, prngReg c r)) := by
  cases n with
  | zero => exact absurd rfl hz
  | succ n => rfl

/-- After the body at point `t` the eight input blocks are in place, the output block is at `out1`, and the
    accumulator is carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1 V c t := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KernelIdeal.ProjectRegion.lean ====
/-
  The projection kernel's body, run at any grid point: it loads its three input blocks, and stores into each of its two
  output blocks the product of the node block with one of the weights.
-/
import proofs.«426008_j36335423324474_3_alg».proof.Proof.KernelIdeal.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- The node block's buffer holds the node block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The first weight's buffer holds that weight at every point, though it is brought in at the first point only:
    its block index never moves. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The same of the second weight. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's accesses: every load and store is of a whole buffer -/

/-- The offsets of every access are zero. -/
theorem off_zero2 : (![0, 0] : Fin 2 → ℕ) = fun _ => 0 := by
  funext a; fin_cases a <;> rfl

/-- A load of a whole buffer reads its contents. -/
theorem readAt_whole {sp : Space} {S : Shape} {e : EltTy} (v : View sig .tc sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  View.ld_unit_zero hz inb (v.read (Elt F) f)

/-- One store over a whole buffer leaves its payload, whatever the buffer held. -/
theorem read_write_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

/-! ## The body's triple -/

set_option maxHeartbeats 1000000 in
/-- The body on whole staging buffers, the three inputs' reading `x0 x1 x2` and the two outputs' holding anything,
    runs to the continuation with the inputs as they were and the outputs at the two products. -/
theorem sound_kernel0 (c : Dev nD) (E : Set ℕ) (i : grid0.Coords)
    (arg1 : Memref sig .tc .vmem S5000x128 .f32) (harg1 : arg1.IsWhole)
    (arg2 : Memref sig .tc .vmem S128x32 .f32) (harg2 : arg2.IsWhole)
    (arg3 : Memref sig .tc .vmem S128x32 .f32) (harg3 : arg3.IsWhole)
    (arg4 : Memref sig .tc .vmem S5000x32 .f32) (harg4 : arg4.IsWhole)
    (arg5 : Memref sig .tc .vmem S5000x32 .f32) (harg5 : arg5.IsWhole)
    (x0 : Vec F S5000x128 .f32) (x1 x2 : Vec F S128x32 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay2 x0 x1)
            ∗ owns (c : Thread nD τ) arg5 fullShare (k0_pay3 x0 x2)) -∗ K ⟨⟩))
      ⊢ wp frame (wpE (defs₀ (F := F)) Variants.none c none) E
          (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_write_whole _ _ off_zero2, readAt_whole _ _ off_zero2, readAt_whole _ _ off_zero2]
  iexists _; isplitr
  swap; · iexact H4
  ipureintro
  rw [read_write_whole _ _ off_zero2, readAt_whole _ _ off_zero2, readAt_whole _ _ off_zero2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple above applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (xBlk V c t) (wrelBlk V c t) (wrootBlk V c t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the projection kernel at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.PoolRuns.lean ====
/-
  The pooling kernel's body on whole buffers, in each of the three cases of its two conditionals: at the first point it
  zeroes the accumulator and adds the point's selection product; at a middle point it adds the point's selection product
  to what the accumulator held; at the last point it does that and then stores the network's tail of the accumulator into
  the output buffer.
-/
import proofs.«426008_j36335423324474_3_alg».proof.Proof.KernelIdeal.ProjectRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of the body: the grid coordinate is zero. -/
abbrev cond1_0 (i : grid1.Coords) : Prop :=
  (Scalar.cmpi .ne (Scalar.extui (Scalar.cmpi .eq (BitVec.ofNat 32 (i 0).val) 0#32)) 0#32) = 1#1
/-- The second conditional of the body: the grid coordinate is the last. -/
abbrev cond1_1 (i : grid1.Coords) : Prop := k1_cond2 i = 1#1

/-! ## Whole-buffer accesses, when a buffer is stored into more than once or read back -/

/-- The last of several stores, over a whole buffer, leaves its payload whatever the earlier ones were. -/
theorem read_writes_whole_cons {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero hz inb y⟩)).trans
    (View.canon_cons_unit_zero hz inb w L)

set_option maxHeartbeats 1000000 in
/-- The first point: the accumulator, holding anything, ends at the zero block plus the point's selection product. -/
theorem sound_kernel1_A (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : cond1_0 i) (hc1 : ¬cond1_1 i)
    (x0 x1 : Vec F S2000x32 .f32) (x2 : Vec F S2000x1 .i32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay2 x0 x1 x3 x2 (k1_pay1 (F := F)))) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_words
  rw [read_writes_whole_cons _ _ off_zero2, View.readCov_unit_zero _ off_zero2]
  repeat rw [readAt_whole _ _ off_zero2]

set_option maxHeartbeats 1000000 in
/-- A middle point: the accumulator, holding `xs`, ends at `xs` plus the point's selection product. -/
theorem sound_kernel1_B (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : ¬cond1_0 i) (hc1 : ¬cond1_1 i)
    (x0 x1 : Vec F S2000x32 .f32) (x2 : Vec F S2000x1 .i32) (x3 : Vec F S1x32 .f32) (xs : Vec F S500x32 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg10 fullShare (k1_pay2 x0 x1 x3 x2 xs)) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_write_whole _ _ off_zero2]
  repeat rw [readAt_whole _ _ off_zero2]

set_option maxHeartbeats 1000000 in
/-- The last point: the accumulator ends as at a middle point, and the output buffer, holding anything, ends at the
    network's tail of the accumulator's new contents. -/
theorem sound_kernel1_C (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x1 .i32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S1x32 .f32) (harg6 : arg6.IsWhole)
    (arg7 : Memref sig .tc .vmem S32x2 .f32) (harg7 : arg7.IsWhole)
    (arg8 : Memref sig .tc .vmem S1x2 .f32) (harg8 : arg8.IsWhole)
    (arg9 : Memref sig .tc .vmem S500x2 .f32) (harg9 : arg9.IsWhole)
    (arg10 : Memref sig .tc .vmem S500x32 .f32) (harg10 : arg10.IsWhole)
    (hc0 : ¬cond1_0 i) (hc1 : cond1_1 i)
    (x0 x1 : Vec F S2000x32 .f32) (x2 : Vec F S2000x1 .i32) (x3 : Vec F S1x32 .f32)
    (x4 : Vec F S32x32 .f32) (x5 : Vec F S1x32 .f32) (x6 : Vec F S32x2 .f32) (x7 : Vec F S1x2 .f32)
    (xs : Vec F S500x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (k1_pay3 (k1_pay2 x0 x1 x3 x2 xs) x4 x5 x6 x7)
            ∗ owns (c : Thread nD τ) arg10 fullShare (k1_pay2 x0 x1 x3 x2 xs)) -∗ K ⟨⟩))
      ⊢ wp frame (wpE (defs₀ (F := F)) Variants.none c none) E
          (cc1__combine_pool_kernel i arg1 harg1 arg2 harg2 arg3 harg3 arg4 harg4 arg5 harg5 arg6 harg6 arg7 harg7 arg8 harg8 arg9 harg9 arg10 harg10) K := by
  simp only [cc1__combine_pool_kernel_eq_skeleton]; unfold cc1__combine_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [read_write_whole _ _ off_zero2, View.readCov_unit_zero _ off_zero2]
    repeat rw [readAt_whole _ _ off_zero2]
  iexists _; isplitr
  swap; · iexact HS
  ipureintro
  sl_unfold_words
  rw [read_write_whole _ _ off_zero2]
  repeat rw [readAt_whole _ _ off_zero2]

end Cert.KernelIdeal.Hand

end
-- ==== Proof.KernelIdeal.PoolRegion.lean ====
/-
  The pooling kernel's body, run at any grid point, by the three cases of its two conditionals (first point, a middle
  point, last point), with the accumulator carried between points.
-/
import proofs.«426008_j36335423324474_3_alg».proof.Proof.KernelIdeal.PoolRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, in closed form over the grid -/

/-- The body's first conditional (the grid coordinate is zero) holds at point 0 only. -/
theorem hcond1_0 : ∀ t : Fin cfg1.N, cond1_0 (grid1.coords t) ↔ t.val % 25 = 0 :=
  (by decide +kernel : ∀ t : Fin grid1.N, cond1_0 (grid1.coords t) ↔ t.val % 25 = 0)

/-- Its second conditional (the grid coordinate is the last) holds at point 24 only. -/
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

/-- The eight inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Away from the last point the output window is idle: nothing is stored into it, -/
theorem idleAt1_8 : ∀ t : Fin cfg1.N, ¬cond1_1 (grid1.coords t) → cfg1.idle 8 (grid1.coords t) = true := by decide +kernel
/-- and its block is not written back there. -/
theorem noFlush1_8 : ∀ t : Fin cfg1.N, ¬cond1_1 (grid1.coords t) → (cfg1.win 8).flush t = false := by decide +kernel
/-- At the last point it is live. -/
theorem liveAt1_8 : ∀ t : Fin cfg1.N, cond1_1 (grid1.coords t) → cfg1.idle 8 (grid1.coords t) = false := by decide +kernel

/-! ## The windows' current staging buffers at a point, and their wholeness -/

abbrev ms1_0 (t : Fin cfg1.N) : Memref sig .tc .vmem S2000x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x2 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S500x2 .f32 := win1_8.stage (cfg1.slots t 8)
abbrev hs1_8 (t : Fin cfg1.N) : (ms1_8 t).IsWhole := hstage1_8 ((cfg1.slots t 8).cast nbuf1_8)

/-- The class invariant with the accumulator named: the eight other scoped buffers and the accumulator each at some
    contents, and the generator register at some state. -/
theorem PhiA1_eq (c : Dev nD) :
    (Pipeline.ΦA spec1 c : sProp 𝕄)
      = iprop(scopedWith1 c iprop(∃ d, owns (c : Thread nD τ) scM1 fullShare d) ∗ (∃ r, prngReg c r)) := by
  unfold Pipeline.ΦA scopedWith1; rw [scopedRest1_eq]; simp only [scM1, owns_whole]; try rfl

variable (V : (c : Dev nD) → (b : Ref sig .tc) → Buf (Elt F) ((c : Thread nD τ).loc b))

/-! ## What the body finds in the inputs' buffers -/

/-- Each input's current staging buffer holds its block at every point, fetched there or not: the body leaves the
    block in place, and where the window is not fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The accumulator's contents, point by point -/

/-- At the first point: that point's selection product added to the zero block. -/
theorem scr1_first (c : Dev nD) (t : Fin cfg1.N) (h : t.val = 0) :
    scr1 V c t.val t.isLt = k1_pay2 (aggBlk V c t) (xrootBlk V c t) (brelBlk V c t) (batchBlk V c t) (k1_pay1 (F := F)) := by
  obtain ⟨n, hn⟩ := t
  cases n with
  | zero => rfl
  | succ n => exact absurd h (Nat.succ_ne_zero n)

/-- At a later point: that point's selection product added to what the point before left. -/
theorem scr1_next (c : Dev nD) (t : Fin cfg1.N) (h : t.val ≠ 0) :
    scr1 V c t.val t.isLt = k1_pay2 (aggBlk V c t) (xrootBlk V c t) (brelBlk V c t) (batchBlk V c t)
      (scr1 V c (t.val - 1) (Nat.lt_of_le_of_lt (Nat.sub_le _ _) t.isLt)) := by
  obtain ⟨n, hn⟩ := t
  cases n with
  | zero => exact absurd rfl h
  | succ n => rfl

/-! ## The body obligation, at a generic point -/

/-- What the body is called with at point `t`: the invariant, the core's debts, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t
    ∗ (dat1 V c).leavesExact 6 t ∗ (dat1 V c).leavesExact 7 t ∗ (dat1 V c).leavesExact 8 t)

set_option maxHeartbeats 4800000 in
/-- The body at any point. The inputs' buffers hold their blocks; the closed forms say which of the three cases the
    point is in. At the first point the invariant hands over the accumulator at anything and the first case leaves it at
    the zero block plus the point's selection product; at a later point it hands it over at what the point before left
    and the case adds the point's selection product; at the last point the output buffer also ends at the network's tail
    of the accumulator, elsewhere it is handed back untouched. The eight other scoped buffers, the generator register
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from rfl, after1_0]
  rw [show (dat1 V c).leavesExact 1 t = owns (c : Thread nD τ) (ms1_1 t) fullShare ((dat1 V c).after 1 t) from rfl, after1_1]
  rw [show (dat1 V c).leavesExact 2 t = owns (c : Thread nD τ) (ms1_2 t) fullShare ((dat1 V c).after 2 t) from rfl, after1_2]
  rw [show (dat1 V c).leavesExact 3 t = owns (c : Thread nD τ) (ms1_3 t) fullShare ((dat1 V c).after 3 t) from rfl, after1_3]
  rw [show (dat1 V c).leavesExact 4 t = owns (c : Thread nD τ) (ms1_4 t) fullShare ((dat1 V c).after 4 t) from rfl, after1_4]
  rw [show (dat1 V c).leavesExact 5 t = owns (c : Thread nD τ) (ms1_5 t) fullShare ((dat1 V c).after 5 t) from rfl, after1_5]
  rw [show (dat1 V c).leavesExact 6 t = owns (c : Thread nD τ) (ms1_6 t) fullShare ((dat1 V c).after 6 t) from rfl, after1_6]
  rw [show (dat1 V c).leavesExact 7 t = owns (c : Thread nD τ) (ms1_7 t) fullShare ((dat1 V c).after 7 t) from rfl, after1_7]
  by_cases hz : t.val = 0
  · have h0 : cond1_0 (grid1.coords t) := (hcond1_0 t).mpr (by omega)
    have h1 : ¬cond1_1 (grid1.coords t) := fun h => by have := (hcond1_1 t).mp h; omega
    rw [Dat.leavesExact_idle (dat1 V c) 8 t (idleAt1_8 t h1) (noFlush1_8 t h1)]
    rw [scr1_first V c t hz]
    rw [Phi1_castSucc V c t, PhiS1_zero V c _ _ hz, PhiA1_eq]
    unfold scopedWith1
    iintro ⟨⟨⟨R0, R1, R2, R3, R4, R5, R6, R7, ⟨%ds, HS⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (sound_kernel1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
      (aggBlk V c t) (xrootBlk V c t) (batchBlk V c t) (brelBlk V c t) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [R0 R1 R2 R3 R4 R5 R6 R7 HS Hg]
    · isplitl [R0 R1 R2 R3 R4 R5 R6 R7 HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h0 : ¬cond1_0 (grid1.coords t) := fun h => by have := (hcond1_0 t).mp h; omega
    rw [Phi1_castSucc V c t, PhiS1_pos V c _ _ hz]
    by_cases h24 : t.val % 25 = 24
    · have h1 : cond1_1 (grid1.coords t) := (hcond1_1 t).mpr h24
      rw [show (dat1 V c).leavesExact 8 t = owns (c : Thread nD τ) (ms1_8 t) fullShare ((dat1 V c).after 8 t) from by
        unfold Dat.leavesExact; rw [liveAt1_8 t h1], after1_8]
      unfold out1
      rw [scr1_next V c t hz]
      unfold scopedWith1
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
        (aggBlk V c t) (xrootBlk V c t) (batchBlk V c t) (brelBlk V c t)
        (wfc1Blk V c t) (bfc1Blk V c t) (wfc2Blk V c t) (bfc2Blk V c t)
        (scr1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [R0 R1 R2 R3 R4 R5 R6 R7 HS Hg]
      · isplitl [R0 R1 R2 R3 R4 R5 R6 R7 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have h1 : ¬cond1_1 (grid1.coords t) := fun h => h24 ((hcond1_1 t).mp h)
      rw [Dat.leavesExact_idle (dat1 V c) 8 t (idleAt1_8 t h1) (noFlush1_8 t h1)]
      rw [scr1_next V c t hz]
      unfold scopedWith1
      iintro ⟨⟨⟨R0, R1, R2, R3, R4, R5, R6, R7, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (sound_kernel1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) h0 h1
        (aggBlk V c t) (xrootBlk V c t) (batchBlk V c t) (brelBlk V c t)
        (scr1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R0 R1 R2 R3 R4 R5 R6 R7 HS Hg]
      · isplitl [R0 R1 R2 R3 R4 R5 R6 R7 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation of the pooling kernel at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  have hN : cfg1.N = 25 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold scopedWith1
  iintro ⟨⟨R0, R1, R2, R3, R4, R5, R6, R7, HS⟩, Hg⟩
  isplitl [R0 R1 R2 R3 R4 R5 R6 R7 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.KernelIdeal.Hand

end
-- ==== Proof.KernelIdeal.ProgramRun.lean ====
/-
  The whole program run: the projection kernel, the host operations between the kernels, the pooling kernel.

  The buffers' contents are followed from the launch memory through the three stretches: after the projection kernel
  its two result arrays hold what its write-backs leave and every other buffer is as launched; the host operations
  then write their own results; after the pooling kernel its result array holds what its last write-back leaves. No
  stretch writes an argument array, and the program's result is the pooling kernel's output array.
-/
import proofs.«426008_j36335423324474_3_alg».proof.Proof.KernelIdeal.ProjectRegion
import proofs.«426008_j36335423324474_3_alg».proof.Proof.KernelIdeal.PoolRegion
import proofs.«426008_j36335423324474_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- Core `c`'s buffers at launch. -/
abbrev W0 : Dev nD → Valuation τ sig (Elt F) := fun c b => m (c, b)
/-- The same read at the TensorCore's references: what the projection kernel is entered with. -/
abbrev V0 : (c : Dev nD) → (b : Ref sig .tc) → Buf (Elt F) ((c : Thread nD τ).loc b) := fun c b => W0 m c b
/-- After the projection kernel: its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations between the kernels: what the pooling kernel is entered with. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the pooling kernel: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No stretch writes an argument array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_writes_sub hostOps1 _ hostOps1_writes (show main_arg0 ∉ hostOps1_W by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (show main_arg1 ∉ hostOps1_W by decide)
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (show main_arg2 ∉ hostOps1_W by decide)
    _ = W0 m c (Proc.devRef .tc main_arg2) := (W1_arr m c 1).trans (((dat0 (V0 m) c).arrAt_in 1 rfl _).trans (A_eq0 (V0 m) c 1))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_writes_sub hostOps1 _ hostOps1_writes (show main_arg3 ∉ hostOps1_W by decide)
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_writes_sub hostOps1 _ hostOps1_writes (show main_arg4 ∉ hostOps1_W by decide)
    _ = W0 m c (Proc.devRef .tc main_arg4) := (W1_arr m c 2).trans (((dat0 (V0 m) c).arrAt_in 2 rfl _).trans (A_eq0 (V0 m) c 2))
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 4).trans (((dat1 (V2 m) c).arrAt_in 4 rfl _).trans (A_eq1 (V2 m) c 4))
    _ = W1 m c (Proc.devRef .tc main_arg5) := StableHlo.after_of_writes_sub hostOps1 _ hostOps1_writes (show main_arg5 ∉ hostOps1_W by decide)
    _ = W0 m c (Proc.devRef .tc main_arg5) := W1_of_ne m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := StableHlo.after_of_writes_sub hostOps1 _ hostOps1_writes (show main_arg6 ∉ hostOps1_W by decide)
    _ = W0 m c (Proc.devRef .tc main_arg6) := W1_of_ne m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 6).trans (((dat1 (V2 m) c).arrAt_in 6 rfl _).trans (A_eq1 (V2 m) c 6))
    _ = W1 m c (Proc.devRef .tc main_arg7) := StableHlo.after_of_writes_sub hostOps1 _ hostOps1_writes (show main_arg7 ∉ hostOps1_W by decide)
    _ = W0 m c (Proc.devRef .tc main_arg7) := W1_of_ne m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := StableHlo.after_of_writes_sub hostOps1 _ hostOps1_writes (show main_arg8 ∉ hostOps1_W by decide)
    _ = W0 m c (Proc.devRef .tc main_arg8) := W1_of_ne m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := StableHlo.after_of_writes_sub hostOps1 _ hostOps1_writes (show main_arg9 ∉ hostOps1_W by decide)
    _ = W0 m c (Proc.devRef .tc main_arg9) := W1_of_ne m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := W3_of_ne m c main_arg10 (by decide)
    _ = W1 m c (Proc.devRef .tc main_arg10) := StableHlo.after_of_writes_sub hostOps1 _ hostOps1_writes (show main_arg10 ∉ hostOps1_W by decide)
    _ = W0 m c (Proc.devRef .tc main_arg10) := W1_of_ne m c main_arg10 (by decide)
    _ = m ((c : Thread nD τ).loc main_arg10) := rfl

/-- The program's result is the pooling kernel's output array after its last write-back. -/
theorem W3_main_v22 (c : Dev nD) : W3 m c (Proc.devRef .tc main_v22) = (dat1 (V2 m) c).arrAt 8 cfg1.N := W3_arr m c 8

/-! ## The proof data of both kernels and what rides beside the buffers -/

abbrev adm : (p : Fin 2) → (pcfgs (F := F) p).Adm := fun p => (cfgs p).toPCfg_adm
/-- Each kernel's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W3 m c) ∗ ∃ r, prngReg c r)

/-! ## The kernels as segments -/

/-- The pooling kernel's scoped buffers and the register, handed back in the order the exit takes them. -/
theorem PhiA1_split (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The projection kernel over the thread state: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pooling kernel over the thread state: entered from `W2`, left at `W3`. Its invariant takes the scoped buffers
    and the register in at the first point and gives them back after the last, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V2 m) c).trans (PhiA1_split c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of every core holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

/-- The run with the result named: the result array ends at the pooling kernel's output array after its last
    write-back, and every argument array ends as launched. -/
theorem run_value : θ_run defs (onTc (τ := τ) (main (F := F))) ⟨m, fun _ => 0, ρ⟩ (fun r => ∀ c : Dev nD,
      r.2.mem ((c.tc : Thread nD τ).loc main_v22) = (dat1 (V2 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v22 (by decide))).trans (W3_main_v22 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c)⟩) (run_all m ρ)

end Cert.KernelIdeal.Hand

end
-- ==== Proof.Spec.lean ====
/-
  The graph-convolution network as plain functions of its argument arrays, entry by entry, on the extended reals.

  Nodes carry 128 features, edges a weight and two node words (a source and a destination). A node's hidden vector is
  relu(lin_rel(sum over incoming edges of weight · source features) + lin_root(own features)); the hidden vectors are
  summed per graph id, and each graph's sum goes through two small linear layers and a log-softmax over 2 classes.

  Two arrangements of the hidden layer are written down. In one (`hiddenR`) the 128-feature messages are summed per
  destination and the sum is multiplied by w_rel; in the other (`hiddenK`) the node table is multiplied by w_rel
  first and the 32-feature products are gathered, weighted and summed. Likewise the per-graph sum is written once as a
  sum over the nodes of a graph (`pooledR`) and once as a product with a 0/1 selection matrix (`pooledK`).
-/
import Idealize.ShloMosaic.PureOps.Ideal
import Idealize.ShloMosaic.Lib.ValueIdx

noncomputable section

namespace Cert.Spec

open Idealize.ShloMosaic Idealize.ShloMosaic.ValueIdx
open scoped BigOperators

/-- An `a × b` array of extended reals. -/
abbrev Mat (a b : ℕ) : Type := (⟨2, ![a, b]⟩ : Shape).Idx → EReal
/-- A length-`a` array of extended reals. -/
abbrev Vc (a : ℕ) : Type := (⟨1, ![a]⟩ : Shape).Idx → EReal
/-- A length-`a` array of 32-bit words. -/
abbrev Wd (a : ℕ) : Type := (⟨1, ![a]⟩ : Shape).Idx → BitVec 32

/-! ## The edge words -/

/-- The destination word of edge `e`: row 1 of the edge index. -/
def dstOf (ei : (⟨2, ![2, 800000]⟩ : Shape).Idx → BitVec 32) : Wd 800000 := fun i => ei (ix2 (1 : Fin 2) (i 0))

/-- The source word of edge `e`: row 0 of the edge index, a negative word moved up by the number of nodes. -/
def srcOf (ei : (⟨2, ![2, 800000]⟩ : Shape).Idx → BitVec 32) : Wd 800000 := fun i =>
  Scalar.select (IntOp.cmpi .slt (ei (ix2 (0 : Fin 2) (i 0))) 0#32) (IntOp.addi (ei (ix2 (0 : Fin 2) (i 0))) 50000#32)
    (ei (ix2 (0 : Fin 2) (i 0)))

/-- The node row edge `e` reads: its source word, read signed and clamped into the table. -/
def srcRow (sw : Wd 800000) (e : Fin 800000) : Fin 50000 := ⟨min (sw (ix1 e)).toInt.toNat 49999, by omega⟩

/-! ## The hidden layer -/

/-- Entry `(n, d)` of the product of the node table with a `128 × 32` weight. -/
def projAt (x : Mat 50000 128) (w : Mat 128 32) (n : Fin 50000) (d : Fin 32) : EReal :=
  ∑ k : Fin 128, x (ix2 n k) * w (ix2 k d)

/-- The product of the node table with a `128 × 32` weight. -/
def proj (x : Mat 50000 128) (w : Mat 128 32) : Mat 50000 32 := fun i => projAt x w (i 0) (i 1)

/-- Feature `k` of the weighted messages arriving at node `n`, for a node table `y` of any width: zero plus the sum,
    over the edges whose destination word is `n`, of the source row's feature times the edge weight. -/
def aggAt {C : ℕ} (y : Mat 50000 C) (sw dw : Wd 800000) (ew : Vc 800000) (n : Fin 50000) (k : Fin C) : EReal :=
  0 + ∑ e : Fin 800000, if (dw (ix1 e)).toInt = (n.val : ℤ) then y (ix2 (srcRow sw e) k) * ew (ix1 e) else 0

/-- The hidden layer with the messages summed in feature space and then multiplied by `w_rel`. -/
def hiddenR (x : Mat 50000 128) (ew : Vc 800000) (wrel : Mat 128 32) (brel : Vc 32) (wroot : Mat 128 32)
    (sw dw : Wd 800000) : Mat 50000 32 := fun i =>
  max (((∑ f : Fin 128, aggAt x sw dw ew (i 0) f * wrel (ix2 f (i 1))) + brel (ix1 (i 1))) + projAt x wroot (i 0) (i 1)) 0

/-- The hidden layer with the node table multiplied by `w_rel` first and the products gathered, weighted and summed. -/
def hiddenK (x : Mat 50000 128) (ew : Vc 800000) (wrel : Mat 128 32) (brel : Vc 32) (wroot : Mat 128 32)
    (sw dw : Wd 800000) : Mat 50000 32 := fun i =>
  max ((aggAt (proj x wrel) sw dw ew (i 0) (i 1) + projAt x wroot (i 0) (i 1)) + brel (ix1 (i 1))) 0

/-! ## The sum per graph -/

/-- Row `g` of the per-graph sum as the sum over the nodes whose graph word is `g`. -/
def pooledR (h : Mat 50000 32) (batch : Wd 50000) : Mat 500 32 := fun i =>
  0 + ∑ n : Fin 50000, if (batch (ix1 n)).toInt = (((i 0).val : ℕ) : ℤ) then h (ix2 n (i 1)) else 0

/-- Row `g` of the per-graph sum as a product with the selection matrix whose entry `(g, n)` is 1 when node `n`'s graph
    word is `g` and 0 otherwise. -/
def pooledK (h : Mat 50000 32) (batch : Wd 50000) : Mat 500 32 := fun i =>
  ∑ n : Fin 50000, (if batch (ix1 n) = BitVec.ofNat 32 (i 0).val then (1 : EReal) else 0) * h (ix2 n (i 1))

/-! ## The two linear layers and the log-softmax -/

/-- The first layer at `(g, k)`: relu of the row of sums times `w_fc1` plus the bias. -/
def fc1At (p : Mat 500 32) (wfc1 : Mat 32 32) (bfc1 : Vc 32) (g : Fin 500) (k : Fin 32) : EReal :=
  max ((∑ l : Fin 32, p (ix2 g l) * wfc1 (ix2 l k)) + bfc1 (ix1 k)) 0

/-- The logit of graph `g` for class `j`. -/
def logitAt (p : Mat 500 32) (wfc1 : Mat 32 32) (bfc1 : Vc 32) (wfc2 : Mat 32 2) (bfc2 : Vc 2) (g : Fin 500) (j : Fin 2) :
    EReal :=
  (∑ k : Fin 32, fc1At p wfc1 bfc1 g k * wfc2 (ix2 k j)) + bfc2 (ix1 j)

/-- The larger of a graph's two logits, as the fold of `max` from the bottom element. -/
def rowMax (L : Fin 2 → EReal) : EReal := (Finset.univ : Finset (Fin 2)).fold max ⊥ L

/-- The log-softmax of the logits: logit minus the row maximum, minus the log of the summed exponentials. -/
def tail (p : Mat 500 32) (wfc1 : Mat 32 32) (bfc1 : Vc 32) (wfc2 : Mat 32 2) (bfc2 : Vc 2) : Mat 500 2 := fun i =>
  (logitAt p wfc1 bfc1 wfc2 bfc2 (i 0) (i 1) - rowMax (logitAt p wfc1 bfc1 wfc2 bfc2 (i 0)))
    - Ideal.log (∑ j : Fin 2, Ideal.exp (logitAt p wfc1 bfc1 wfc2 bfc2 (i 0) j - rowMax (logitAt p wfc1 bfc1 wfc2 bfc2 (i 0))))

/-! ## The whole network, in its two arrangements -/

def netK (x : Mat 50000 128) (ew : Vc 800000) (wrel : Mat 128 32) (brel : Vc 32) (wroot : Mat 128 32) (wfc1 : Mat 32 32)
    (bfc1 : Vc 32) (wfc2 : Mat 32 2) (bfc2 : Vc 2) (ei : (⟨2, ![2, 800000]⟩ : Shape).Idx → BitVec 32) (batch : Wd 50000) :
    Mat 500 2 :=
  tail (pooledK (hiddenK x ew wrel brel wroot (srcOf ei) (dstOf ei)) batch) wfc1 bfc1 wfc2 bfc2

def netR (x : Mat 50000 128) (ew : Vc 800000) (wrel : Mat 128 32) (brel : Vc 32) (wroot : Mat 128 32) (wfc1 : Mat 32 32)
    (bfc1 : Vc 32) (wfc2 : Mat 32 2) (bfc2 : Vc 2) (ei : (⟨2, ![2, 800000]⟩ : Shape).Idx → BitVec 32) (batch : Wd 50000) :
    Mat 500 2 :=
  tail (pooledR (hiddenR x ew wrel brel wroot (srcOf ei) (dstOf ei)) batch) wfc1 bfc1 wfc2 bfc2

end Cert.Spec

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.KernelIdeal.ProjectValue.lean ====
/-
  What the projection kernel's two output arrays hold once all ten blocks are written back: the product of the whole node
  table with each weight.

  Each grid point t stores, into rows 5000 t … 5000 t + 4999 of an output array, the product of rows 5000 t … 5000 t + 4999
  of the node table with a whole 128 × 32 weight. Entry (p, q) of such a block product is the sum over k of
  x[5000 t + p, k] · w[k, q], which is entry (5000 t + p, q) of the product of the whole table with the weight; so each
  point writes back its own row block of one array-wide function, and since every row r lies in the block of point
  r / 5000, the ten blocks together fill the array with that function.
-/
import proofs.«426008_j36335423324474_3_alg».proof.Proof.KernelIdeal.Data
import proofs.«426008_j36335423324474_3_alg».proof.Proof.Spec
import proofs.«426008_j36335423324474_3_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.ProjectValue

open Idealize.ShloMosaic Idealize.ShloMosaic.TcCoe Idealize.ShloMosaic.ValueIdx Idealize.SL.Sem
open Cert.KernelIdeal Cert.KernelIdeal.Gen Cert.KernelIdeal.Hand
open scoped BigOperators

/-! ## A block product at an entry -/

/-- Entry (p, q) of the block stored into the first output: the sum over the 128 features of the node block's row p
    times the weight's column q (rounding to the narrower float is the identity on the extended reals, and the
    accumulator starts at zero). -/
theorem blockProduct_rel_apply (x0 : Vec Ideal S5000x128 .f32) (x1 : Vec Ideal S128x32 .f32) (p : Fin 5000) (q : Fin 32) :
    k0_pay2 x0 x1 (ix2 p q) = ∑ k : Fin 128, x0 (ix2 p k) * x1 (ix2 k q) := by
  unfold k0_pay2 k0_pay1
  show matmul (DotDims.plain 5000 128 32) none _ _ _ (ix2 p q) = _
  rw [Cert.LibMatmulPlain.matmul_plain_apply]
  rfl

/-- Entry (p, q) of the block stored into the second output: the same sum with the other weight. -/
theorem blockProduct_root_apply (x0 : Vec Ideal S5000x128 .f32) (x1 : Vec Ideal S128x32 .f32) (p : Fin 5000) (q : Fin 32) :
    k0_pay3 x0 x1 (ix2 p q) = ∑ k : Fin 128, x0 (ix2 p k) * x1 (ix2 k q) := by
  unfold k0_pay3 k0_pay1
  show matmul (DotDims.plain 5000 128 32) none _ _ _ (ix2 p q) = _
  rw [Cert.LibMatmulPlain.matmul_plain_apply]
  rfl

/-! ## Which block each window holds at a point -/

/-- At point t the node window and both output windows are at row block t (column block 0), and both weight windows at
    their one block. -/
theorem rowBlock_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## What a point writes back -/

/-- Point t writes back, into the first output, row block t of the node table times `w_rel`. -/
theorem flushed_rel (c : Dev nD) (t : Fin cfg0.N) :
    (dat0 (F := Ideal) V c).flushed 3 t
      = ((cfg0.win 3).blk t).view.read (Elt Ideal) (Cert.Spec.proj (V c main_arg0) (V c main_arg2)) := by
  show (cfg0.win 3).cut (grid0.coords t) ((dat0 (F := Ideal) V c).after 3 t) = _
  rw [after0_3]
  obtain ⟨e00, e01, e10, e11, e20, e21, e30, e31, e40, e41⟩ := rowBlock_facts t
  funext j
  obtain ⟨p, q, rfl⟩ : ∃ (p : Fin 5000) (q : Fin 32), j = ix2 p q := ⟨j 0, j 1, eq_ix2 j⟩
  show k0_pay2 (xBlk V c t) (wrelBlk V c t) (ix2 p q)
    = Cert.Spec.proj (V c main_arg0) (V c main_arg2) (((cfg0.win 3).blk t).view.emb (ix2 p q))
  rw [blockProduct_rel_apply]
  unfold Cert.Spec.proj Cert.Spec.projAt
  refine Finset.sum_congr rfl fun k _ => ?_
  have hx : ((cfg0.win 0).blk t).view.emb (ix2 p k) = ix2 ((((cfg0.win 3).blk t).view.emb (ix2 p q)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ((cfg0.win 1).blk t).view.emb (ix2 k q) = ix2 k ((((cfg0.win 3).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 32 + 1 * q.val = win0_3.index t (1 : Fin 2) * 32 + 1 * q.val; omega
  have hx' : xBlk V c t (ix2 p k) = V c main_arg0 (ix2 ((((cfg0.win 3).blk t).view.emb (ix2 p q)) 0) k) :=
    congrArg (V c main_arg0) hx
  have hw' : wrelBlk V c t (ix2 k q) = V c main_arg2 (ix2 k ((((cfg0.win 3).blk t).view.emb (ix2 p q)) 1)) :=
    congrArg (V c main_arg2) hw
  rw [hx', hw']

/-- Point t writes back, into the second output, row block t of the node table times `w_root`. -/
theorem flushed_root (c : Dev nD) (t : Fin cfg0.N) :
    (dat0 (F := Ideal) V c).flushed 4 t
      = ((cfg0.win 4).blk t).view.read (Elt Ideal) (Cert.Spec.proj (V c main_arg0) (V c main_arg4)) := by
  show (cfg0.win 4).cut (grid0.coords t) ((dat0 (F := Ideal) V c).after 4 t) = _
  rw [after0_4]
  obtain ⟨e00, e01, e10, e11, e20, e21, e30, e31, e40, e41⟩ := rowBlock_facts t
  funext j
  obtain ⟨p, q, rfl⟩ : ∃ (p : Fin 5000) (q : Fin 32), j = ix2 p q := ⟨j 0, j 1, eq_ix2 j⟩
  show k0_pay3 (xBlk V c t) (wrootBlk V c t) (ix2 p q)
    = Cert.Spec.proj (V c main_arg0) (V c main_arg4) (((cfg0.win 4).blk t).view.emb (ix2 p q))
  rw [blockProduct_root_apply]
  unfold Cert.Spec.proj Cert.Spec.projAt
  refine Finset.sum_congr rfl fun k _ => ?_
  have hx : ((cfg0.win 0).blk t).view.emb (ix2 p k) = ix2 ((((cfg0.win 4).blk t).view.emb (ix2 p q)) 0) k := by
    funext a; apply Fin.ext
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  have hw : ((cfg0.win 2).blk t).view.emb (ix2 k q) = ix2 k ((((cfg0.win 4).blk t).view.emb (ix2 p q)) 1) := by
    funext a; apply Fin.ext
    match a with
    | ⟨0, _⟩ => show win0_2.index t (0 : Fin 2) * 128 + 1 * k.val = k.val; omega
    | ⟨1, _⟩ => show win0_2.index t (1 : Fin 2) * 32 + 1 * q.val = win0_4.index t (1 : Fin 2) * 32 + 1 * q.val; omega
  have hx' : xBlk V c t (ix2 p k) = V c main_arg0 (ix2 ((((cfg0.win 4).blk t).view.emb (ix2 p q)) 0) k) :=
    congrArg (V c main_arg0) hx
  have hw' : wrootBlk V c t (ix2 k q) = V c main_arg4 (ix2 k ((((cfg0.win 4).blk t).view.emb (ix2 p q)) 1)) :=
    congrArg (V c main_arg4) hw
  rw [hx', hw']

/-! ## The ten row blocks fill the array -/

/-- An entry of the first output is in point t's block iff each coordinate is in the block's range on its axis. -/
theorem mem_rowBlock_rel (t : Fin cfg0.N) (i : S50000x32.Idx) :
    i ∈ ((cfg0.win 3).blk t).view.set
      ↔ ∀ a : Fin 2, win0_3.index t a * S5000x32.size a ≤ (i a).val ∧ (i a).val < win0_3.index t a * S5000x32.size a + S5000x32.size a := by
  show i ∈ ((View.whole main_v0_0).slice (win0_3.rect t)).set ↔ _
  rw [View.set_slice_whole, Rect.mem_set_unit]
  exact Iff.rfl

/-- An entry of the second output is in point t's block iff each coordinate is in the block's range on its axis. -/
theorem mem_rowBlock_root (t : Fin cfg0.N) (i : S50000x32.Idx) :
    i ∈ ((cfg0.win 4).blk t).view.set
      ↔ ∀ a : Fin 2, win0_4.index t a * S5000x32.size a ≤ (i a).val ∧ (i a).val < win0_4.index t a * S5000x32.size a + S5000x32.size a := by
  show i ∈ ((View.whole main_v0_1).slice (win0_4.rect t)).set ↔ _
  rw [View.set_slice_whole, Rect.mem_set_unit]
  exact Iff.rfl

/-- The grid point whose row block holds row r: r / 5000. -/
def pointOfRow (r : Fin 50000) : Fin cfg0.N := ⟨r.val / 5000, by rw [show cfg0.N = 10 from N_0]; omega⟩

theorem pointOfRow_val (r : Fin 50000) : (pointOfRow r).val = r.val / 5000 := rfl

/-- Every entry of the first output lies in the block of the point of its row. -/
theorem cover_rel (i : S50000x32.Idx) :
    ∃ t : Fin cfg0.N, (cfg0.win 3).flush t = true ∧ i ∈ ((cfg0.win 3).blk t).view.set := by
  refine ⟨pointOfRow (i 0), flush0_3 _, ?_⟩
  obtain ⟨e00, e01, e10, e11, e20, e21, e30, e31, e40, e41⟩ := rowBlock_facts (pointOfRow (i 0))
  have ht := pointOfRow_val (i 0)
  have hi0 : (i 0).val < 50000 := (i 0).isLt
  have hi1 : (i 1).val < 32 := (i 1).isLt
  rw [mem_rowBlock_rel]
  intro a
  match a with
  | ⟨0, _⟩ => show win0_3.index (pointOfRow (i 0)) (0 : Fin 2) * 5000 ≤ (i 0).val ∧ (i 0).val < win0_3.index (pointOfRow (i 0)) (0 : Fin 2) * 5000 + 5000; omega
  | ⟨1, _⟩ => show win0_3.index (pointOfRow (i 0)) (1 : Fin 2) * 32 ≤ (i 1).val ∧ (i 1).val < win0_3.index (pointOfRow (i 0)) (1 : Fin 2) * 32 + 32; omega

/-- Every entry of the second output lies in the block of the point of its row. -/
theorem cover_root (i : S50000x32.Idx) :
    ∃ t : Fin cfg0.N, (cfg0.win 4).flush t = true ∧ i ∈ ((cfg0.win 4).blk t).view.set := by
  refine ⟨pointOfRow (i 0), flush0_4 _, ?_⟩
  obtain ⟨e00, e01, e10, e11, e20, e21, e30, e31, e40, e41⟩ := rowBlock_facts (pointOfRow (i 0))
  have ht := pointOfRow_val (i 0)
  have hi0 : (i 0).val < 50000 := (i 0).isLt
  have hi1 : (i 1).val < 32 := (i 1).isLt
  rw [mem_rowBlock_root]
  intro a
  match a with
  | ⟨0, _⟩ => show win0_4.index (pointOfRow (i 0)) (0 : Fin 2) * 5000 ≤ (i 0).val ∧ (i 0).val < win0_4.index (pointOfRow (i 0)) (0 : Fin 2) * 5000 + 5000; omega
  | ⟨1, _⟩ => show win0_4.index (pointOfRow (i 0)) (1 : Fin 2) * 32 ≤ (i 1).val ∧ (i 1).val < win0_4.index (pointOfRow (i 0)) (1 : Fin 2) * 32 + 32; omega

/-! ## The two output arrays -/

/-- The first output array after the run is the node table times `w_rel`. -/
theorem xr_eq (c : Dev nD) :
    (dat0 (F := Ideal) V c).arrAt 3 cfg0.N = (Cert.Spec.proj (V c main_arg0) (V c main_arg2) : S50000x32.Idx → EReal) :=
  (dat0 (F := Ideal) V c).arrAt_eq_of_cover 3 (Cert.Spec.proj (V c main_arg0) (V c main_arg2))
    (fun t _ => flushed_rel V c t) cover_rel

/-- The second output array after the run is the node table times `w_root`. -/
theorem xroot_eq (c : Dev nD) :
    (dat0 (F := Ideal) V c).arrAt 4 cfg0.N = (Cert.Spec.proj (V c main_arg0) (V c main_arg4) : S50000x32.Idx → EReal) :=
  (dat0 (F := Ideal) V c).arrAt_eq_of_cover 4 (Cert.Spec.proj (V c main_arg0) (V c main_arg4))
    (fun t _ => flushed_root V c t) cover_root

end Cert.KernelIdeal.ProjectValue

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelIdeal.PoolPayload.lean ====
/-
  The pooling kernel's three stored values, read entry by entry on the extended reals: the zero block; the accumulator
  plus the selection-matrix product of a block's hidden rows; and the two linear layers with the log-softmax.
-/
import proofs.«426008_j36335423324474_3_alg».proof.Proof.Gen.KernelIdeal.Skeleton
import proofs.«426008_j36335423324474_3_alg».proof.Proof.Spec
import proofs.«426008_j36335423324474_3_alg».proof.Proof.LibMatmulPlain
import proofs.«426008_j36335423324474_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolPayload

open Idealize.ShloMosaic Idealize.ShloMosaic.TcCoe Idealize.ShloMosaic.ValueIdx Idealize.SL.Sem
open Cert.KernelIdeal Cert.KernelIdeal.Gen
open Cert.LibMatmulPlain Cert.LibKeepdims

/-- One entry of the 0/1 selection matrix: the row's position word compared with the node's graph word, the one-bit
    outcome widened and read as a number. -/
theorem sel_apply (w : IVec S2000x1 32) (g : Fin 500) (q : Fin 2000) :
    (sitofp .f32 (extui 32 (cmpi .eq (broadcastTo S500x2000 (iota .tc S500x1 32 [0] iota_S500x1_d0_w32) broadcasts_S500x1_S500x2000)
      (broadcastTo S500x2000 (transpose S1x2000 [1, 0] (shapeCast S2000x1 w shapeCasts_S2000x1_S2000x1) transposes_S2000x1_p1_0_S1x2000)
        broadcasts_S1x2000_S500x2000)) natLt_1_32) : FVec Ideal S500x2000 .f32) (ix2 g q)
      = if w (ix2 q (0 : Fin 1)) = BitVec.ofNat 32 g.val then (1 : EReal) else 0 := by
  rw [shapeCast_self]
  show ((((IntOp.cmpi .eq
      (broadcastTo S500x2000 (iota .tc S500x1 32 [0] iota_S500x1_d0_w32) broadcasts_S500x1_S500x2000 (ix2 g q))
      (broadcastTo S500x2000 (transpose S1x2000 [1, 0] w transposes_S2000x1_p1_0_S1x2000) broadcasts_S1x2000_S500x2000 (ix2 g q))).setWidth 32).toInt : ℝ) : EReal) = _
  rw [broadcastTo_a1_ab_apply, broadcastTo_1b_ab_apply, transpose_ix2_apply, iota_single_apply]
  show ((((IntOp.cmpi .eq (BitVec.ofNat 32 g.val) (w (ix2 q (0 : Fin 1)))).setWidth 32).toInt : ℝ) : EReal) = _
  by_cases h : w (ix2 q (0 : Fin 1)) = BitVec.ofNat 32 g.val
  · rw [if_pos h, h]
    have e : IntOp.cmpi .eq (BitVec.ofNat 32 g.val) (BitVec.ofNat 32 g.val) = 1#1 := by simp [IntOp.cmpi]
    rw [e]
    have e2 : ((1#1 : BitVec 1).setWidth 32).toInt = 1 := by decide
    rw [e2]; simp
  · rw [if_neg h]
    have e : IntOp.cmpi .eq (BitVec.ofNat 32 g.val) (w (ix2 q (0 : Fin 1))) = 0#1 := by
      have hne : (BitVec.ofNat 32 g.val == w (ix2 q (0 : Fin 1))) = false := beq_eq_false_iff_ne.mpr fun h' => h h'.symm
      show BitVec.ofBool (BitVec.ofNat 32 g.val == w (ix2 q (0 : Fin 1))) = 0#1
      rw [hne]; rfl
    rw [e]
    have e2 : ((0#1 : BitVec 1).setWidth 32).toInt = 0 := by decide
    rw [e2]; simp

/-- A plain matrix product into zero read at an entry, whatever the precision attribute: the exact product ignores it. -/
theorem matmul_prec_plain_apply {M K N : ℕ} {φ₁ φ₂ : FTy} (prec : Option ContractPrecision) (l : FVec Ideal ⟨2, ![M, K]⟩ φ₁)
    (r : FVec Ideal ⟨2, ![K, N]⟩ φ₂) (i : Fin M) (j : Fin N) :
    matmul (DotDims.plain M K N) prec l r (constant ⟨2, ![M, N]⟩ .f32 0x00000000#32) (ix2 i j)
      = ∑ q : Fin K, l (ix2 i q) * r (ix2 q j) := matmul_plain_apply l r i j

/-- The block stored at the first point is zero everywhere. -/
theorem pay1_apply (g : Fin 500) (d : Fin 32) : (k1_pay1 (F := Ideal) : S500x32.Idx → EReal) (ix2 g d) = 0 := by
  unfold k1_pay1
  refine (congrFun (shapeCast_self _ _) (ix2 g d)).trans ?_
  exact Ideal.ofBits_zero_f32

/-- The accumulator's update at `(g, d)`: the old entry plus, over the block's 2000 nodes, the selection entry (1 when the
    node's graph word is `g`, else 0) times the node's hidden entry relu(messages + root projection + bias). -/
theorem pay2_apply (a r : Vec Ideal S2000x32 .f32) (b : Vec Ideal S1x32 .f32) (w : Vec Ideal S2000x1 .i32)
    (s : Vec Ideal S500x32 .f32) (g : Fin 500) (d : Fin 32) :
    (k1_pay2 (F := Ideal) a r b w s : S500x32.Idx → EReal) (ix2 g d)
      = (s : S500x32.Idx → EReal) (ix2 g d)
        + ∑ q : Fin 2000, (if (w : S2000x1.Idx → BitVec 32) (ix2 q (0 : Fin 1)) = BitVec.ofNat 32 g.val then (1 : EReal) else 0)
            * max (((a : S2000x32.Idx → EReal) (ix2 q d) + (r : S2000x32.Idx → EReal) (ix2 q d)) + (b : S1x32.Idx → EReal) (ix2 (0 : Fin 1) d)) 0 := by
  unfold k1_pay2
  dsimp only
  refine (congrFun (shapeCast_self _ _) (ix2 g d)).trans ?_
  refine (addf_apply _ _ _).trans ?_
  refine congrArg (s (ix2 g d) + ·) ?_
  refine (matmul_prec_plain_apply (M := 500) (K := 2000) (N := 32) (some .fp32) _ _ g d).trans ?_
  refine Finset.sum_congr rfl fun q _ => ?_
  refine congrArg₂ (· * ·) (sel_apply w g q) ?_
  refine (maximumf_apply _ _ _).trans ?_
  refine congrArg₂ max ?_ Ideal.ofBits_zero_f32
  rw [shapeCast_self, shapeCast_self, shapeCast_self]
  refine (addf_apply _ _ _).trans ?_
  exact congrArg₂ (· + ·) (addf_apply _ _ _) (broadcastTo_1b_ab_apply _ _ _ _)

/-! ## The tail: two linear layers and the log-softmax -/

/-- The first linear layer with its relu, as the stored value computes it. -/
def kFc1 (p : FVec Ideal S500x32 .f32) (w1 : FVec Ideal S32x32 .f32) (b1 : FVec Ideal S1x32 .f32) : FVec Ideal S500x32 .f32 :=
  maximumf (addf (matmul dot_S500x32_S32x32_S500x32_1_0_0_1_n_n none (truncf .bf16 p bitsLt_bf16_f32) (truncf .bf16 w1 bitsLt_bf16_f32)
      (constant (F := Ideal) S500x32 .f32 0x00000000#32))
    (broadcastTo S500x32 (shapeCast S1x32 b1 shapeCasts_S1x32_S1x32) broadcasts_S1x32_S500x32))
    (broadcast S500x32 (Scalar.ofBits (F := Ideal) .f32 0x00000000#32))

/-- The logits, as the stored value computes them. -/
def kLogits (p : FVec Ideal S500x32 .f32) (w1 : FVec Ideal S32x32 .f32) (b1 : FVec Ideal S1x32 .f32) (w2 : FVec Ideal S32x2 .f32)
    (b2 : FVec Ideal S1x2 .f32) : FVec Ideal S500x2 .f32 :=
  addf (matmul dot_S500x32_S32x2_S500x2_1_0_0_1_n_n none (truncf .bf16 (kFc1 p w1 b1) bitsLt_bf16_f32) (truncf .bf16 w2 bitsLt_bf16_f32)
      (constant (F := Ideal) S500x2 .f32 0x00000000#32))
    (broadcastTo S500x2 (shapeCast S1x2 b2 shapeCasts_S1x2_S1x2) broadcasts_S1x2_S500x2)

/-- Each row's maximum, spread back over the row. -/
def kRowMax (L : FVec Ideal S500x2 .f32) : FVec Ideal S500x2 .f32 :=
  broadcastTo S500x2 (shapeCast S500x1 (multiReduction (F := Ideal) .maximumf [1] S500 L 0xFF800000#32 reduces_S500x2_S500 (.inl rfl) rfl)
    shapeCasts_S500_S500x1) broadcasts_S500x1_S500x2

/-- The log-softmax of a block of logits, as the stored value computes it. -/
def kLsm (L : FVec Ideal S500x2 .f32) : FVec Ideal S500x2 .f32 :=
  subf (subf L (kRowMax L))
    (broadcastTo S500x2 (log (shapeCast S500x1
      (multiReduction (F := Ideal) .add [1] S500 (exp (subf L (kRowMax L))) 0x00000000#32 reduces_S500x2_S500 (.inl rfl) rfl)
      shapeCasts_S500_S500x1)) broadcasts_S500x1_S500x2)

/-- The stored value is the log-softmax of the logits. -/
theorem pay3_split (p : FVec Ideal S500x32 .f32) (w1 : FVec Ideal S32x32 .f32) (b1 : FVec Ideal S1x32 .f32) (w2 : FVec Ideal S32x2 .f32)
    (b2 : FVec Ideal S1x2 .f32) : k1_pay3 (F := Ideal) p w1 b1 w2 b2 = kLsm (kLogits p w1 b1 w2 b2) := rfl

/-- The first layer at an entry. -/
theorem kFc1_apply (p : FVec Ideal S500x32 .f32) (w1 : FVec Ideal S32x32 .f32) (b1 : FVec Ideal S1x32 .f32) (g : Fin 500) (k : Fin 32) :
    kFc1 p w1 b1 (ix2 g k) = Cert.Spec.fc1At p w1 (fun i => b1 (ix2 (0 : Fin 1) (i 0))) g k := by
  unfold kFc1 Cert.Spec.fc1At
  refine (maximumf_apply _ _ _).trans ?_
  refine congrArg₂ max ?_ Ideal.ofBits_zero_f32
  refine (addf_apply _ _ _).trans ?_
  refine congrArg₂ (· + ·) ?_ ?_
  · exact matmul_plain_apply (M := 500) (K := 32) (N := 32) _ _ g k
  · rw [shapeCast_self]
    exact broadcastTo_1b_ab_apply _ _ _ _

/-- The logits at an entry. -/
theorem kLogits_apply (p : FVec Ideal S500x32 .f32) (w1 : FVec Ideal S32x32 .f32) (b1 : FVec Ideal S1x32 .f32) (w2 : FVec Ideal S32x2 .f32)
    (b2 : FVec Ideal S1x2 .f32) (g : Fin 500) (j : Fin 2) :
    kLogits p w1 b1 w2 b2 (ix2 g j)
      = Cert.Spec.logitAt p w1 (fun i => b1 (ix2 (0 : Fin 1) (i 0))) w2 (fun i => b2 (ix2 (0 : Fin 1) (i 0))) g j := by
  unfold kLogits Cert.Spec.logitAt
  refine (addf_apply _ _ _).trans ?_
  refine congrArg₂ (· + ·) ?_ ?_
  · refine (matmul_plain_apply (M := 500) (K := 32) (N := 2) _ _ g j).trans ?_
    refine Finset.sum_congr rfl fun k _ => ?_
    exact congrArg (· * w2 (ix2 k j)) (kFc1_apply p w1 b1 g k)
  · rw [shapeCast_self]
    exact broadcastTo_1b_ab_apply _ _ _ _

/-- The row maximum at an entry: the fold of `max` from the bottom element over the row's two logits. -/
theorem kRowMax_apply (L : FVec Ideal S500x2 .f32) (g : Fin 500) (j : Fin 2) :
    kRowMax L (ix2 g j) = Cert.Spec.rowMax (fun j' => L (ix2 g j')) := by
  unfold kRowMax Cert.Spec.rowMax
  refine (broadcastTo_a1_ab_apply _ _ g j).trans ?_
  refine (shapeCast_a_a1_apply _ _ g (0 : Fin 1)).trans ?_
  refine (Ideal.multiReduction_maximumf_single L _ reduces_S500x2_S500 _ _ (ix1 g)).trans ?_
  have hb : (FloatOps.ofBits (F := Ideal) .f32 0xFF800000#32 : EReal) = ⊥ := by
    show Ideal.ofBits .f32 0xFF800000#32 = ⊥
    simp [Ideal.ofBits, Ideal.ieee]
  have hf : (L ∘ reduces_S500x2_S500.lift (ix1 g)) = fun j' : Fin 2 => L (ix2 g j') :=
    funext fun j' => congrArg L (funext fun c => Fin.ext (by
      match c with
      | ⟨0, _⟩ => rfl
      | ⟨1, _⟩ => rfl))
  rw [hb]
  exact congrArg (Finset.fold max ⊥ · (Finset.univ : Finset (Fin 2))) hf

/-- The log-softmax at an entry. -/
theorem kLsm_apply (L : FVec Ideal S500x2 .f32) (g : Fin 500) (j : Fin 2) :
    kLsm L (ix2 g j) = (L (ix2 g j) - Cert.Spec.rowMax (fun j' => L (ix2 g j')))
      - Ideal.log (∑ j' : Fin 2, Ideal.exp (L (ix2 g j') - Cert.Spec.rowMax (fun j'' => L (ix2 g j'')))) := by
  unfold kLsm
  refine (subf_apply _ _ _).trans ?_
  refine congrArg₂ (· - ·) ((subf_apply _ _ _).trans (congrArg (L (ix2 g j) - ·) (kRowMax_apply L g j))) ?_
  refine (broadcastTo_a1_ab_apply _ _ g j).trans ?_
  show Ideal.log (shapeCast S500x1 _ shapeCasts_S500_S500x1 (ix2 g (0 : Fin 1))) = _
  refine congrArg Ideal.log ?_
  refine (shapeCast_a_a1_apply _ _ g (0 : Fin 1)).trans ?_
  refine (Ideal.multiReduction_add_single _ _ reduces_S500x2_S500 _ _ (ix1 g)).trans ?_
  refine Finset.sum_congr rfl fun (j' : Fin 2) _ => ?_
  have hi : reduces_S500x2_S500.lift (ix1 g) j' = ix2 g j' := funext fun c => Fin.ext (by
    match c with
    | ⟨0, _⟩ => rfl
    | ⟨1, _⟩ => rfl)
  rw [hi]
  exact congrArg (fun x => Ideal.exp (L (ix2 g j') - x)) (kRowMax_apply L g j')

/-- The value stored at the last point is the network's tail of the accumulator. -/
theorem pay3_eq (p : Vec Ideal S500x32 .f32) (w1 : Vec Ideal S32x32 .f32) (b1 : Vec Ideal S1x32 .f32) (w2 : Vec Ideal S32x2 .f32)
    (b2 : Vec Ideal S1x2 .f32) :
    (k1_pay3 (F := Ideal) p w1 b1 w2 b2 : S500x2.Idx → EReal)
      = Cert.Spec.tail p w1 (fun i => (b1 : S1x32.Idx → EReal) (ix2 (0 : Fin 1) (i 0))) w2
          (fun i => (b2 : S1x2.Idx → EReal) (ix2 (0 : Fin 1) (i 0))) := by
  funext i
  obtain ⟨g, j, rfl⟩ : ∃ (g : Fin 500) (j : Fin 2), i = ix2 g j := ⟨i 0, i 1, eq_ix2 i⟩
  rw [pay3_split, kLsm_apply]
  simp only [kLogits_apply]
  rfl

end Cert.KernelIdeal.PoolPayload

end
-- ==== Proof.KernelIdeal.PoolValue.lean ====
/-
  What the pooling kernel's output array holds once the last block is written back: the tail of the network applied to the
  selection-matrix sum, over all 50000 nodes, of the hidden rows relu(messages + root projection + bias).
-/
import proofs.«426008_j36335423324474_3_alg».proof.Proof.KernelIdeal.Data
import proofs.«426008_j36335423324474_3_alg».proof.Proof.Spec
import proofs.«426008_j36335423324474_3_alg».proof.Proof.LibMatmulPlain
import proofs.«426008_j36335423324474_3_alg».proof.Proof.KernelIdeal.PoolPayload
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Data.Fintype.BigOperators

set_option maxRecDepth 16384

noncomputable section

namespace Cert.KernelIdeal.PoolValue

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

/-- The hidden rows the pooling kernel forms from its first, second and fourth operand arrays. -/
def hiddenOf (agg xroot : Cert.Spec.Mat 50000 32) (brel : (⟨2, ![1, 32]⟩ : Shape).Idx → EReal) : Cert.Spec.Mat 50000 32 := fun i =>
  max ((agg (ix2 (i 0) (i 1)) + xroot (ix2 (i 0) (i 1))) + brel (ix2 (0 : Fin 1) (i 1))) 0

/-! ## The blocks read at a point, as entries of the arrays -/

/-- The index maps of the three row-blocked windows: block `t` along the rows, block 0 along the columns. -/
theorem idx_rows : ∀ t : Fin cfg1.N,
    (win1_0.index t 0 = t.val ∧ win1_0.index t 1 = 0) ∧ (win1_1.index t 0 = t.val ∧ win1_1.index t 1 = 0)
      ∧ (win1_2.index t 0 = t.val ∧ win1_2.index t 1 = 0) :=
  (by decide +kernel : ∀ t : Fin grid1.N, _)

/-- The index maps of the five whole-array windows: block 0 along both axes, at every point. -/
theorem idx_whole : ∀ t : Fin cfg1.N,
    (win1_3.index t 0 = 0 ∧ win1_3.index t 1 = 0) ∧ (win1_4.index t 0 = 0 ∧ win1_4.index t 1 = 0)
      ∧ (win1_5.index t 0 = 0 ∧ win1_5.index t 1 = 0) ∧ (win1_6.index t 0 = 0 ∧ win1_6.index t 1 = 0)
      ∧ (win1_7.index t 0 = 0 ∧ win1_7.index t 1 = 0) :=
  (by decide +kernel : ∀ t : Fin grid1.N, _)

/-- Entry `(r, d)` of block `t` of the summed messages is entry `(2000 t + r, d)` of the array. -/
theorem aggBlk_apply (c : Dev nD) (t : Fin cfg1.N) (x : S2000x32.Idx) (k : S50000x32.Idx)
    (hk0 : (k 0).val = 2000 * t.val + (x 0).val) (hk1 : (k 1).val = (x 1).val) :
    (aggBlk V c t : S2000x32.Idx → EReal) x = (V c main_v17 : S50000x32.Idx → EReal) k := by
  have hi := (idx_rows t).1
  unfold aggBlk iblk1
  rw [View.read_apply]
  show V c main_v17 _ = V c main_v17 _
  congr 1
  funext a
  apply Fin.ext
  match a with
  | ⟨0, _⟩ => show win1_0.index t 0 * 2000 + 1 * (x 0).val = (k 0).val; rw [hi.1, hk0]; omega
  | ⟨1, _⟩ => show win1_0.index t 1 * 32 + 1 * (x 1).val = (k 1).val; rw [hi.2, hk1]; omega

/-- Entry `(r, d)` of block `t` of the root projection is entry `(2000 t + r, d)` of the array. -/
theorem xrootBlk_apply (c : Dev nD) (t : Fin cfg1.N) (x : S2000x32.Idx) (k : S50000x32.Idx)
    (hk0 : (k 0).val = 2000 * t.val + (x 0).val) (hk1 : (k 1).val = (x 1).val) :
    (xrootBlk V c t : S2000x32.Idx → EReal) x = (V c main_v0_1 : S50000x32.Idx → EReal) k := by
  have hi := (idx_rows t).2.1
  unfold xrootBlk iblk1
  rw [View.read_apply]
  show V c main_v0_1 _ = V c main_v0_1 _
  congr 1
  funext a
  apply Fin.ext
  match a with
  | ⟨0, _⟩ => show win1_1.index t 0 * 2000 + 1 * (x 0).val = (k 0).val; rw [hi.1, hk0]; omega
  | ⟨1, _⟩ => show win1_1.index t 1 * 32 + 1 * (x 1).val = (k 1).val; rw [hi.2, hk1]; omega

/-- Entry `r` of block `t` of the graph words is entry `2000 t + r` of the column. -/
theorem batchBlk_apply (c : Dev nD) (t : Fin cfg1.N) (x : S2000x1.Idx) (k : S50000x1.Idx)
    (hk0 : (k 0).val = 2000 * t.val + (x 0).val) (hk1 : (k 1).val = (x 1).val) :
    (batchBlk V c t : S2000x1.Idx → BitVec 32) x = (V c main_v18 : S50000x1.Idx → BitVec 32) k := by
  have hi := (idx_rows t).2.2
  unfold batchBlk iblk1
  rw [View.read_apply]
  show V c main_v18 _ = V c main_v18 _
  congr 1
  funext a
  apply Fin.ext
  match a with
  | ⟨0, _⟩ => show win1_2.index t 0 * 2000 + 1 * (x 0).val = (k 0).val; rw [hi.1, hk0]; omega
  | ⟨1, _⟩ => show win1_2.index t 1 * 1 + 1 * (x 1).val = (k 1).val; rw [hi.2, hk1]; omega

/-- The hidden layer's bias block is the whole bias row, at every point. -/
theorem brelBlk_eq (c : Dev nD) (t : Fin cfg1.N) : (brelBlk V c t : S1x32.Idx → EReal) = (V c main_v19 : S1x32.Idx → EReal) := by
  have hi := (idx_whole t).1
  funext x
  unfold brelBlk iblk1
  rw [View.read_apply]
  show V c main_v19 _ = V c main_v19 x
  congr 1
  funext a
  apply Fin.ext
  match a with
  | ⟨0, _⟩ => show win1_3.index t 0 * 1 + 1 * (x 0).val = (x 0).val; rw [hi.1]; omega
  | ⟨1, _⟩ => show win1_3.index t 1 * 32 + 1 * (x 1).val = (x 1).val; rw [hi.2]; omega

/-- The first small layer's weight block is the whole weight. -/
theorem wfc1Blk_eq (c : Dev nD) (t : Fin cfg1.N) : (wfc1Blk V c t : S32x32.Idx → EReal) = (V c main_arg5 : S32x32.Idx → EReal) := by
  have hi := (idx_whole t).2.1
  funext x
  unfold wfc1Blk iblk1
  rw [View.read_apply]
  show V c main_arg5 _ = V c main_arg5 x
  congr 1
  funext a
  apply Fin.ext
  match a with
  | ⟨0, _⟩ => show win1_4.index t 0 * 32 + 1 * (x 0).val = (x 0).val; rw [hi.1]; omega
  | ⟨1, _⟩ => show win1_4.index t 1 * 32 + 1 * (x 1).val = (x 1).val; rw [hi.2]; omega

/-- The first small layer's bias block is the whole bias row. -/
theorem bfc1Blk_eq (c : Dev nD) (t : Fin cfg1.N) : (bfc1Blk V c t : S1x32.Idx → EReal) = (V c main_v20 : S1x32.Idx → EReal) := by
  have hi := (idx_whole t).2.2.1
  funext x
  unfold bfc1Blk iblk1
  rw [View.read_apply]
  show V c main_v20 _ = V c main_v20 x
  congr 1
  funext a
  apply Fin.ext
  match a with
  | ⟨0, _⟩ => show win1_5.index t 0 * 1 + 1 * (x 0).val = (x 0).val; rw [hi.1]; omega
  | ⟨1, _⟩ => show win1_5.index t 1 * 32 + 1 * (x 1).val = (x 1).val; rw [hi.2]; omega

/-- The second small layer's weight block is the whole weight. -/
theorem wfc2Blk_eq (c : Dev nD) (t : Fin cfg1.N) : (wfc2Blk V c t : S32x2.Idx → EReal) = (V c main_arg7 : S32x2.Idx → EReal) := by
  have hi := (idx_whole t).2.2.2.1
  funext x
  unfold wfc2Blk iblk1
  rw [View.read_apply]
  show V c main_arg7 _ = V c main_arg7 x
  congr 1
  funext a
  apply Fin.ext
  match a with
  | ⟨0, _⟩ => show win1_6.index t 0 * 32 + 1 * (x 0).val = (x 0).val; rw [hi.1]; omega
  | ⟨1, _⟩ => show win1_6.index t 1 * 2 + 1 * (x 1).val = (x 1).val; rw [hi.2]; omega

/-- The second small layer's bias block is the whole bias row. -/
theorem bfc2Blk_eq (c : Dev nD) (t : Fin cfg1.N) : (bfc2Blk V c t : S1x2.Idx → EReal) = (V c main_v21 : S1x2.Idx → EReal) := by
  have hi := (idx_whole t).2.2.2.2
  funext x
  unfold bfc2Blk iblk1
  rw [View.read_apply]
  show V c main_v21 _ = V c main_v21 x
  congr 1
  funext a
  apply Fin.ext
  match a with
  | ⟨0, _⟩ => show win1_7.index t 0 * 1 + 1 * (x 0).val = (x 0).val; rw [hi.1]; omega
  | ⟨1, _⟩ => show win1_7.index t 1 * 2 + 1 * (x 1).val = (x 1).val; rw [hi.2]; omega

/-! ## The accumulator as a partial sum over the nodes -/

/-- The selection entry of graph `g` and node `n` times the node's hidden entry `d`. -/
def term (c : Dev nD) (g : Fin 500) (d : Fin 32) (n : Fin 50000) : EReal :=
  (if (V c main_v18 : S50000x1.Idx → BitVec 32) (ix2 n (0 : Fin 1)) = BitVec.ofNat 32 g.val then (1 : EReal) else 0)
    * hiddenOf (V c main_v17) (V c main_v0_1) (V c main_v19) (ix2 n d)

/-- The same summand over the naturals: zero past the last node. -/
def termN (c : Dev nD) (g : Fin 500) (d : Fin 32) (j : ℕ) : EReal :=
  if h : j < 50000 then term V c g d ⟨j, h⟩ else 0

/-- One point's update of an accumulator `s` at `(g, d)`: the old entry plus the summands of nodes
    `2000 t … 2000 t + 1999`. -/
theorem step_apply (c : Dev nD) (t : Fin cfg1.N) (s : Vec Ideal S500x32 .f32) (g : Fin 500) (d : Fin 32) :
    (k1_pay2 (F := Ideal) (aggBlk V c t) (xrootBlk V c t) (brelBlk V c t) (batchBlk V c t) s : S500x32.Idx → EReal) (ix2 g d)
      = (s : S500x32.Idx → EReal) (ix2 g d) + ∑ x ∈ Finset.range 2000, termN V c g d (2000 * t.val + x) := by
  refine (PoolPayload.pay2_apply (aggBlk V c t) (xrootBlk V c t) (brelBlk V c t) (batchBlk V c t) s g d).trans ?_
  refine congrArg (fun z => (s : S500x32.Idx → EReal) (ix2 g d) + z) ?_
  refine Eq.trans ?_ (Fin.sum_univ_eq_sum_range (fun x => termN V c g d (2000 * t.val + x)) 2000)
  refine Finset.sum_congr rfl fun q _ => ?_
  have hN : cfg1.N = 25 := N_1
  have ht := t.isLt
  have hq : 2000 * t.val + q.val < 50000 := by omega
  have e1 := aggBlk_apply V c t (ix2 q d) (ix2 (⟨2000 * t.val + q.val, hq⟩ : Fin 50000) d) rfl rfl
  have e2 := xrootBlk_apply V c t (ix2 q d) (ix2 (⟨2000 * t.val + q.val, hq⟩ : Fin 50000) d) rfl rfl
  have e3 := batchBlk_apply V c t (ix2 q (0 : Fin 1)) (ix2 (⟨2000 * t.val + q.val, hq⟩ : Fin 50000) (0 : Fin 1)) rfl rfl
  have e4 := congrFun (brelBlk_eq V c t) (ix2 (0 : Fin 1) d)
  show _ = termN V c g d (2000 * t.val + q.val)
  unfold termN
  rw [dif_pos hq, e1, e2, e3, e4]
  rfl

/-- After point `n` the accumulator's entry `(g, d)` is the sum of the summands of the first `2000 (n + 1)` nodes. -/
theorem scr_apply (c : Dev nD) (g : Fin 500) (d : Fin 32) : ∀ (n : ℕ) (h : n < cfg1.N),
    (scr1 V c n h : S500x32.Idx → EReal) (ix2 g d) = ∑ j ∈ Finset.range (2000 * (n + 1)), termN V c g d j
  | 0, h => by
    refine (step_apply V c ⟨0, h⟩ (k1_pay1 (F := Ideal)) g d).trans ?_
    rw [PoolPayload.pay1_apply, zero_add]
    refine Finset.sum_congr rfl fun x _ => ?_
    show termN V c g d (2000 * 0 + x) = _
    rw [Nat.mul_zero, Nat.zero_add]
  | n + 1, h => by
    refine (step_apply V c ⟨n + 1, h⟩ (scr1 V c n (Nat.lt_of_succ_lt h)) g d).trans ?_
    rw [scr_apply c g d n (Nat.lt_of_succ_lt h), show 2000 * (n + 1 + 1) = 2000 * (n + 1) + 2000 from by omega,
      Finset.sum_range_add]

/-- After the last point the accumulator is the selection-matrix sum over all the nodes. -/
theorem scr_last (c : Dev nD) (h : 24 < cfg1.N) :
    (scr1 V c 24 h : S500x32.Idx → EReal)
      = Cert.Spec.pooledK (hiddenOf (V c main_v17) (V c main_v0_1) (V c main_v19))
          (fun i => (V c main_v18 : S50000x1.Idx → BitVec 32) (ix2 (i 0) (0 : Fin 1))) := by
  funext i
  obtain ⟨g, d, rfl⟩ : ∃ (g : Fin 500) (d : Fin 32), i = ix2 g d := ⟨i 0, i 1, eq_ix2 i⟩
  refine (scr_apply V c g d 24 h).trans ?_
  refine ((Fin.sum_univ_eq_sum_range (fun j => termN V c g d j) 50000).symm).trans ?_
  unfold Cert.Spec.pooledK
  refine Finset.sum_congr rfl fun n _ => ?_
  show termN V c g d n.val = _
  unfold termN
  rw [dif_pos n.isLt]
  rfl

/-! ## The output array after the run -/

/-- The last point of the grid. -/
abbrev tLast : Fin cfg1.N := ⟨24, by have : cfg1.N = 25 := N_1; omega⟩

/-- What the last point stores, as contents of the result array (whose one block is the whole array). -/
abbrev result (c : Dev nD) : Buf (Elt Ideal) ((c : Thread nD τ).loc main_v22) := out1 V c tLast

/-- The one write-back, at the last point, writes `result`: the block at offsets zero of the whole array is the array. -/
theorem flushed_eq (c : Dev nD) (t : Fin cfg1.N) (hf : (cfg1.win 8).flush t = true) :
    (dat1 V c).flushed 8 t = ((cfg1.win 8).blk t).view.read (Elt Ideal) (result V c) := by
  have hN : cfg1.N = 25 := N_1
  have h24 : t.val = 24 := by have := (flush1_8 t).mp hf; have := t.isLt; omega
  obtain rfl : t = tLast := Fin.ext h24
  show (cfg1.win 8).cut (grid1.coords tLast) ((dat1 V c).after 8 tLast) = _
  rw [after1_8]
  have hz' : (fun a => win1_8.index tLast a * main_v22.ty.shape.size a) = fun _ => 0 :=
    funext fun a => by fin_cases a <;> decide +kernel
  exact (Memref.read_access_unit_zero (Elt Ideal) main_v22 hz' (fun a => by rw [congrFun hz' a]; simp) (result V c)).symm

/-- So the result array ends holding what the last point stored: its block covers the array. -/
theorem final (c : Dev nD) : (dat1 V c).arrAt 8 cfg1.N = result V c :=
  (dat1 V c).arrAt_eq_of_cover 8 (result V c) (flushed_eq V c) fun i =>
    ⟨tLast, (flush1_8 tLast).mpr rfl, by
      show i ∈ ((View.whole main_v22).slice (win1_8.rect tLast)).set
      rw [View.set_slice_whole, Rect.mem_set_unit]
      intro a
      have h0 : (i 0 : Nat) < 500 := (i 0).isLt
      have h1 : (i 1 : Nat) < 2 := (i 1).isLt
      match a with
      | ⟨0, _⟩ => show win1_8.index tLast 0 * win1_8.size 0 ≤ (i 0 : Nat) ∧ (i 0 : Nat) < win1_8.index tLast 0 * win1_8.size 0 + win1_8.xsize (grid1.coords tLast) 0
                  rw [show win1_8.index tLast 0 * win1_8.size 0 = 0 from by decide +kernel, show win1_8.xsize (grid1.coords tLast) 0 = 500 from by decide +kernel]; omega
      | ⟨1, _⟩ => show win1_8.index tLast 1 * win1_8.size 1 ≤ (i 1 : Nat) ∧ (i 1 : Nat) < win1_8.index tLast 1 * win1_8.size 1 + win1_8.xsize (grid1.coords tLast) 1
                  rw [show win1_8.index tLast 1 * win1_8.size 1 = 0 from by decide +kernel, show win1_8.xsize (grid1.coords tLast) 1 = 2 from by decide +kernel]; omega⟩

/-- The network's tail respects equality of each of its five arguments. -/
theorem tail_congr {p p' : Cert.Spec.Mat 500 32} {w1 w1' : Cert.Spec.Mat 32 32} {b1 b1' : Cert.Spec.Vc 32}
    {w2 w2' : Cert.Spec.Mat 32 2} {b2 b2' : Cert.Spec.Vc 2} (hp : p = p') (hw1 : w1 = w1') (hb1 : b1 = b1')
    (hw2 : w2 = w2') (hb2 : b2 = b2') : Cert.Spec.tail p w1 b1 w2 b2 = Cert.Spec.tail p' w1' b1' w2' b2' := by
  subst hp hw1 hb1 hw2 hb2; rfl

/-- The output array after the run. The operands are read off the entry contents `V`: the summed messages `main_v17`,
    the root projection `main_v0_1`, the graph words `main_v18` (a column), the biases `main_v19`, `main_v20`, `main_v21`
    (rows) and the weights `main_arg5`, `main_arg7`. -/
theorem out_eq (c : Dev nD) :
    (dat1 (F := Ideal) V c).arrAt 8 cfg1.N
      = (Cert.Spec.tail
          (Cert.Spec.pooledK (hiddenOf (V c main_v17) (V c main_v0_1) (V c main_v19))
            (fun i => (V c main_v18 : S50000x1.Idx → BitVec 32) (ix2 (i 0) (0 : Fin 1))))
          (V c main_arg5) (fun i => (V c main_v20 : S1x32.Idx → EReal) (ix2 (0 : Fin 1) (i 0)))
          (V c main_arg7) (fun i => (V c main_v21 : S1x2.Idx → EReal) (ix2 (0 : Fin 1) (i 0))) : S500x2.Idx → EReal) := by
  refine (final V c).trans ?_
  show (k1_pay3 (F := Ideal) (scr1 V c 24 tLast.isLt) (wfc1Blk V c tLast) (bfc1Blk V c tLast) (wfc2Blk V c tLast) (bfc2Blk V c tLast)
    : S500x2.Idx → EReal) = _
  refine (PoolPayload.pay3_eq (scr1 V c 24 tLast.isLt) (wfc1Blk V c tLast) (bfc1Blk V c tLast) (wfc2Blk V c tLast)
    (bfc2Blk V c tLast)).trans ?_
  exact tail_congr (scr_last V c tLast.isLt) (wfc1Blk_eq V c tLast)
    (funext fun i => congrFun (bfc1Blk_eq V c tLast) (ix2 (0 : Fin 1) (i 0))) (wfc2Blk_eq V c tLast)
    (funext fun i => congrFun (bfc2Blk_eq V c tLast) (ix2 (0 : Fin 1) (i 0)))

end Cert.KernelIdeal.PoolValue

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.LibScatterRows.lean ====
/-
  An accumulating float scatter of whole rows, read at an entry on the extended reals.

  Updates `[M, C]` are added into a table `[N, C]` at the rows a column of index words `[M, 1]` names (dimension numbers:
  update window axis 1, inserted window axis 0, the one index component addressing table axis 0, index vector axis 1).
  Entry `(n, k)` of the result is the table's entry plus the sum of the updates' entries `(e, k)` over the rows `e` whose
  index word, read signed, is `n`; a word outside `[0, N)` contributes to no entry.
-/
import Idealize.ShloMosaic.PureOps.Ideal
import Idealize.ShloMosaic.Lib.ValueIdx

noncomputable section

namespace Cert.LibScatterRows

open Idealize.ShloMosaic Idealize.ShloMosaic.ValueIdx
open scoped BigOperators

/-! ## Scattering whole rows into a table

The operand index an update index lands at is, on each operand axis, a start (a component of the start index, read
signed and not clamped) plus a window coordinate. For the dimension numbers of a row scatter the two summands are
computed one by one below: on axis 0 the start is the index word of the update's row and the window coordinate vanishes
(the axis is an inserted window axis); on axis 1 the start vanishes (the axis is not addressed by the start index) and
the window coordinate is the update's column. -/

section Rows

/-- The dimension numbers of a row scatter, for a table `[N, C]`, scatter indices `[M, 1]` and updates `[M, C]`. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- Axis 1 of the table is not addressed by the start index: the window starts at column zero. -/
theorem rows_start1 (j : (⟨2, ![M, C]⟩ : Shape).Idx) (idx : IVec ⟨2, ![M, 1]⟩ w) :
    (rowsDims N M C wf).start j idx 1 = 0 := by
  unfold ScatterDims.start
  exact dif_neg (show (1 : Fin 2) ∉ [0] by decide)

/-- Axis 0 of the table is component 0 of the start index. That component is read at the scatter-indices position
    `(j 0, 0)` — the update's row, and 0 on the index vector's axis —, signed, and not clamped. -/
theorem rows_start0 (j : (⟨2, ![M, C]⟩ : Shape).Idx) (idx : IVec ⟨2, ![M, 1]⟩ w) :
    (rowsDims N M C wf).start j idx 0 = (idx (ix2 (j 0) (0 : Fin 1))).toInt := by
  unfold ScatterDims.start
  rw [dif_pos (List.mem_singleton.2 rfl)]
  have hsi : (rowsDims N M C wf).siIdx j ⟨List.idxOf (0 : Fin 2) (rowsDims N M C wf).scatterDimsToOperandDims,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The kept axes of the table are the ones that are not the inserted window axis 0. -/
theorem rows_mem_sKept (a : Fin 2) : a ∈ (rowsDims N M C wf).sKept ↔ a ∉ [(0 : Fin 2)] := by
  simp [ScatterDims.sKept, Shape.kept, List.mem_filter, List.mem_finRange]

/-- Axis 0 of the table is an inserted window axis: it is not among the kept axes, so its window coordinate is zero. -/
theorem rows_window0 (j : (⟨2, ![M, C]⟩ : Shape).Idx) : (rowsDims N M C wf).window j 0 = 0 := by
  unfold ScatterDims.window
  exact dif_neg fun h => (rows_mem_sKept wf 0).1 h (List.mem_singleton.2 rfl)

/-- Axis 1 is the only kept axis of the table, in position 0, and the update window axis in that position is the
    updates' axis 1: the window coordinate is the update's column. -/
theorem rows_window1 (j : (⟨2, ![M, C]⟩ : Shape).Idx) : (rowsDims N M C wf).window j 1 = (j 1).val := by
  unfold ScatterDims.window
  rw [dif_pos ((rows_mem_sKept wf 1).2 (by decide))]
  rfl

/-- The update at `(e, k')` lands at the table's entry `(n, k)` exactly when the `e`-th index word, read signed, is
    `n` and the columns agree. (The landing index is start plus window coordinate on each axis, and is dropped when
    that leaves the table: on axis 0 it is the index word, on axis 1 the update's column, which is always inside.) -/
theorem rows_resultIdx_iff (idx : IVec ⟨2, ![M, 1]⟩ w) (e : Fin M) (k' : Fin C) (n : Fin N) (k : Fin C) :
    (rowsDims N M C wf).resultIdx? (ix2 e k') idx = some (ix2 n k)
      ↔ (idx (ix2 e (0 : Fin 1))).toInt = (n.val : ℤ) ∧ k' = k := by
  have hs0 : (rowsDims N M C wf).start (ix2 e k') idx 0 + (((rowsDims N M C wf).window (ix2 e k') 0 : ℕ) : ℤ)
      = (idx (ix2 e (0 : Fin 1))).toInt := by
    rw [rows_start0, rows_window0]
    show (idx (ix2 e (0 : Fin 1))).toInt + ((0 : ℕ) : ℤ) = _
    omega
  have hs1 : (rowsDims N M C wf).start (ix2 e k') idx 1 + (((rowsDims N M C wf).window (ix2 e k') 1 : ℕ) : ℤ)
      = (k'.val : ℤ) := by
    rw [rows_start1, rows_window1]
    show (0 : ℤ) + ((k'.val : ℕ) : ℤ) = _
    omega
  unfold ScatterDims.resultIdx?
  constructor
  · intro h
    by_cases hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ)
    · rw [dif_pos hin] at h
      have hf := Option.some.inj h
      have h0 : ((rowsDims N M C wf).start (ix2 e k') idx 0
          + (((rowsDims N M C wf).window (ix2 e k') 0 : ℕ) : ℤ)).toNat = n.val := congrArg (fun f => (f 0).val) hf
      have h1 : ((rowsDims N M C wf).start (ix2 e k') idx 1
          + (((rowsDims N M C wf).window (ix2 e k') 1 : ℕ) : ℤ)).toNat = k.val := congrArg (fun f => (f 1).val) hf
      have p0 := (hin 0).1
      rw [hs0] at h0 p0
      rw [hs1] at h1
      exact ⟨by omega, Fin.ext (by omega)⟩
    · rw [dif_neg hin] at h
      exact absurd h (by simp)
  · rintro ⟨hE, hk⟩
    subst hk
    have hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ) := by
      intro a
      match a with
      | ⟨0, _⟩ =>
        show 0 ≤ (rowsDims N M C wf).start (ix2 e k') idx 0 + (((rowsDims N M C wf).window (ix2 e k') 0 : ℕ) : ℤ)
          ∧ (rowsDims N M C wf).start (ix2 e k') idx 0 + (((rowsDims N M C wf).window (ix2 e k') 0 : ℕ) : ℤ) < ((N : ℕ) : ℤ)
        rw [hs0, hE]
        have := n.isLt
        omega
      | ⟨1, _⟩ =>
        show 0 ≤ (rowsDims N M C wf).start (ix2 e k') idx 1 + (((rowsDims N M C wf).window (ix2 e k') 1 : ℕ) : ℤ)
          ∧ (rowsDims N M C wf).start (ix2 e k') idx 1 + (((rowsDims N M C wf).window (ix2 e k') 1 : ℕ) : ℤ) < ((C : ℕ) : ℤ)
        rw [hs1]
        have := k'.isLt
        omega
    rw [dif_pos hin]
    refine congrArg some (funext fun a => Fin.ext ?_)
    match a with
    | ⟨0, _⟩ =>
      show ((rowsDims N M C wf).start (ix2 e k') idx 0 + (((rowsDims N M C wf).window (ix2 e k') 0 : ℕ) : ℤ)).toNat = n.val
      rw [hs0, hE]
      omega
    | ⟨1, _⟩ =>
      show ((rowsDims N M C wf).start (ix2 e k') idx 1 + (((rowsDims N M C wf).window (ix2 e k') 1 : ℕ) : ℤ)).toNat = k'.val
      rw [hs1]
      omega

/-- The row scatter-add with its dimension numbers written out, read at `(n, k)`: the filtered sum over the update
    indices is split into rows and columns, and in each row only the column `k` can land at `(n, k)`. -/
theorem rows_apply (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (rowsDims N M C wf) x idx upd (ix2 n k)
      = x (ix2 n k) + ∑ e : Fin M, if (idx (ix2 e (0 : Fin 1))).toInt = (n.val : ℤ) then upd (ix2 e k) else 0 := by
  unfold Ideal.hostScatterAdd
  refine congrArg (x (ix2 n k) + ·) ?_
  rw [Finset.sum_filter, sum_idx2]
  refine Finset.sum_congr rfl fun e _ => ?_
  simp only [rows_resultIdx_iff]
  by_cases hE : (idx (ix2 e (0 : Fin 1))).toInt = (n.val : ℤ)
  · simp only [hE, true_and, if_true]
    rw [Finset.sum_ite_eq' Finset.univ k (fun k' => upd (ix2 e k'))]
    simp
  · simp only [hE, false_and, if_false]
    exact Finset.sum_const_zero

end Rows

/-- A scatter that adds whole rows of updates `[M, C]` into an `N × C` table, one row per index word (dimension
    numbers: update window axis 1, inserted window axis 0, the start index's one component addressing table axis 0,
    index vector axis 1), reads at `(n, k)` the table's entry plus the sum of the updates' entries `(e, k)` over the
    rows `e` whose index word, read as a signed integer, equals `n`; rows whose word lies outside `[0, N)` are dropped.
    The dimension numbers are given by equations on the record's fields; once the fields are replaced by these literals
    the record is the one of `rows_apply`. -/
theorem scatterAdd_rows_apply {N M C w : ℕ} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![M, 1]⟩ w) (upd : (⟨2, ![M, C]⟩ : Shape).Idx → EReal)
    (n : Fin N) (k : Fin C) :
    Ideal.hostScatterAdd d x idx upd (ix2 n k)
      = x (ix2 n k) + ∑ e : Fin M, if (idx (ix2 e (0 : Fin 1))).toInt = (n.val : ℤ) then upd (ix2 e k) else 0 := by
  obtain ⟨uw, iw, sd, iv, wf⟩ := d
  simp only at h1 h2 h3 h4
  subst h1 h2 h3 h4
  exact rows_apply wf x idx upd n k

end Cert.LibScatterRows

end
-- ==== Proof.KernelIdeal.HostValue.lean ====
/-
  The host operations between the two kernels, read at an entry: the gather of projected rows, the weighting, the
  scatter-add into the per-node sums, and the reshapes of the graph words and of the three biases.
-/
import proofs.«426008_j36335423324474_3_alg».proof.Proof.Gen.KernelIdeal.Launch
import proofs.«426008_j36335423324474_3_alg».proof.Proof.Spec
import proofs.«426008_j36335423324474_3_alg».proof.Proof.LibGatherRows
import proofs.«426008_j36335423324474_3_alg».proof.Proof.LibScatterRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen
open scoped BigOperators

/-! ## The stretch's arrays as functions of the arrays they are computed from

Each array the stretch writes on the way to the per-node sums is named here as a function of the edge index `ei`
(`[2, 800000]` words), the edge weights `ew` and the projected node table `y`, and read at an entry. -/

section Terms

/-- A vector of 800000 entries laid out as a column `[800000, 1]` reads, at `(e, 0)`, the vector at `e`. -/
theorem col_apply {α : Type} (v : S800000.Idx → α) (e : Fin 800000) :
    broadcastInDim S800000x1 ![0] bcast_S800000_S800000x1_0 v (ix2 e (0 : Fin 1)) = v (ix1 e) :=
  broadcastInDim_apply _ bcast_S800000_S800000x1_0 v (ix2 e (0 : Fin 1)) (ix1 e) (fun a => match a with
    | ⟨0, _⟩ => by show e.val = if (800000 : Nat) = 1 then 0 else e.val; rw [if_neg (by decide)])

/-- A column `[800000, 1]` repeated along 32 columns reads, at `(e, k)`, the column at `(e, 0)`. -/
theorem wide_apply {α : Type} (v : S800000x1.Idx → α) (e : Fin 800000) (k : Fin 32) :
    broadcastInDim S800000x32 ![0, 1] bcast_S800000x1_S800000x32_0_1 v (ix2 e k) = v (ix2 e (0 : Fin 1)) :=
  broadcastInDim_apply _ bcast_S800000x1_S800000x32_0_1 v (ix2 e k) (ix2 e (0 : Fin 1)) (fun a => match a with
    | ⟨0, _⟩ => by show e.val = if (800000 : Nat) = 1 then 0 else e.val; rw [if_neg (by decide)]
    | ⟨1, _⟩ => by show (0 : Nat) = if (1 : Nat) = 1 then 0 else k.val; rw [if_pos rfl])

/-- Row 0 of the edge index as a vector: the slice `[0:1, :]` flattened. -/
def srcRaw (ei : IVec S2x800000 32) : IVec S800000 32 :=
  shapeCast S800000 (extractStridedSlice S1x800000 ![0, 0] ei slices_S2x800000_S1x800000_0_0) shapeCasts_S1x800000_S800000

/-- Row 1 of the edge index as a vector: the slice `[1:2, :]` flattened. -/
def dstV (ei : IVec S2x800000 32) : IVec S800000 32 :=
  shapeCast S800000 (extractStridedSlice S1x800000 ![1, 0] ei slices_S2x800000_S1x800000_1_0) shapeCasts_S1x800000_S800000

/-- Entry `e` of the flattened row 0 is the edge index at `(0, e)`. -/
theorem srcRaw_apply (ei : IVec S2x800000 32) (e : Fin 800000) : srcRaw ei (ix1 e) = ei (ix2 (0 : Fin 2) e) := by
  unfold srcRaw
  refine (shapeCast_1a_a_apply _ shapeCasts_S1x800000_S800000 e).trans ?_
  exact extractStridedSlice_apply ![0, 0] ei slices_S2x800000_S1x800000_0_0 (ix2 (0 : Fin 1) e) (ix2 (0 : Fin 2) e)
    (fun a => match a with
      | ⟨0, _⟩ => by show (0 : Nat) = 0 + 0; omega
      | ⟨1, _⟩ => by show e.val = 0 + e.val; omega)

/-- Entry `e` of the flattened row 1 is the edge index at `(1, e)`. -/
theorem dstV_apply (ei : IVec S2x800000 32) (e : Fin 800000) : dstV ei (ix1 e) = ei (ix2 (1 : Fin 2) e) := by
  unfold dstV
  refine (shapeCast_1a_a_apply _ shapeCasts_S1x800000_S800000 e).trans ?_
  exact extractStridedSlice_apply ![1, 0] ei slices_S2x800000_S1x800000_1_0 (ix2 (0 : Fin 1) e) (ix2 (1 : Fin 2) e)
    (fun a => match a with
      | ⟨0, _⟩ => by show (1 : Nat) = 1 + 0; omega
      | ⟨1, _⟩ => by show e.val = 0 + e.val; omega)

/-- The source words: a negative word of row 0 moved up by the number of nodes, entry by entry. -/
def srcV (ei : IVec S2x800000 32) : IVec S800000 32 :=
  select (cmpi .slt (srcRaw ei) (broadcastInDim S800000 ![] bcast_S_S800000 (constantI S_ 32 0#32)))
    (addi (srcRaw ei) (broadcastInDim S800000 ![] bcast_S_S800000 (constantI S_ 32 50000#32))) (srcRaw ei)

/-- The source words are the specification's: the comparison, the sum and the choice act entry by entry, and a
    broadcast scalar constant reads that constant everywhere. -/
theorem srcV_apply (ei : IVec S2x800000 32) (e : Fin 800000) : srcV ei (ix1 e) = Cert.Spec.srcOf ei (ix1 e) := by
  have hb : ∀ b : BitVec 32, broadcastInDim S800000 ![] bcast_S_S800000 (constantI S_ 32 b) (ix1 e) = b := fun b =>
    broadcastInDim_apply _ bcast_S_S800000 (constantI S_ 32 b) (ix1 e) (fun a => a.elim0) (fun a => a.elim0)
  show Scalar.select (IntOp.cmpi .slt (srcRaw ei (ix1 e)) (broadcastInDim S800000 ![] bcast_S_S800000 (constantI S_ 32 0#32) (ix1 e)))
      (IntOp.addi (srcRaw ei (ix1 e)) (broadcastInDim S800000 ![] bcast_S_S800000 (constantI S_ 32 50000#32) (ix1 e)))
      (srcRaw ei (ix1 e)) = _
  rw [hb, hb, srcRaw_apply]
  rfl

/-- The row gather of this program at literal sizes, read at `(e, k)`: the table at the clamped index word's row. -/
theorem gatherG_apply (y : FVec Ideal S50000x32 .f32) (idx : IVec S800000x1 32) (e : Fin 800000) (k : Fin 32) :
    Host.gather gather_S50000x32_S800000x1_S800000x32_1_0_n_n_0_1_132 y idx (ix2 e k)
      = y (ix2 (⟨min (idx (ix2 e (0 : Fin 1))).toInt.toNat (50000 - 1), by omega⟩ : Fin 50000) k) :=
  Cert.LibGatherRows.gather_rows_apply (N := 50000) (M := 800000) (C := 32) (w := 32) gather_S50000x32_S800000x1_S800000x32_1_0_n_n_0_1_132
    rfl rfl rfl rfl rfl rfl rfl (by decide) y idx e k

/-- The row scatter-add of this program at literal sizes, read at `(n, d)`: the table's entry plus the sum of the
    updates' entries `(e, d)` over the rows whose index word, read signed, is `n`. -/
theorem scatterSC_apply (x : FVec Ideal S50000x32 .f32) (idx : IVec S800000x1 32) (u : FVec Ideal S800000x32 .f32)
    (n : Fin 50000) (d : Fin 32) :
    Host.scatterAdd scatter_S50000x32_S800000x1_S800000x32_1_0_0_1 x idx u (ix2 n d)
      = x (ix2 n d) + ∑ e : Fin 800000, if (idx (ix2 e (0 : Fin 1))).toInt = (n.val : ℤ) then u (ix2 e d) else 0 := by
  rw [Host.scatterAdd, Ideal.hostScatterAdd_def]
  exact Cert.LibScatterRows.scatterAdd_rows_apply (N := 50000) (M := 800000) (C := 32) (w := 32) scatter_S50000x32_S800000x1_S800000x32_1_0_0_1
    rfl rfl rfl rfl x idx u n d

/-- The weighted messages: each edge's source row of the table, times the edge's weight repeated along the row. -/
def msgV (y : FVec Ideal S50000x32 .f32) (ei : IVec S2x800000 32) (ew : FVec Ideal S800000 .f32) : FVec Ideal S800000x32 .f32 :=
  mulf (Host.gather gather_S50000x32_S800000x1_S800000x32_1_0_n_n_0_1_132 y (broadcastInDim S800000x1 ![0] bcast_S800000_S800000x1_0 (srcV ei)))
    (broadcastInDim S800000x32 ![0, 1] bcast_S800000x1_S800000x32_0_1 (broadcastInDim S800000x1 ![0] bcast_S800000_S800000x1_0 ew))

/-- Entry `(e, k)` of the weighted messages: the table at the clamped source row of edge `e`, column `k`, times the
    weight of edge `e`. -/
theorem msgV_apply (y : FVec Ideal S50000x32 .f32) (ei : IVec S2x800000 32) (ew : FVec Ideal S800000 .f32)
    (e : Fin 800000) (k : Fin 32) :
    msgV y ei ew (ix2 e k) = y (ix2 (Cert.Spec.srcRow (Cert.Spec.srcOf ei) e) k) * ew (ix1 e) := by
  have hc : (broadcastInDim S800000x1 ![0] bcast_S800000_S800000x1_0 (srcV ei)) (ix2 e (0 : Fin 1)) = Cert.Spec.srcOf ei (ix1 e) :=
    (col_apply (srcV ei) e).trans (srcV_apply ei e)
  unfold msgV
  rw [mulf_apply, wide_apply, col_apply]
  generalize broadcastInDim S800000x1 ![0] bcast_S800000_S800000x1_0 (srcV ei) = idx at hc ⊢
  rw [gatherG_apply y idx e k]
  refine congrArg (fun a => y (ix2 a k) * ew (ix1 e)) (Fin.ext ?_)
  show min (idx (ix2 e (0 : Fin 1))).toInt.toNat 49999 = min (Cert.Spec.srcOf ei (ix1 e)).toInt.toNat 49999
  rw [hc]

/-- The per-node sums: the weighted messages added into a table of zeros at the rows the destination words name. -/
def aggV (y : FVec Ideal S50000x32 .f32) (ei : IVec S2x800000 32) (ew : FVec Ideal S800000 .f32) : FVec Ideal S50000x32 .f32 :=
  Host.scatterAdd scatter_S50000x32_S800000x1_S800000x32_1_0_0_1
    (broadcastInDim S50000x32 ![] bcast_S_S50000x32 (constant (F := Ideal) S_ .f32 0x00000000#32))
    (broadcastInDim S800000x1 ![0] bcast_S800000_S800000x1_0 (dstV ei)) (msgV y ei ew)

/-- Entry `(n, d)` of the per-node sums is the specification's: zero plus the sum, over the edges whose destination
    word is `n`, of the weighted message at `(e, d)`. -/
theorem aggV_apply (y : FVec Ideal S50000x32 .f32) (ei : IVec S2x800000 32) (ew : FVec Ideal S800000 .f32)
    (n : Fin 50000) (d : Fin 32) :
    aggV y ei ew (ix2 n d) = Cert.Spec.aggAt y (Cert.Spec.srcOf ei) (Cert.Spec.dstOf ei) ew n d := by
  have hz : broadcastInDim S50000x32 ![] bcast_S_S50000x32 (constant (F := Ideal) S_ .f32 0x00000000#32) (ix2 n d) = (0 : EReal) :=
    (broadcastInDim_apply _ bcast_S_S50000x32 (constant (F := Ideal) S_ .f32 0x00000000#32) (ix2 n d) (fun a => a.elim0)
      (fun a => a.elim0)).trans Ideal.ofBits_zero_f32
  have hm : ∀ e : Fin 800000, msgV y ei ew (ix2 e d) = y (ix2 (Cert.Spec.srcRow (Cert.Spec.srcOf ei) e) d) * ew (ix1 e) :=
    fun e => msgV_apply y ei ew e d
  have hd : ∀ e : Fin 800000, (broadcastInDim S800000x1 ![0] bcast_S800000_S800000x1_0 (dstV ei)) (ix2 e (0 : Fin 1)) = Cert.Spec.dstOf ei (ix1 e) :=
    fun e => (col_apply (dstV ei) e).trans (dstV_apply ei e)
  unfold aggV
  generalize msgV y ei ew = u at hm ⊢
  generalize broadcastInDim S800000x1 ![0] bcast_S800000_S800000x1_0 (dstV ei) = idx at hd ⊢
  generalize hx : broadcastInDim S50000x32 ![] bcast_S_S50000x32 (constant (F := Ideal) S_ .f32 0x00000000#32) = x at hz ⊢
  rw [scatterSC_apply x idx u n d, hz]
  unfold Cert.Spec.aggAt
  refine congrArg (0 + ·) (Finset.sum_congr rfl fun e _ => ?_)
  rw [hd e, hm e]

end Terms

variable (W : Valuation τ sig (Elt Ideal))

/-- The per-node sums the stretch leaves in `main_v17`, at `(n, d)`: over the projected table found in `main_v0_0`. -/
theorem v17_apply (n : Fin 50000) (d : Fin 32) :
    (StableHlo.after (hostOps1 (F := Ideal)) W (Proc.devRef .tc main_v17) : S50000x32.Idx → EReal) (ix2 n d)
      = Cert.Spec.aggAt (W (Proc.devRef .tc main_v0_0) : S50000x32.Idx → EReal)
          (Cert.Spec.srcOf (W (Proc.devRef .tc main_arg9))) (Cert.Spec.dstOf (W (Proc.devRef .tc main_arg9)))
          (W (Proc.devRef .tc main_arg1)) n d := by
  have e : (StableHlo.after (hostOps1 (F := Ideal)) W (Proc.devRef .tc main_v17) : S50000x32.Idx → EReal)
      = aggV (W (Proc.devRef .tc main_v0_0)) (W (Proc.devRef .tc main_arg9)) (W (Proc.devRef .tc main_arg1)) := by
    after_results_simp
    rfl
  exact (congrFun e (ix2 n d)).trans (aggV_apply _ _ _ n d)

/-- The graph words as a column. -/
theorem v18_apply (n : Fin 50000) :
    (StableHlo.after (hostOps1 (F := Ideal)) W (Proc.devRef .tc main_v18) : S50000x1.Idx → BitVec 32) (ix2 n (0 : Fin 1))
      = (W (Proc.devRef .tc main_arg10) : S50000.Idx → BitVec 32) (ix1 n) := by
  have e : (StableHlo.after (hostOps1 (F := Ideal)) W (Proc.devRef .tc main_v18) : S50000x1.Idx → BitVec 32)
      = shapeCast S50000x1 (W (Proc.devRef .tc main_arg10) : S50000.Idx → BitVec 32) shapeCasts_S50000_S50000x1 := by
    after_results
    rfl
  refine (congrFun e (ix2 n (0 : Fin 1))).trans ?_
  exact shapeCast_apply _ shapeCasts_S50000_S50000x1 (ix2 n (0 : Fin 1)) (ix1 n) (by
    rw [Shape.rowMajor_val_two, Shape.rowMajor_val_one]
    show n.val = n.val * 1 + 0
    omega)

/-- The hidden layer's bias as a row. -/
theorem v19_apply (k : Fin 32) :
    (StableHlo.after (hostOps1 (F := Ideal)) W (Proc.devRef .tc main_v19) : S1x32.Idx → EReal) (ix2 (0 : Fin 1) k)
      = (W (Proc.devRef .tc main_arg3) : S32.Idx → EReal) (ix1 k) := by
  have e : (StableHlo.after (hostOps1 (F := Ideal)) W (Proc.devRef .tc main_v19) : S1x32.Idx → EReal)
      = shapeCast S1x32 (W (Proc.devRef .tc main_arg3) : S32.Idx → EReal) shapeCasts_S32_S1x32 := by
    after_results
    rfl
  exact (congrFun e (ix2 (0 : Fin 1) k)).trans (shapeCast_a_1a_apply _ shapeCasts_S32_S1x32 0 k)

/-- The first small layer's bias as a row. -/
theorem v20_apply (k : Fin 32) :
    (StableHlo.after (hostOps1 (F := Ideal)) W (Proc.devRef .tc main_v20) : S1x32.Idx → EReal) (ix2 (0 : Fin 1) k)
      = (W (Proc.devRef .tc main_arg6) : S32.Idx → EReal) (ix1 k) := by
  have e : (StableHlo.after (hostOps1 (F := Ideal)) W (Proc.devRef .tc main_v20) : S1x32.Idx → EReal)
      = shapeCast S1x32 (W (Proc.devRef .tc main_arg6) : S32.Idx → EReal) shapeCasts_S32_S1x32 := by
    after_results
    rfl
  exact (congrFun e (ix2 (0 : Fin 1) k)).trans (shapeCast_a_1a_apply _ shapeCasts_S32_S1x32 0 k)

/-- The second small layer's bias as a row. -/
theorem v21_apply (k : Fin 2) :
    (StableHlo.after (hostOps1 (F := Ideal)) W (Proc.devRef .tc main_v21) : S1x2.Idx → EReal) (ix2 (0 : Fin 1) k)
      = (W (Proc.devRef .tc main_arg8) : S2.Idx → EReal) (ix1 k) := by
  have e : (StableHlo.after (hostOps1 (F := Ideal)) W (Proc.devRef .tc main_v21) : S1x2.Idx → EReal)
      = shapeCast S1x2 (W (Proc.devRef .tc main_arg8) : S2.Idx → EReal) shapeCasts_S2_S1x2 := by
    after_results
    rfl
  exact (congrFun e (ix2 (0 : Fin 1) k)).trans (shapeCast_a_1a_apply _ shapeCasts_S2_S1x2 0 k)

end Cert.KernelIdeal.HostValue

end
-- ==== Proof.KernelIdeal.KernelValue.lean ====
/-
  The program's result as one function of its argument arrays: the pooling kernel's output array, read through the host
  operations between the kernels and the projection kernel's two result arrays, is the network with the node table
  multiplied by `w_rel` before the messages are gathered, weighted and summed.
-/
import proofs.«426008_j36335423324474_3_alg».proof.Proof.KernelIdeal.ProgramRun
import proofs.«426008_j36335423324474_3_alg».proof.Proof.KernelIdeal.ProjectValue
import proofs.«426008_j36335423324474_3_alg».proof.Proof.KernelIdeal.PoolValue
import proofs.«426008_j36335423324474_3_alg».proof.Proof.KernelIdeal.HostValue

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-! ## What the buffers hold when the pooling kernel is entered -/

/-- A buffer the host operations do not write is, at the pooling kernel's entry, as the projection kernel left it. -/
theorem W2_keep (c : Dev nD) (r : Ref sig .tc) (h : r ∉ hostOps1_W) :
    W2 m c (Proc.devRef .tc r) = W1 m c (Proc.devRef .tc r) :=
  StableHlo.after_of_writes_sub hostOps1 _ hostOps1_writes h

/-- The projection kernel's first result array is the node table times `w_rel`. -/
theorem W1_xr (c : Dev nD) :
    (W1 m c (Proc.devRef .tc main_v0_0) : S50000x32.Idx → EReal) = Cert.Spec.proj (m ((c.tc : Thread nD τ).loc main_arg0)) (m ((c.tc : Thread nD τ).loc main_arg2)) :=
  (W1_arr m c 3).trans (Cert.KernelIdeal.ProjectValue.xr_eq (V0 m) c)

/-- Its second result array is the node table times `w_root`. -/
theorem W1_xroot (c : Dev nD) :
    (W1 m c (Proc.devRef .tc main_v0_1) : S50000x32.Idx → EReal) = Cert.Spec.proj (m ((c.tc : Thread nD τ).loc main_arg0)) (m ((c.tc : Thread nD τ).loc main_arg4)) :=
  (W1_arr m c 4).trans (Cert.KernelIdeal.ProjectValue.xroot_eq (V0 m) c)

/-- The arguments the projection kernel does not stage are as launched after it. -/
theorem W1_arg (c : Dev nD) (b : Ref sig .tc) (hb : ∀ w, Pipeline.arrRef spec0 w ≠ b) :
    W1 m c (Proc.devRef .tc b) = m ((c.tc : Thread nD τ).loc b) := W1_of_ne m c b hb

/-! ## The hidden rows, the graph words and the small layers' operands as the pooling kernel finds them -/

/-- The hidden rows at an entry. -/
theorem hiddenOf_apply (agg xroot : Cert.Spec.Mat 50000 32) (brel : (⟨2, ![1, 32]⟩ : Shape).Idx → EReal) (n : Fin 50000)
    (d : Fin 32) :
    Cert.KernelIdeal.PoolValue.hiddenOf agg xroot brel (ix2 n d)
      = max ((agg (ix2 n d) + xroot (ix2 n d)) + brel (ix2 (0 : Fin 1) d)) 0 := rfl

/-- The hidden rows the pooling kernel forms are the network's hidden layer. -/
theorem hidden_eq (c : Dev nD) :
    Cert.KernelIdeal.PoolValue.hiddenOf (V2 m c main_v17) (V2 m c main_v0_1) (V2 m c main_v19)
      = Cert.Spec.hiddenK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (Cert.Spec.srcOf (m ((c.tc : Thread nD τ).loc main_arg9))) (Cert.Spec.dstOf (m ((c.tc : Thread nD τ).loc main_arg9))) := by
  funext i
  obtain ⟨n, d, rfl⟩ : ∃ (n : Fin 50000) (d : Fin 32), i = ix2 n d := ⟨i 0, i 1, eq_ix2 i⟩
  have h17 : (V2 m c main_v17 : S50000x32.Idx → EReal) (ix2 n d)
      = Cert.Spec.aggAt (Cert.Spec.proj (m ((c.tc : Thread nD τ).loc main_arg0)) (m ((c.tc : Thread nD τ).loc main_arg2))) (Cert.Spec.srcOf (m ((c.tc : Thread nD τ).loc main_arg9))) (Cert.Spec.dstOf (m ((c.tc : Thread nD τ).loc main_arg9))) (m ((c.tc : Thread nD τ).loc main_arg1)) n d := by
    refine (Cert.KernelIdeal.HostValue.v17_apply (W1 m c) n d).trans ?_
    rw [W1_xr m c, W1_arg m c main_arg9 (by decide), W1_arg m c main_arg1 (by decide)]
  have h01 : (V2 m c main_v0_1 : S50000x32.Idx → EReal) (ix2 n d) = Cert.Spec.projAt (m ((c.tc : Thread nD τ).loc main_arg0)) (m ((c.tc : Thread nD τ).loc main_arg4)) n d := by
    show (W2 m c (Proc.devRef .tc main_v0_1) : S50000x32.Idx → EReal) (ix2 n d) = _
    rw [W2_keep m c main_v0_1 (by decide), W1_xroot m c]
    rfl
  have h19 : (V2 m c main_v19 : S1x32.Idx → EReal) (ix2 (0 : Fin 1) d) = ((m ((c.tc : Thread nD τ).loc main_arg3)) : S32.Idx → EReal) (ix1 d) := by
    refine (Cert.KernelIdeal.HostValue.v19_apply (W1 m c) d).trans ?_
    rw [W1_arg m c main_arg3 (by decide)]
  refine (hiddenOf_apply _ _ _ n d).trans ?_
  rw [h17, h01, h19]
  rfl

/-- The graph words' column is the graph words. -/
theorem batch_eq (c : Dev nD) :
    (fun i : S50000.Idx => (V2 m c main_v18 : S50000x1.Idx → BitVec 32) (ix2 (i 0) (0 : Fin 1))) = (m ((c.tc : Thread nD τ).loc main_arg10)) := by
  funext i
  obtain ⟨n, rfl⟩ : ∃ n : Fin 50000, i = ix1 n := ⟨i 0, eq_ix1 i⟩
  refine (Cert.KernelIdeal.HostValue.v18_apply (W1 m c) n).trans ?_
  rw [W1_arg m c main_arg10 (by decide)]

/-- The first small layer's bias row is that bias. -/
theorem bfc1_eq (c : Dev nD) :
    (fun i : S32.Idx => (V2 m c main_v20 : S1x32.Idx → EReal) (ix2 (0 : Fin 1) (i 0))) = (m ((c.tc : Thread nD τ).loc main_arg6)) := by
  funext i
  obtain ⟨k, rfl⟩ : ∃ k : Fin 32, i = ix1 k := ⟨i 0, eq_ix1 i⟩
  refine (Cert.KernelIdeal.HostValue.v20_apply (W1 m c) k).trans ?_
  rw [W1_arg m c main_arg6 (by decide)]

/-- The second small layer's bias row is that bias. -/
theorem bfc2_eq (c : Dev nD) :
    (fun i : S2.Idx => (V2 m c main_v21 : S1x2.Idx → EReal) (ix2 (0 : Fin 1) (i 0))) = (m ((c.tc : Thread nD τ).loc main_arg8)) := by
  funext i
  obtain ⟨k, rfl⟩ : ∃ k : Fin 2, i = ix1 k := ⟨i 0, eq_ix1 i⟩
  refine (Cert.KernelIdeal.HostValue.v21_apply (W1 m c) k).trans ?_
  rw [W1_arg m c main_arg8 (by decide)]

/-- The small layers' weights are as launched. -/
theorem wfc1_eq (c : Dev nD) : V2 m c main_arg5 = (m ((c.tc : Thread nD τ).loc main_arg5)) := by
  show W2 m c (Proc.devRef .tc main_arg5) = _
  rw [W2_keep m c main_arg5 (by decide), W1_arg m c main_arg5 (by decide)]
theorem wfc2_eq (c : Dev nD) : V2 m c main_arg7 = (m ((c.tc : Thread nD τ).loc main_arg7)) := by
  show W2 m c (Proc.devRef .tc main_arg7) = _
  rw [W2_keep m c main_arg7 (by decide), W1_arg m c main_arg7 (by decide)]

/-! ## The result -/

/-- The pooling kernel's output array after the run is the network of the argument arrays. -/
theorem result_eq (c : Dev nD) :
    (dat1 (F := Ideal) (V2 m) c).arrAt 8 cfg1.N
      = (Cert.Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) : S500x2.Idx → EReal) := by
  rw [Cert.KernelIdeal.PoolValue.out_eq (V2 m) c, hidden_eq m c, batch_eq m c, bfc1_eq m c, bfc2_eq m c, wfc1_eq m c, wfc2_eq m c]
  rfl

end Cert.KernelIdeal.KernelValue

end
-- ==== Proof.RefTail.lean ====
/-
  The reference program's last eleven stages — the two small linear layers and the log-softmax — read entry by entry: they
  are the network's tail of the per-graph sums.
-/
import proofs.«426008_j36335423324474_3_alg».proof.Proof.Gen.ReferenceIdeal.Read
import proofs.«426008_j36335423324474_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefTail

open Idealize.ShloMosaic Idealize.ShloMosaic.TcCoe Idealize.ShloMosaic.ValueIdx Idealize.SL.Sem
open Cert.ReferenceIdeal Cert.ReferenceIdeal.Gen Cert.ReferenceIdeal.Read

open scoped BigOperators

/-! ## Indices -/

/-- The host's reduction over the class axis, as a fact about the two shapes. -/
theorem red_S500x2 : S500x2.Reduces [1] S500 := by decide

/-- A graph's index with class `k` put back on the dropped axis is `(g, k)`. -/
theorem lift_S500x2 (g : Fin 500) (k : Fin (S500x2.size 1)) :
    red_S500x2.lift (ix1 g) k = ix2 g (⟨k.val, k.isLt⟩ : Fin 2) := by
  funext c; apply Fin.ext
  fin_cases c <;> rfl

theorem lidx27 (g : Fin 500) (k l : Fin 32) : lidx_main_v27 (ix2 g k) l = ix2 g l :=
  funext fun a => Fin.ext (by match a with | ⟨0, _⟩ => rfl | ⟨1, _⟩ => rfl)
theorem ridx27 (g : Fin 500) (k l : Fin 32) : ridx_main_v27 (ix2 g k) l = ix2 l k :=
  funext fun a => Fin.ext (by match a with | ⟨0, _⟩ => rfl | ⟨1, _⟩ => rfl)
theorem idx2829 (g : Fin 500) (k : Fin 32) : idx_main_v28 (idx_main_v29 (ix2 g k)) = ix1 k :=
  funext fun a => Fin.ext (by match a with | ⟨0, _⟩ => rfl)
theorem lidx32 (g : Fin 500) (j : Fin 2) (k : Fin 32) : lidx_main_v32 (ix2 g j) k = ix2 g k :=
  funext fun a => Fin.ext (by match a with | ⟨0, _⟩ => rfl | ⟨1, _⟩ => rfl)
theorem ridx32 (g : Fin 500) (j : Fin 2) (k : Fin 32) : ridx_main_v32 (ix2 g j) k = ix2 k j :=
  funext fun a => Fin.ext (by match a with | ⟨0, _⟩ => rfl | ⟨1, _⟩ => rfl)
theorem idx3334 (g : Fin 500) (j : Fin 2) : idx_main_v33 (idx_main_v34 (ix2 g j)) = ix1 j :=
  funext fun a => Fin.ext (by match a with | ⟨0, _⟩ => rfl)
theorem idxc34 (g : Fin 500) (j : Fin 2) : idx_main_call2_v3 (idx_main_call2_v4 (ix2 g j)) = ix1 g :=
  funext fun a => Fin.ext (by match a with | ⟨0, _⟩ => rfl)
theorem idxc7 (g : Fin 500) (j : Fin 2) : idx_main_call2_v7 (ix1 g) j = ix2 g j :=
  funext fun a => Fin.ext (by match a with | ⟨0, _⟩ => rfl | ⟨1, _⟩ => rfl)
theorem idxc810 (g : Fin 500) (j : Fin 2) : idx_main_call2_v8 (idx_main_call2_v10 (ix2 g j)) = ix1 g :=
  funext fun a => Fin.ext (by match a with | ⟨0, _⟩ => rfl)

/-- The word of minus infinity reads as the bottom element. -/
theorem ofBits_neg_inf : (FloatOps.ofBits (F := Ideal) .f32 0xFF800000#32 : EReal) = ⊥ := by
  simp [Ideal.ofBits, Ideal.ieee]

/-! ## The stages, one at a time, at an entry -/

section Stages

variable (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x5 : (⟨S32x32, .f32⟩ : BufTy).Contents (Elt Ideal))
    (x6 : (⟨S32, .f32⟩ : BufTy).Contents (Elt Ideal)) (x7 : (⟨S32x2, .f32⟩ : BufTy).Contents (Elt Ideal))
    (x8 : (⟨S2, .f32⟩ : BufTy).Contents (Elt Ideal)) (x9 : (⟨S2x800000, .i32⟩ : BufTy).Contents (Elt Ideal))
    (x10 : (⟨S50000, .i32⟩ : BufTy).Contents (Elt Ideal))

local notation "P" => (val_main_v26 (F := Ideal) x0 x1 x2 x3 x4 x9 x10)

/-- The first layer's product. -/
theorem s27 (g : Fin 500) (k : Fin 32) :
    val_main_v27 (F := Ideal) x0 x1 x2 x3 x4 x5 x9 x10 (ix2 g k) = ∑ l : Fin 32, P (ix2 g l) * x5 (ix2 l k) := by
  rw [val_main_v27_apply]
  refine Finset.sum_congr rfl fun l _ => ?_
  rw [lidx27, ridx27]

/-- Its bias, spread over the rows. -/
theorem s29 (g : Fin 500) (k : Fin 32) : val_main_v29 (F := Ideal) x6 (ix2 g k) = x6 (ix1 k) := by
  rw [val_main_v29_apply, val_main_v28_apply, idx2829]

/-- The first layer after the relu. -/
theorem s31 (g : Fin 500) (k : Fin 32) :
    val_main_v31 (F := Ideal) x0 x1 x2 x3 x4 x5 x6 x9 x10 (ix2 g k) = Cert.Spec.fc1At P x5 x6 g k := by
  rw [val_main_v31_apply, val_main_v30_apply, s27, s29, val_main_call1_v0_apply, val_main_call1_cst_apply]
  unfold Cert.Spec.fc1At
  rw [Ideal.maximumf_def, Ideal.addf_def, Ideal.ofBits_def, Ideal.ofBits_zero_f32]

/-- The second layer's product. -/
theorem s32 (g : Fin 500) (j : Fin 2) :
    val_main_v32 (F := Ideal) x0 x1 x2 x3 x4 x5 x6 x7 x9 x10 (ix2 g j)
      = ∑ k : Fin 32, Cert.Spec.fc1At P x5 x6 g k * x7 (ix2 k j) := by
  rw [val_main_v32_apply]
  refine Finset.sum_congr rfl fun k _ => ?_
  rw [lidx32, ridx32, s31]

/-- Its bias, spread over the rows. -/
theorem s34 (g : Fin 500) (j : Fin 2) : val_main_v34 (F := Ideal) x8 (ix2 g j) = x8 (ix1 j) := by
  rw [val_main_v34_apply, val_main_v33_apply, idx3334]

/-- The logits. -/
theorem s35 (g : Fin 500) (j : Fin 2) :
    val_main_v35 (F := Ideal) x0 x1 x2 x3 x4 x5 x6 x7 x8 x9 x10 (ix2 g j) = Cert.Spec.logitAt P x5 x6 x7 x8 g j := by
  rw [val_main_v35_apply, s32, s34]
  unfold Cert.Spec.logitAt
  rw [Ideal.addf_def]

/-- The row maximum, as the host's fold from minus infinity. -/
theorem c0 (g : Fin 500) :
    val_main_call2_v0 (F := Ideal) x0 x1 x2 x3 x4 x5 x6 x7 x8 x9 x10 (ix1 g) = Cert.Spec.rowMax (Cert.Spec.logitAt P x5 x6 x7 x8 g) := by
  unfold val_main_call2_v0 Cert.Spec.rowMax
  rw [Host.reduce_eq_fold_single FloatOps.maximumf _ _ reducesTo_S500x2_S500_d1 red_S500x2 h_S_]
  have hf : (val_main_v35 (F := Ideal) x0 x1 x2 x3 x4 x5 x6 x7 x8 x9 x10 ∘ red_S500x2.lift (ix1 g))
      = (Cert.Spec.logitAt P x5 x6 x7 x8 g : Fin 2 → EReal) :=
    funext fun k => by
      show val_main_v35 (F := Ideal) x0 x1 x2 x3 x4 x5 x6 x7 x8 x9 x10 (red_S500x2.lift (ix1 g) k) = _
      rw [lift_S500x2, s35]
      rfl
  rw [hf, val_main_call2_cst_apply, ofBits_neg_inf]
  rfl

/-- The maximum with minus infinity changes nothing. -/
theorem c2 (g : Fin 500) :
    val_main_call2_v2 (F := Ideal) x0 x1 x2 x3 x4 x5 x6 x7 x8 x9 x10 (ix1 g) = Cert.Spec.rowMax (Cert.Spec.logitAt P x5 x6 x7 x8 g) := by
  rw [val_main_call2_v2_apply, val_main_call2_v1_apply, val_main_call2_cst_0_apply, c0, Ideal.maximumf_def, ofBits_neg_inf]
  exact max_bot_left _

/-- The row maximum spread over the classes. -/
theorem c4 (g : Fin 500) (j : Fin 2) :
    val_main_call2_v4 (F := Ideal) x0 x1 x2 x3 x4 x5 x6 x7 x8 x9 x10 (ix2 g j) = Cert.Spec.rowMax (Cert.Spec.logitAt P x5 x6 x7 x8 g) := by
  rw [val_main_call2_v4_apply, val_main_call2_v3_apply, idxc34, c2]

/-- The shifted logits. -/
theorem c5 (g : Fin 500) (j : Fin 2) :
    val_main_call2_v5 (F := Ideal) x0 x1 x2 x3 x4 x5 x6 x7 x8 x9 x10 (ix2 g j)
      = Cert.Spec.logitAt P x5 x6 x7 x8 g j - Cert.Spec.rowMax (Cert.Spec.logitAt P x5 x6 x7 x8 g) := by
  rw [val_main_call2_v5_apply, s35, c4, Ideal.subf_def]

/-- Their exponentials, summed over the classes. -/
theorem c7 (g : Fin 500) :
    val_main_call2_v7 (F := Ideal) x0 x1 x2 x3 x4 x5 x6 x7 x8 x9 x10 (ix1 g)
      = ∑ j : Fin 2, Ideal.exp (Cert.Spec.logitAt P x5 x6 x7 x8 g j - Cert.Spec.rowMax (Cert.Spec.logitAt P x5 x6 x7 x8 g)) := by
  rw [val_main_call2_v7_apply, val_main_call2_cst_1_apply, Ideal.ofBits_def, Ideal.ofBits_zero_f32, zero_add]
  refine Finset.sum_congr rfl fun j _ => ?_
  rw [idxc7, val_main_call2_v6_apply, c5, Ideal.hostUnary_exp_def]

/-- The log of the sum, spread over the classes. -/
theorem c10 (g : Fin 500) (j : Fin 2) :
    val_main_call2_v10 (F := Ideal) x0 x1 x2 x3 x4 x5 x6 x7 x8 x9 x10 (ix2 g j)
      = Ideal.log (∑ j : Fin 2, Ideal.exp (Cert.Spec.logitAt P x5 x6 x7 x8 g j - Cert.Spec.rowMax (Cert.Spec.logitAt P x5 x6 x7 x8 g))) := by
  rw [val_main_call2_v10_apply, val_main_call2_v9_apply, val_main_call2_v8_apply, idxc810, c7, Ideal.hostUnary_log_def]

end Stages

/-- The reference's last stage is the network's tail of its per-graph sums (the stage `val_main_v26`). -/
theorem tail_eq (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x5 : (⟨S32x32, .f32⟩ : BufTy).Contents (Elt Ideal))
    (x6 : (⟨S32, .f32⟩ : BufTy).Contents (Elt Ideal)) (x7 : (⟨S32x2, .f32⟩ : BufTy).Contents (Elt Ideal))
    (x8 : (⟨S2, .f32⟩ : BufTy).Contents (Elt Ideal)) (x9 : (⟨S2x800000, .i32⟩ : BufTy).Contents (Elt Ideal))
    (x10 : (⟨S50000, .i32⟩ : BufTy).Contents (Elt Ideal)) :
    (val_main_v36 (F := Ideal) x0 x1 x2 x3 x4 x5 x6 x7 x8 x9 x10 : S500x2.Idx → EReal)
      = Cert.Spec.tail (val_main_v26 (F := Ideal) x0 x1 x2 x3 x4 x9 x10) x5 x6 x7 x8 := by
  funext i
  obtain ⟨g, j, rfl⟩ : ∃ (g : Fin 500) (j : Fin 2), i = ix2 g j := ⟨i 0, i 1, eq_ix2 i⟩
  rw [val_main_v36_apply, c5, c10, Ideal.subf_def]
  rfl

end Cert.ReferenceIdeal.RefTail

end
-- ==== Proof.RefValue.lean ====
/-
  The reference program's result, one operation at a time, is the network with the messages summed in feature space.
-/
import proofs.«426008_j36335423324474_3_alg».proof.Proof.Gen.ReferenceIdeal.Read
import proofs.«426008_j36335423324474_3_alg».proof.Proof.Spec
import proofs.«426008_j36335423324474_3_alg».proof.Proof.LibGatherRows
import proofs.«426008_j36335423324474_3_alg».proof.Proof.LibScatterRows
import proofs.«426008_j36335423324474_3_alg».proof.Proof.RefTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open scoped BigOperators

/-! ## The edge words

Row 0 of the edge index, sliced and flattened, is compared with zero and moved up by the number of nodes where it is
negative: entry by entry this is the source word. Row 1, sliced and flattened, is the destination word. -/

/-- Entry `e` of the flattened slice of row 0 sits at `(0, e)` of the edge index. -/
theorem idx_row0 (e : Fin 800000) : idx_main_v0 (idx_main_v1 (ix1 e)) = ix2 (0 : Fin 2) e :=
  funext fun a => Fin.ext (by
    match a with
    | ⟨0, _⟩ => rfl
    | ⟨1, _⟩ => exact Nat.mod_eq_of_lt e.isLt)

/-- Entry `e` of the flattened slice of row 1 sits at `(1, e)` of the edge index. -/
theorem idx_row1 (e : Fin 800000) : idx_main_v2 (idx_main_v3 (ix1 e)) = ix2 (1 : Fin 2) e :=
  funext fun a => Fin.ext (by
    match a with
    | ⟨0, _⟩ => rfl
    | ⟨1, _⟩ => exact Nat.mod_eq_of_lt e.isLt)

/-- The flattened row 0 at `e`. -/
theorem row0_apply (x9 : (⟨S2x800000, .i32⟩ : BufTy).Contents (Elt Ideal)) (e : Fin 800000) :
    val_main_v1 (F := Ideal) x9 (ix1 e) = x9 (ix2 (0 : Fin 2) e) := by
  rw [val_main_v1_apply, val_main_v0_apply, idx_row0]

/-- The selected word at `e` is the source word of edge `e`. -/
theorem src_apply (x9 : (⟨S2x800000, .i32⟩ : BufTy).Contents (Elt Ideal)) (e : Fin 800000) :
    val_main_v8 (F := Ideal) x9 (ix1 e) = Cert.Spec.srcOf x9 (ix1 e) := by
  rw [val_main_v8_apply, val_main_v5_apply, val_main_v7_apply, row0_apply, val_main_v4_apply, val_main_c_apply,
    val_main_v6_apply, val_main_c_0_apply]
  rfl

/-- The flattened row 1 at `e` is the destination word of edge `e`. -/
theorem dst_apply (x9 : (⟨S2x800000, .i32⟩ : BufTy).Contents (Elt Ideal)) (e : Fin 800000) :
    val_main_v3 (F := Ideal) x9 (ix1 e) = Cert.Spec.dstOf x9 (ix1 e) := by
  rw [val_main_v3_apply, val_main_v2_apply, idx_row1]
  rfl

/-- The source words as a column: entry `(e, 0)`. -/
theorem srcCol_apply (x9 : (⟨S2x800000, .i32⟩ : BufTy).Contents (Elt Ideal)) (e : Fin 800000) (z : Fin 1) :
    val_main_v9 (F := Ideal) x9 (ix2 e z) = Cert.Spec.srcOf x9 (ix1 e) := by
  have hi : idx_main_v9 (ix2 e z) = ix1 e := funext fun a => Fin.ext (by match a with | ⟨0, _⟩ => rfl)
  rw [val_main_v9_apply, hi, src_apply]

/-- The destination words as a column: entry `(e, 0)`. -/
theorem dstCol_apply (x9 : (⟨S2x800000, .i32⟩ : BufTy).Contents (Elt Ideal)) (e : Fin 800000) (z : Fin 1) :
    val_main_v15 (F := Ideal) x9 (ix2 e z) = Cert.Spec.dstOf x9 (ix1 e) := by
  have hi : idx_main_v15 (ix2 e z) = ix1 e := funext fun a => Fin.ext (by match a with | ⟨0, _⟩ => rfl)
  rw [val_main_v15_apply, hi, dst_apply]

/-! ## The weighted messages and their sum per destination -/

/-- The edge weights spread over the 128 features: entry `(e, f)` is the weight of edge `e`. -/
theorem weightRows_apply (x1 : (⟨S800000, .f32⟩ : BufTy).Contents (Elt Ideal)) (e : Fin 800000) (f : Fin 128) :
    val_main_v12 (F := Ideal) x1 (ix2 e f) = x1 (ix1 e) := by
  have hi : idx_main_v11 (idx_main_v12 (ix2 e f)) = ix1 e := funext fun a => Fin.ext (by match a with | ⟨0, _⟩ => rfl)
  rw [val_main_v12_apply, val_main_v11_apply, hi]

/-- The gathered rows: entry `(e, f)` is feature `f` of the node row the source word of edge `e` names. -/
theorem gathered_apply (x0 : (⟨S50000x128, .f32⟩ : BufTy).Contents (Elt Ideal))
    (x9 : (⟨S2x800000, .i32⟩ : BufTy).Contents (Elt Ideal)) (e : Fin 800000) (f : Fin 128) :
    val_main_v10 (F := Ideal) x0 x9 (ix2 e f) = x0 (ix2 (Cert.Spec.srcRow (Cert.Spec.srcOf x9) e) f) := by
  unfold val_main_v10
  rw [Cert.LibGatherRows.gather_rows_apply (N := 50000) (M := 800000) (C := 128)
    gather_S50000x128_S800000x1_S800000x128_1_0_n_n_0_1_1128 rfl rfl rfl rfl rfl rfl rfl (by omega) x0
    (val_main_v9 (F := Ideal) x9) e f]
  refine congrArg x0 (congrArg (fun a => ix2 a f) (Fin.ext ?_))
  show min (val_main_v9 (F := Ideal) x9 (ix2 e (0 : Fin 1))).toInt.toNat (50000 - 1)
    = min (Cert.Spec.srcOf x9 (ix1 e)).toInt.toNat 49999
  rw [srcCol_apply]

/-- The weighted message of edge `e` at feature `f`. -/
theorem message_apply (x0 : (⟨S50000x128, .f32⟩ : BufTy).Contents (Elt Ideal)) (x1 : (⟨S800000, .f32⟩ : BufTy).Contents (Elt Ideal))
    (x9 : (⟨S2x800000, .i32⟩ : BufTy).Contents (Elt Ideal)) (e : Fin 800000) (f : Fin 128) :
    val_main_v13 (F := Ideal) x0 x1 x9 (ix2 e f)
      = x0 (ix2 (Cert.Spec.srcRow (Cert.Spec.srcOf x9) e) f) * x1 (ix1 e) := by
  rw [val_main_v13_apply, gathered_apply, weightRows_apply, Ideal.mulf_def]

/-- The zero table the messages are added into. -/
theorem zeroTable_apply (i : S50000x128.Idx) : val_main_v14 (F := Ideal) i = (0 : EReal) := by
  rw [val_main_v14_apply, val_main_cst_apply, Ideal.ofBits_def, Ideal.ofBits_zero_f32]

/-- The messages added per destination word: entry `(n, f)` is the sum over the edges arriving at `n`. -/
theorem agg_apply (x0 : (⟨S50000x128, .f32⟩ : BufTy).Contents (Elt Ideal)) (x1 : (⟨S800000, .f32⟩ : BufTy).Contents (Elt Ideal))
    (x9 : (⟨S2x800000, .i32⟩ : BufTy).Contents (Elt Ideal)) (n : Fin 50000) (f : Fin 128) :
    val_main_v16 (F := Ideal) x0 x1 x9 (ix2 n f)
      = Cert.Spec.aggAt x0 (Cert.Spec.srcOf x9) (Cert.Spec.dstOf x9) x1 n f := by
  unfold val_main_v16
  rw [Host.scatterAdd, Ideal.hostScatterAdd_def, Cert.LibScatterRows.scatterAdd_rows_apply (N := 50000) (M := 800000) (C := 128)
    scatter_S50000x128_S800000x1_S800000x128_1_0_0_1 rfl rfl rfl rfl, zeroTable_apply]
  unfold Cert.Spec.aggAt
  refine congrArg (fun s => (0 : EReal) + s) (Finset.sum_congr rfl fun e _ => ?_)
  rw [dstCol_apply, message_apply]

/-! ## The hidden layer -/

/-- The hidden layer at `(n, d)`: the summed messages times `w_rel`, plus the bias, plus the node's own features
    times `w_root`, cut off below at zero. -/
theorem hidden_apply (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x9 : (⟨S2x800000, .i32⟩ : BufTy).Contents (Elt Ideal))
    (n : Fin 50000) (d : Fin 32) :
    val_main_v23 (F := Ideal) x0 x1 x2 x3 x4 x9 (ix2 n d)
      = Cert.Spec.hiddenR x0 x1 x2 x3 x4 (Cert.Spec.srcOf x9) (Cert.Spec.dstOf x9) (ix2 n d) := by
  have hl : ∀ k : Fin 128, lidx_main_v17 (ix2 n d) k = ix2 n k := fun k =>
    funext fun a => Fin.ext (by match a with | ⟨0, _⟩ => rfl | ⟨1, _⟩ => rfl)
  have hr : ∀ k : Fin 128, ridx_main_v17 (ix2 n d) k = ix2 k d := fun k =>
    funext fun a => Fin.ext (by match a with | ⟨0, _⟩ => rfl | ⟨1, _⟩ => rfl)
  have hl' : ∀ k : Fin 128, lidx_main_v21 (ix2 n d) k = ix2 n k := fun k =>
    funext fun a => Fin.ext (by match a with | ⟨0, _⟩ => rfl | ⟨1, _⟩ => rfl)
  have hr' : ∀ k : Fin 128, ridx_main_v21 (ix2 n d) k = ix2 k d := fun k =>
    funext fun a => Fin.ext (by match a with | ⟨0, _⟩ => rfl | ⟨1, _⟩ => rfl)
  have hb : idx_main_v18 (idx_main_v19 (ix2 n d)) = ix1 d :=
    funext fun a => Fin.ext (by match a with | ⟨0, _⟩ => rfl)
  have e1 : (∑ k : Fin 128, val_main_v16 (F := Ideal) x0 x1 x9 (lidx_main_v17 (ix2 n d) k) * x2 (ridx_main_v17 (ix2 n d) k))
      = ∑ f : Fin 128, Cert.Spec.aggAt x0 (Cert.Spec.srcOf x9) (Cert.Spec.dstOf x9) x1 n f * x2 (ix2 f d) :=
    Finset.sum_congr rfl fun k _ => by rw [hl, hr, agg_apply]
  have e2 : (∑ k : Fin 128, x0 (lidx_main_v21 (ix2 n d) k) * x4 (ridx_main_v21 (ix2 n d) k)) = Cert.Spec.projAt x0 x4 n d :=
    Finset.sum_congr rfl fun k _ => by rw [hl', hr']
  rw [val_main_v23_apply, val_main_v22_apply, val_main_v20_apply, val_main_v17_apply, val_main_v21_apply, val_main_v19_apply,
    val_main_v18_apply, hb, val_main_call0_v0_apply, val_main_call0_cst_apply, e1, e2]
  simp only [Ideal.maximumf_def, Ideal.addf_def, Ideal.ofBits_def, Ideal.ofBits_zero_f32]
  rfl

/-! ## The sum per graph -/

/-- The zero table the hidden vectors are added into. -/
theorem zeroPool_apply (i : S500x32.Idx) : val_main_v24 (F := Ideal) i = (0 : EReal) := by
  rw [val_main_v24_apply, val_main_cst_1_apply, Ideal.ofBits_def, Ideal.ofBits_zero_f32]

/-- The graph words as a column: entry `(n, 0)`. -/
theorem batchCol_apply (x10 : (⟨S50000, .i32⟩ : BufTy).Contents (Elt Ideal)) (n : Fin 50000) (z : Fin 1) :
    val_main_v25 (F := Ideal) x10 (ix2 n z) = x10 (ix1 n) := by
  have hi : idx_main_v25 (ix2 n z) = ix1 n := funext fun a => Fin.ext (by match a with | ⟨0, _⟩ => rfl)
  rw [val_main_v25_apply, hi]

/-- The hidden vectors added per graph word: entry `(g, l)` is the sum over the nodes of graph `g`. -/
theorem pooled_apply (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x9 : (⟨S2x800000, .i32⟩ : BufTy).Contents (Elt Ideal))
    (x10 : (⟨S50000, .i32⟩ : BufTy).Contents (Elt Ideal)) (g : Fin 500) (l : Fin 32) :
    val_main_v26 (F := Ideal) x0 x1 x2 x3 x4 x9 x10 (ix2 g l)
      = Cert.Spec.pooledR (Cert.Spec.hiddenR x0 x1 x2 x3 x4 (Cert.Spec.srcOf x9) (Cert.Spec.dstOf x9)) x10 (ix2 g l) := by
  unfold val_main_v26
  rw [Host.scatterAdd, Ideal.hostScatterAdd_def, Cert.LibScatterRows.scatterAdd_rows_apply (N := 500) (M := 50000) (C := 32)
    scatter_S500x32_S50000x1_S50000x32_1_0_0_1 rfl rfl rfl rfl, zeroPool_apply]
  unfold Cert.Spec.pooledR
  refine congrArg (fun s => (0 : EReal) + s) (Finset.sum_congr rfl fun n _ => ?_)
  rw [batchCol_apply, hidden_apply]
  try rfl

/-- The per-graph sums of the hidden layer, as one array. -/
theorem pooled_eq (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x9 : (⟨S2x800000, .i32⟩ : BufTy).Contents (Elt Ideal))
    (x10 : (⟨S50000, .i32⟩ : BufTy).Contents (Elt Ideal)) :
    (val_main_v26 (F := Ideal) x0 x1 x2 x3 x4 x9 x10 : S500x32.Idx → EReal)
      = Cert.Spec.pooledR (Cert.Spec.hiddenR x0 x1 x2 x3 x4 (Cert.Spec.srcOf x9) (Cert.Spec.dstOf x9)) x10 := by
  funext i
  obtain ⟨g, l, rfl⟩ : ∃ (g : Fin 500) (l : Fin 32), i = ix2 g l := ⟨i 0, i 1, eq_ix2 i⟩
  exact pooled_apply x0 x1 x2 x3 x4 x9 x10 g l

/-- The reference's last stage, as a function of the eleven argument arrays, is `Spec.netR` of them. -/
theorem ref_eq (x0 : (⟨S50000x128, .f32⟩ : BufTy).Contents (Elt Ideal)) (x1 : (⟨S800000, .f32⟩ : BufTy).Contents (Elt Ideal))
    (x2 : (⟨S128x32, .f32⟩ : BufTy).Contents (Elt Ideal)) (x3 : (⟨S32, .f32⟩ : BufTy).Contents (Elt Ideal))
    (x4 : (⟨S128x32, .f32⟩ : BufTy).Contents (Elt Ideal)) (x5 : (⟨S32x32, .f32⟩ : BufTy).Contents (Elt Ideal))
    (x6 : (⟨S32, .f32⟩ : BufTy).Contents (Elt Ideal)) (x7 : (⟨S32x2, .f32⟩ : BufTy).Contents (Elt Ideal))
    (x8 : (⟨S2, .f32⟩ : BufTy).Contents (Elt Ideal)) (x9 : (⟨S2x800000, .i32⟩ : BufTy).Contents (Elt Ideal))
    (x10 : (⟨S50000, .i32⟩ : BufTy).Contents (Elt Ideal)) :
    (val_main_v36 (F := Ideal) x0 x1 x2 x3 x4 x5 x6 x7 x8 x9 x10 : S500x2.Idx → EReal)
      = Cert.Spec.netR x0 x1 x2 x3 x4 x5 x6 x7 x8 x9 x10 := by
  refine (Cert.ReferenceIdeal.RefTail.tail_eq x0 x1 x2 x3 x4 x5 x6 x7 x8 x9 x10).trans ?_
  rw [pooled_eq]
  rfl

end Cert.ReferenceIdeal.RefValue

end
-- ==== Proof.Bridge.lean ====
/-
  The two arrangements of the network agree on finite inputs: a row-wise product with `w_rel` commutes with gathering
  rows, weighting them and summing them per destination (distributivity, which holds among real numbers), and the sum
  over a graph's nodes is the product with the graph's 0/1 selection row.
-/
import proofs.«426008_j36335423324474_3_alg».proof.Proof.Spec
import Mathlib.Data.EReal.Basic
import Mathlib.Data.EReal.Operations
import Mathlib.Algebra.BigOperators.Ring.Finset

noncomputable section

namespace Cert.Bridge

open Idealize.ShloMosaic Idealize.ShloMosaic.ValueIdx Cert.Spec
open scoped BigOperators

/-! ## Real numbers inside the extended reals -/

/-- The inclusion of the reals into the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real numbers: multiplying a conditional sum of weighted rows by a weight column and summing over the
    features is the conditional sum of the weighted row-by-column products (distributivity and an exchange of the two
    finite sums). -/
theorem core_real {E F : Type*} [Fintype E] [Fintype F] (c : E → Prop) [DecidablePred c] (a : E → F → ℝ) (w : E → ℝ)
    (W : F → ℝ) :
    ∑ f, (∑ e, if c e then a e f * w e else 0) * W f = ∑ e, if c e then (∑ f, a e f * W f) * w e else 0 := by
  simp_rw [Finset.sum_mul]
  rw [Finset.sum_comm]
  refine Finset.sum_congr rfl fun e _ => ?_
  by_cases h : c e
  · simp only [if_pos h]
    refine Finset.sum_congr rfl fun f _ => ?_
    ring
  · simp only [if_neg h, zero_mul, Finset.sum_const_zero]

/-- The same identity for extended reals that are inclusions of real numbers, in the shape the two hidden layers
    have it (each conditional sum starts from zero). -/
theorem core_ereal {E F : Type*} [Fintype E] [Fintype F] (c : E → Prop) [DecidablePred c] (a : E → F → ℝ) (w : E → ℝ)
    (W : F → ℝ) :
    ∑ f, (0 + ∑ e, if c e then (a e f : EReal) * (w e : EReal) else 0) * (W f : EReal)
      = 0 + ∑ e, if c e then (∑ f, (a e f : EReal) * (W f : EReal)) * (w e : EReal) else 0 := by
  have L : ∑ f, (0 + ∑ e, if c e then (a e f : EReal) * (w e : EReal) else 0) * (W f : EReal)
      = ((∑ f, (∑ e, if c e then a e f * w e else 0) * W f : ℝ) : EReal) := by
    rw [coe_sum]
    refine Finset.sum_congr rfl fun f _ => ?_
    rw [EReal.coe_mul, coe_sum, zero_add]
    congr 1
    refine Finset.sum_congr rfl fun e _ => ?_
    by_cases h : c e
    · rw [if_pos h, if_pos h, EReal.coe_mul]
    · rw [if_neg h, if_neg h, EReal.coe_zero]
  have R : (0 + ∑ e, if c e then (∑ f, (a e f : EReal) * (W f : EReal)) * (w e : EReal) else 0)
      = ((∑ e, if c e then (∑ f, a e f * W f) * w e else 0 : ℝ) : EReal) := by
    rw [coe_sum, zero_add]
    refine Finset.sum_congr rfl fun e _ => ?_
    by_cases h : c e
    · rw [if_pos h, if_pos h, EReal.coe_mul, coe_sum]
      exact congrArg (· * (w e : EReal)) (Finset.sum_congr rfl fun f _ => (EReal.coe_mul _ _).symm)
    · rw [if_neg h, if_neg h, EReal.coe_zero]
  rw [L, R, core_real]

/-! ## The hidden layer -/

/-- On real inputs, summing the weighted 128-feature messages and then multiplying by `w_rel` is multiplying the node
    table by `w_rel` first and summing the weighted 32-feature products. -/
theorem agg_proj (xr : (⟨2, ![50000, 128]⟩ : Shape).Idx → ℝ) (er : (⟨1, ![800000]⟩ : Shape).Idx → ℝ)
    (wr : (⟨2, ![128, 32]⟩ : Shape).Idx → ℝ) (sw dw : Wd 800000) (n : Fin 50000) (d : Fin 32) :
    (∑ f : Fin 128, aggAt (fun i => (xr i : EReal)) sw dw (fun i => (er i : EReal)) n f * (wr (ix2 f d) : EReal))
      = aggAt (proj (fun i => (xr i : EReal)) (fun i => (wr i : EReal))) sw dw (fun i => (er i : EReal)) n d := by
  simp only [aggAt, proj, projAt]
  exact core_ereal (fun e => (dw (ix1 e)).toInt = (n.val : ℤ)) (fun e f => xr (ix2 (srcRow sw e) f))
    (fun e => er (ix1 e)) (fun f => wr (ix2 f d))

/-- The two hidden layers agree where the node table, the edge weights and `w_rel` hold real numbers. -/
theorem hidden_eq (x : Mat 50000 128) (ew : Vc 800000) (wrel : Mat 128 32) (brel : Vc 32) (wroot : Mat 128 32)
    (sw dw : Wd 800000)
    (hx : ∀ i, ∃ r : ℝ, x i = (r : EReal)) (hew : ∀ i, ∃ r : ℝ, ew i = (r : EReal)) (hw : ∀ i, ∃ r : ℝ, wrel i = (r : EReal)) :
    hiddenR x ew wrel brel wroot sw dw = hiddenK x ew wrel brel wroot sw dw := by
  choose xr hxr using hx
  choose er her using hew
  choose wr hwr using hw
  obtain rfl : x = fun i => (xr i : EReal) := funext hxr
  obtain rfl : ew = fun i => (er i : EReal) := funext her
  obtain rfl : wrel = fun i => (wr i : EReal) := funext hwr
  funext i
  unfold hiddenR hiddenK
  have key := agg_proj xr er wr sw dw (i 0) (i 1)
  rw [key, add_right_comm]

/-! ## The sum per graph -/

/-- A small natural number, written as a 32-bit word and read back signed, is itself. -/
theorem toInt_ofNat_small (g : ℕ) (hg : g < 500) : (BitVec.ofNat 32 g).toInt = (g : ℤ) := by
  rw [BitVec.toInt_eq_toNat_cond, BitVec.toNat_ofNat]
  have : g % 2 ^ 32 = g := Nat.mod_eq_of_lt (by omega)
  rw [this]
  split_ifs with h
  · rfl
  · omega

/-- A 32-bit word reads signed as a small natural number exactly when it is that number's word. -/
theorem word_iff (b : BitVec 32) (g : ℕ) (hg : g < 500) : b.toInt = (g : ℤ) ↔ b = BitVec.ofNat 32 g := by
  constructor
  · intro h
    exact BitVec.eq_of_toInt_eq (h.trans (toInt_ofNat_small g hg).symm)
  · rintro rfl
    exact toInt_ofNat_small g hg

/-- The sum over a graph's nodes is the product with the graph's 0/1 selection row. -/
theorem pooled_eq (h : Mat 50000 32) (batch : Wd 50000) : pooledR h batch = pooledK h batch := by
  funext i
  unfold pooledR pooledK
  rw [zero_add]
  refine Finset.sum_congr rfl fun n _ => ?_
  have hi : (i 0).val < 500 := idx2_lt0 i
  by_cases hc : batch (ix1 n) = BitVec.ofNat 32 (i 0).val
  · rw [if_pos hc, if_pos ((word_iff _ _ hi).2 hc), one_mul]
  · rw [if_neg hc, if_neg (fun h' => hc ((word_iff _ _ hi).1 h')), zero_mul]

/-! ## The whole network -/

/-- The two arrangements of the network are one function where the node table, the edge weights and `w_rel` hold real
    numbers. -/
theorem netR_eq_netK (x : Mat 50000 128) (ew : Vc 800000) (wrel : Mat 128 32) (brel : Vc 32) (wroot : Mat 128 32)
    (wfc1 : Mat 32 32) (bfc1 : Vc 32) (wfc2 : Mat 32 2) (bfc2 : Vc 2) (ei : (⟨2, ![2, 800000]⟩ : Shape).Idx → BitVec 32)
    (batch : Wd 50000)
    (hx : ∀ i, ∃ r : ℝ, x i = (r : EReal)) (hew : ∀ i, ∃ r : ℝ, ew i = (r : EReal)) (hw : ∀ i, ∃ r : ℝ, wrel i = (r : EReal)) :
    netR x ew wrel brel wroot wfc1 bfc1 wfc2 bfc2 ei batch = netK x ew wrel brel wroot wfc1 bfc1 wfc2 bfc2 ei batch := by
  unfold netR netK
  rw [hidden_eq x ew wrel brel wroot (srcOf ei) (dstOf ei) hx hew hw, pooled_eq]

end Cert.Bridge

end
-- ==== Proof.Finite.lean ====
/-
  The precondition read at an entry: every float argument array holds real numbers.
-/
import proofs.«426008_j36335423324474_3_alg».proof.Proof.Gen.Pre_finite_inputs
import proofs.«426008_j36335423324474_3_alg».proof.Defs
import Idealize.ShloMosaic.Lib.ReduceAll
import Idealize.ShloMosaic.Lib.ValueIdx
import Mathlib.Data.EReal.Basic

set_option maxRecDepth 16384

noncomputable section

namespace Cert.Finite

open Idealize.ShloMosaic Idealize.ShloMosaic.TcCoe Idealize.ShloMosaic.ValueIdx Idealize.SL.Sem

/-- The scalar shape has one index. -/
instance : Subsingleton Cert.Pre_finite_inputs.S_.Idx := ⟨fun a b => funext fun d => d.elim0⟩

/-- The 32-bit pattern with all exponent bits set, no fraction bit and sign bit clear denotes the top element. -/
theorem inf_bits : Ideal.ofBits .f32 0x7F800000#32 = (⊤ : EReal) := by
  simp [Ideal.ofBits, Ideal.ieee]

/-- A truth value written as one bit is the bit 1 exactly when it is true. -/
theorem ofBool_one (b : Bool) : BitVec.ofBool b = 1#1 ↔ b = true := by cases b <;> decide

/-- An extended real whose absolute value (the larger of itself and its negation) is strictly below the top element
    is a real number. -/
theorem real_of_abs_lt (v : EReal) (h : Ideal.cmp .olt (max v (-v)) (Ideal.ofBits .f32 0x7F800000#32) = 1#1) :
    ∃ r : ℝ, v = (r : EReal) := by
  rw [inf_bits] at h
  have h' : max v (-v) < ⊤ := by
    have hb : decide (max v (-v) < ⊤) = true := (ofBool_one _).1 h
    exact of_decide_eq_true hb
  induction v using EReal.rec with
  | bot => simp at h'
  | coe r => exact ⟨r, rfl⟩
  | top => simp at h'

/-- Both operands of a conjunction of two one-bit scalars that is 1 are 1. -/
theorem andi_ix0 (a b : IVec Cert.Pre_finite_inputs.S_ 1) (h : andi a b ix0 = 1#1) : a ix0 = 1#1 ∧ b ix0 = 1#1 :=
  IntOp.andi_eq_one.1 h

/-- One array's part of the precondition: where the conjunction over all entries of "absolute value below infinity"
    is 1, every entry is a real number. -/
theorem reals_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf x) (broadcastInDim S ![] hb (constant Cert.Pre_finite_inputs.S_ .f32 0x7F800000#32)))
        (constantI Cert.Pre_finite_inputs.S_ 1 1#1) hr hu ix0 = 1#1) (i : S.Idx) :
    ∃ r : ℝ, (x : S.Idx → EReal) i = (r : EReal) := by
  have hi := Host.reduce_andi_all _ _ hr hu ix0 e i
  exact real_of_abs_lt (x i) hi

/-- Under the precondition the node table, the edge weights and `w_rel` hold real numbers on every device. -/
theorem reals_of_pre [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ r : ℝ, (m ((c.tc : Thread Cert.KernelIdeal.nD Cert.KernelIdeal.τ).loc Cert.KernelIdeal.main_arg0) : Cert.KernelIdeal.S50000x128.Idx → EReal) i = (r : EReal))
    ∧ (∀ i, ∃ r : ℝ, (m ((c.tc : Thread Cert.KernelIdeal.nD Cert.KernelIdeal.τ).loc Cert.KernelIdeal.main_arg1) : Cert.KernelIdeal.S800000.Idx → EReal) i = (r : EReal))
    ∧ (∀ i, ∃ r : ℝ, (m ((c.tc : Thread Cert.KernelIdeal.nD Cert.KernelIdeal.τ).loc Cert.KernelIdeal.main_arg2) : Cert.KernelIdeal.S128x32.Idx → EReal) i = (r : EReal)) := by
  -- the precondition at the one index of its scalar result, as the nested conjunction of the per-array parts
  have h0 := congrFun (h c) ValueIdx.ix0
  dsimp only [Cert.Pre_finite_inputs.fn, Cert.Pre_finite_inputs.fn_part1, Cert.Pre_finite_inputs.fn_part2] at h0
  -- peel the conjunction down to the parts of the first three arrays
  obtain ⟨h38, -⟩ := andi_ix0 _ _ h0
  obtain ⟨h33, -⟩ := andi_ix0 _ _ h38
  obtain ⟨h28, -⟩ := andi_ix0 _ _ h33
  obtain ⟨h23, -⟩ := andi_ix0 _ _ h28
  obtain ⟨h18, -⟩ := andi_ix0 _ _ h23
  obtain ⟨h13, -⟩ := andi_ix0 _ _ h18
  obtain ⟨h8, h12⟩ := andi_ix0 _ _ h13
  obtain ⟨h3, h7⟩ := andi_ix0 _ _ h8
  clear h0 h38 h33 h28 h23 h18 h13 h8
  exact ⟨fun i => reals_of_all _ _ _ _ h3 i, fun i => reals_of_all _ _ _ _ h7 i, fun i => reals_of_all _ _ _ _ h12 i⟩

end Cert.Finite

end
-- ==== Proof.lean ====
/-
  The graph-convolution kernel against its reference.

  The kernel program projects the node table through `w_rel` and `w_root` first (a Pallas kernel over ten row blocks),
  gathers, weights and sums the 32-feature projected rows per destination node on the host, and then, in a second Pallas
  kernel over twenty-five row blocks, forms relu(messages + root projection + bias), sums it per graph by a 0/1 selection
  product into an accumulator carried across the blocks, and applies two small linear layers and a log-softmax at the last
  block. The reference sums the 128-feature messages per destination first and multiplies by `w_rel` afterwards, and sums
  per graph with a segment sum.

  At the ideal values both compute one function of the arguments when the node table, the edge weights and `w_rel` hold
  real numbers, which the precondition says: a row-wise product with `w_rel` commutes with gathering rows, scaling them
  and summing them (distributivity among reals), and a segment sum is the product with the segment's selection row.
  Each program's frame — it runs to the end, faults nowhere, and leaves its arguments unchanged — is read off its run.
-/
import proofs.«426008_j36335423324474_3_alg».proof.Defs
import proofs.«426008_j36335423324474_3_alg».proof.Proof.Gen.Kernel
import proofs.«426008_j36335423324474_3_alg».proof.Proof.Gen.KernelIdeal
import proofs.«426008_j36335423324474_3_alg».proof.Proof.Gen.ReferenceIdeal
import proofs.«426008_j36335423324474_3_alg».proof.Proof.Gen.Pre_finite_inputs
import proofs.«426008_j36335423324474_3_alg».proof.Proof.Gen.ReferenceIdeal.Run
import proofs.«426008_j36335423324474_3_alg».proof.Proof.Gen.ReferenceIdeal.Read
import proofs.«426008_j36335423324474_3_alg».proof.Proof.Kernel.ProgramRun
import proofs.«426008_j36335423324474_3_alg».proof.Proof.KernelIdeal.KernelValue
import proofs.«426008_j36335423324474_3_alg».proof.Proof.RefValue
import proofs.«426008_j36335423324474_3_alg».proof.Proof.Bridge
import proofs.«426008_j36335423324474_3_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Hand.frame (F := Bits) m ρ

/-- So does its reading at the ideal values. -/
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments in their result: the kernel's in the arrangement that projects
    first, the reference's in the arrangement that sums messages first, and the two arrangements agree on real inputs. -/
theorem algebraic : Cert.algebraic_KernelIdeal_ReferenceIdeal := by
  intro m ρ m' ρ' hpre hagree
  refine ⟨fun c => Cert.Spec.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_eq m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    obtain ⟨hx, hew, hw⟩ := Cert.Finite.reals_of_pre m hpre c
    rw [Cert.ReferenceIdeal.Read.val_main_v36_eq, h0, h1, h2, h3, h4, h5, h6, h7, h8, h9, h10,
      Cert.ReferenceIdeal.RefValue.ref_eq]
    exact Cert.Bridge.netR_eq_netK _ _ _ _ _ _ _ _ _ _ _ hx hew hw

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
